-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x256 .f32) (main_arg14 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x256 .f32 := Host.absf main_arg13
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S1024 .f32) (main_arg10 : FVec F S1024 .f32) (main_arg11 : FVec F S1x256 .f32) (main_arg12 : FVec F S1 .f32) (main_arg13 : FVec F S1x256 .f32) (main_arg14 : FVec F S1 .f32) (main_v33 : IVec S_ 1) : IVec S_ 1 :=
  let main_v34 : FVec F S1024 .f32 := Host.absf main_arg9
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg10
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1x256 .f32 := Host.absf main_arg11
  let main_cst_16 : FVec F S_ .f32 := constant S_ .f32 0x7F800000#32
  let main_v45 : FVec F S1x256 .f32 := broadcastInDim S1x256 ![] bcast_S_S1x256 main_cst_16
  let main_v46 : IVec S1x256 1 := cmpf .olt main_v44 main_v45
  let main_c_17 : IVec S_ 1 := constantI S_ 1 1#1
  let main_v47 : IVec S_ 1 := (fun x v => Host.reduce IntOp.andi x v reducesTo_S1x256_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_v48 main_v49 main_v50

def fn_part1 {F : FTy → Type} [FloatOps F] (main_arg6 : FVec F S128 .f32) (main_arg7 : FVec F S1024x128 .f32) (main_arg8 : FVec F S1024x256 .f32) (main_arg9 : FVec F S1024 .f32) (main_arg10 : FVec F S1024 .f32) (main_arg11 : FVec F S1x256 .f32) (main_arg12 : FVec F S1 .f32) (main_arg13 : FVec F S1x256 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x128 .f32 := Host.absf main_arg7
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S1024x256 .f32 := Host.absf main_arg8
  let main_cst_10 : FVec F S_ .f32 := constant S_ .f32 0x7F800000#32
  let main_v30 : FVec F S1024x256 .f32 := broadcastInDim S1024x256 ![] bcast_S_S1024x256 main_cst_10
  let main_v31 : IVec S1024x256 1 := cmpf .olt main_v29 main_v30
  let main_c_11 : IVec S_ 1 := constantI S_ 1 1#1
  let main_v32 : IVec S_ 1 := (fun x v => Host.reduce IntOp.andi x v reducesTo_S1024x256_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S1024x128 .f32) (main_arg8 : FVec F S1024x256 .f32) (main_arg9 : FVec F S1024 .f32) (main_arg10 : FVec F S1024 .f32) (main_arg11 : FVec F S1x256 .f32) (main_arg12 : FVec F S1 .f32) (main_arg13 : FVec F S1x256 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S650000x128 : Shape := ⟨2, ![650000, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x1 : Shape := ⟨2, ![64, 1]⟩
abbrev S1x1024 : Shape := ⟨2, ![1, 1024]⟩
abbrev S1x1 : Shape := ⟨2, ![1, 1]⟩
abbrev S64x1024 : Shape := ⟨2, ![64, 1024]⟩
abbrev S64x256 : Shape := ⟨2, ![64, 256]⟩

abbrev nBuf : Space → Nat
  | .hbm => 96
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1024x128, .f32⟩
  | .hbm, ⟨8, _⟩ => ⟨S1024x256, .f32⟩
  | .hbm, ⟨9, _⟩ => ⟨S1024, .f32⟩
  | .hbm, ⟨10, _⟩ => ⟨S1024, .f32⟩
  | .hbm, ⟨11, _⟩ => ⟨S1x256, .f32⟩
  | .hbm, ⟨12, _⟩ => ⟨S1, .f32⟩
  | .hbm, ⟨13, _⟩ => ⟨S1x256, .f32⟩
  | .hbm, ⟨14, _⟩ => ⟨S1, .f32⟩
  | .hbm, ⟨15, _⟩ => ⟨S50000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S1x600000, .i32⟩
  | .hbm, ⟨20, _⟩ => ⟨S600000, .i32⟩
  | .hbm, ⟨21, _⟩ => ⟨S650000, .i32⟩
  | .hbm, ⟨22, _⟩ => ⟨S_, .f32⟩
  | .hbm, ⟨23, _⟩ => ⟨S650000, .f32⟩
  | .hbm, ⟨24, _⟩ => ⟨S_, .f32⟩
  | .hbm, ⟨25, _⟩ => ⟨S50000, .f32⟩
  | .hbm, ⟨26, _⟩ => ⟨S650000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S1x128, .f32⟩
  | .hbm, ⟨38, _⟩ => ⟨S1x128, .f32⟩
  | .hbm, ⟨39, _⟩ => ⟨S50000x128, .bf16⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000x128, .bf16⟩
  | .hbm, ⟨49, _⟩ => ⟨S650000x128, .f32⟩
  | .hbm, ⟨50, _⟩ => ⟨S_, .f32⟩
  | .hbm, ⟨51, _⟩ => ⟨S50000x128, .f32⟩
  | .hbm, ⟨52, _⟩ => ⟨S650000x1, .i32⟩
  | .hbm, ⟨53, _⟩ => ⟨S50000x128, .f32⟩
  | .hbm, ⟨54, _⟩ => ⟨S50000x128, .bf16⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x128, .bf16⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S50000x1, .i32⟩
  | .hbm, ⟨70, _⟩ => ⟨S64, .i32⟩
  | .hbm, ⟨71, _⟩ => ⟨S1x64, .i32⟩
  | .hbm, ⟨72, _⟩ => ⟨S50000x64, .i32⟩
  | .hbm, ⟨73, _⟩ => ⟨S50000x64, .i32⟩
  | .hbm, ⟨74, _⟩ => ⟨S50000x64, .i1⟩
  | .hbm, ⟨75, _⟩ => ⟨S50000x64, .bf16⟩
  | .hbm, ⟨76, _⟩ => ⟨S64x128, .f32⟩
  | .hbm, ⟨77, _⟩ => ⟨S_, .f32⟩
  | .hbm, ⟨78, _⟩ => ⟨S50000, .f32⟩
  | .hbm, ⟨79, _⟩ => ⟨S_, .f32⟩
  | .hbm, ⟨80, _⟩ => ⟨S64, .f32⟩
  | .hbm, ⟨81, _⟩ => ⟨S50000x1, .i32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S64x1, .f32⟩
  | .hbm, ⟨90, _⟩ => ⟨S1x1024, .f32⟩
  | .hbm, ⟨91, _⟩ => ⟨S1x1024, .f32⟩
  | .hbm, ⟨92, _⟩ => ⟨S1x1, .f32⟩
  | .hbm, ⟨93, _⟩ => ⟨S1x1, .f32⟩
  | .hbm, ⟨94, _⟩ => ⟨S64x1, .f32⟩
  | .hbm, ⟨95, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x64, .bf16⟩
  | .local _ .vmem, ⟨21, _⟩ => ⟨S5000x64, .bf16⟩
  | .local _ .vmem, ⟨22, _⟩ => ⟨S64x128, .f32⟩
  | .local _ .vmem, ⟨23, _⟩ => ⟨S64x128, .f32⟩
  | .local _ .vmem, ⟨24, _⟩ => ⟨S64x1, .f32⟩
  | .local _ .vmem, ⟨25, _⟩ => ⟨S1024x128, .f32⟩
  | .local _ .vmem, ⟨26, _⟩ => ⟨S1x1024, .f32⟩
  | .local _ .vmem, ⟨27, _⟩ => ⟨S1x1024, .f32⟩
  | .local _ .vmem, ⟨28, _⟩ => ⟨S1x256, .f32⟩
  | .local _ .vmem, ⟨29, _⟩ => ⟨S1x1, .f32⟩
  | .local _ .vmem, ⟨30, _⟩ => ⟨S1x256, .f32⟩
  | .local _ .vmem, ⟨31, _⟩ => ⟨S1x1, .f32⟩
  | .local _ .vmem, ⟨32, _⟩ => ⟨S64x1, .f32⟩
  | .local _ .vmem, ⟨33, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_cst_9 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63_0 : Ref sig .tc := ⟨.hbm, 94, rfl⟩
abbrev main_v63_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg10_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S64x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  bcast_S_S64 : S_.BroadcastsInDim S64 (![] : Fin 0 → Fin S64.rank)
  shapeCasts_S64_S64x1 : S64.ShapeCasts S64x1
  shapeCasts_S1024_S1x1024 : S1024.ShapeCasts S1x1024
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S1024x128_S1024x128_0_0 : ∀ a, (![0, 0] : Fin 2 → Nat) a + S1024x128.size a ≤ S1024x128.size a
  h_S1024x128 : 0 < S1024x128.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  slices_S64x1024_o0_0_S64x256 : S64x1024.Slices ![0, 0] S64x256
  slices_S64x1024_o0_512_S64x256 : S64x1024.Slices ![0, 512] S64x256
  slices_S64x1024_o0_768_S64x256 : S64x1024.Slices ![0, 768] S64x256
  inb_S1x256_S1x256_0_0 : ∀ a, (![0, 0] : Fin 2 → Nat) a + S1x256.size a ≤ S1x256.size a
  h_S1x256 : 0 < S1x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x256_S64x256 : S1x256.Broadcasts S64x256
  reduces_S64x256_S64 : S64x256.Reduces [1] S64
  broadcasts_S1x1_S64x1 : S1x1.Broadcasts S64x1
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  dot_S64x128_S1024x128_S64x1024_1_1_0_0_n_n_wf : DotDims.WF S64x128 S1024x128 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .bf16 = 32 ∨ (Rect.block (s := S50000x64) S5000x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S1024x128.size a
  hwx3_2 : ∀ i : grid3.Coords, EltTy.bits .f32 = 32 ∨ (Rect.block (s := S1024x128) S1024x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1024.size a ≤ S1x1024.size a
  hwx3_3 : ∀ i : grid3.Coords, EltTy.bits .f32 = 32 ∨ (Rect.block (s := S1x1024) S1x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S64x1.size a ≤ S64x1.size a
  hwx3_9 : ∀ i : grid3.Coords, EltTy.bits .f32 = 32 ∨ (Rect.block (s := S64x1) S64x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S64x1.size a ≤ S64x1.size a
  hwx3_10 : ∀ i : grid3.Coords, EltTy.bits .f32 = 32 ∨ (Rect.block (s := S64x1) S64x1.size (cc3_transform_10 i) (hinb3_10 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S1024x128_S64x1024_1_1_0_0_n_n : DotDims S64x128 S1024x128 S64x1024 where
  lhsContracting := [1]
  rhsContracting := [1]
  lhsNonContracting := [0]
  rhsNonContracting := [0]
  lhsBatch := []
  rhsBatch := []
  wf := dot_S64x128_S1024x128_S64x1024_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v49) S64x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v58) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S1024x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v61) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg13) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v62) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v63_0) S64x1.size cc3_transform_9 reads3_9 true true 1 stage3_9 sem3_9
    hrank3 hreads3_9 hinb3_9 nbuf3_9 (Memref.isWhole_whole _) hwx3_9 hstage3_9

abbrev win3_10 : Pipeline.Window sig grid3 :=
  Pipeline.Window.ofSpec (Memref.whole main_v63_1) S64x1.size cc3_transform_10 reads3_10 true true 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S1024x128 : Shape := ⟨2, ![1024, 128]⟩
abbrev S1024x256 : Shape := ⟨2, ![1024, 256]⟩
abbrev S1024 : Shape := ⟨1, ![1024]⟩
abbrev S1x256 : Shape := ⟨2, ![1, 256]⟩
abbrev S1 : Shape := ⟨1, ![1]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S128x1024 : Shape := ⟨2, ![128, 1024]⟩
abbrev S64x1024 : Shape := ⟨2, ![64, 1024]⟩
abbrev S1x1024 : Shape := ⟨2, ![1, 1024]⟩
abbrev S64x256 : Shape := ⟨2, ![64, 256]⟩
abbrev S256x1 : Shape := ⟨2, ![256, 1]⟩
abbrev S1x1 : Shape := ⟨2, ![1, 1]⟩

abbrev nBuf : Space → Nat
  | .hbm => 221
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S1024x128, .f32⟩
  | 8 => ⟨S1024x256, .f32⟩
  | 9 => ⟨S1024, .f32⟩
  | 10 => ⟨S1024, .f32⟩
  | 11 => ⟨S1x256, .f32⟩
  | 12 => ⟨S1, .f32⟩
  | 13 => ⟨S1x256, .f32⟩
  | 14 => ⟨S1, .f32⟩
  | 15 => ⟨S50000x128, .f32⟩
  | 16 => ⟨S50000, .i32⟩
  | 17 => ⟨S1x600000, .i32⟩
  | 18 => ⟨S600000, .i32⟩
  | 19 => ⟨S650000, .i32⟩
  | 20 => ⟨S1x600000, .i32⟩
  | 21 => ⟨S600000, .i32⟩
  | 22 => ⟨S650000, .i32⟩
  | 23 => ⟨S_, .f32⟩
  | 24 => ⟨S650000, .f32⟩
  | 25 => ⟨S_, .f32⟩
  | 26 => ⟨S50000, .f32⟩
  | 27 => ⟨S650000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S650000, .i32⟩
  | 39 => ⟨S650000, .i1⟩
  | 40 => ⟨S_, .i32⟩
  | 41 => ⟨S650000, .i32⟩
  | 42 => ⟨S650000, .i32⟩
  | 43 => ⟨S650000, .i32⟩
  | 44 => ⟨S650000x1, .i32⟩
  | 45 => ⟨S650000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000x128, .f32⟩
  | 65 => ⟨S650000x1, .f32⟩
  | 66 => ⟨S650000x128, .f32⟩
  | 67 => ⟨S650000x128, .f32⟩
  | 68 => ⟨S_, .f32⟩
  | 69 => ⟨S50000x128, .f32⟩
  | 70 => ⟨S650000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S50000, .i32⟩
  | 80 => ⟨S1x600000, .i32⟩
  | 81 => ⟨S600000, .i32⟩
  | 82 => ⟨S650000, .i32⟩
  | 83 => ⟨S1x600000, .i32⟩
  | 84 => ⟨S600000, .i32⟩
  | 85 => ⟨S650000, .i32⟩
  | 86 => ⟨S_, .f32⟩
  | 87 => ⟨S650000, .f32⟩
  | 88 => ⟨S_, .f32⟩
  | 89 => ⟨S50000, .f32⟩
  | 90 => ⟨S650000x1, .i32⟩
  | 91 => ⟨S50000, .f32⟩
  | 92 => ⟨S_, .f32⟩
  | 93 => ⟨S50000, .f32⟩
  | 94 => ⟨S50000, .i1⟩
  | 95 => ⟨S50000, .f32⟩
  | 96 => ⟨S_, .f32⟩
  | 97 => ⟨S_, .f32⟩
  | 98 => ⟨S50000, .f32⟩
  | 99 => ⟨S50000, .f32⟩
  | 100 => ⟨S_, .i32⟩
  | 101 => ⟨S650000, .i32⟩
  | 102 => ⟨S650000, .i1⟩
  | 103 => ⟨S_, .i32⟩
  | 104 => ⟨S650000, .i32⟩
  | 105 => ⟨S650000, .i32⟩
  | 106 => ⟨S650000, .i32⟩
  | 107 => ⟨S650000x1, .i32⟩
  | 108 => ⟨S650000, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000, .f32⟩
  | 118 => ⟨S650000, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x128, .f32⟩
  | _ => ⟨S50000x128, .f32⟩

abbrev hbmTy0_1 (i : Nat) : BufTy := match i % 128 with
  | 0 => ⟨S650000x1, .f32⟩
  | 1 => ⟨S650000x128, .f32⟩
  | 2 => ⟨S650000x128, .f32⟩
  | 3 => ⟨S_, .f32⟩
  | 4 => ⟨S50000x128, .f32⟩
  | 5 => ⟨S650000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .f32⟩
  | 13 => ⟨S_, .f32⟩
  | 14 => ⟨S64x128, .f32⟩
  | 15 => ⟨S50000x1, .i32⟩
  | 16 => ⟨S64x128, .f32⟩
  | 17 => ⟨S_, .f32⟩
  | 18 => ⟨S50000, .f32⟩
  | 19 => ⟨S_, .f32⟩
  | 20 => ⟨S64, .f32⟩
  | 21 => ⟨S50000x1, .i32⟩
  | 22 => ⟨S64, .f32⟩
  | 23 => ⟨S_, .f32⟩
  | 24 => ⟨S64, .f32⟩
  | 25 => ⟨S64, .f32⟩
  | 26 => ⟨S64x1, .f32⟩
  | 27 => ⟨S64x128, .f32⟩
  | 28 => ⟨S64x128, .f32⟩
  | 29 => ⟨S128x1024, .f32⟩
  | 30 => ⟨S64x1024, .f32⟩
  | 31 => ⟨S1x1024, .f32⟩
  | 32 => ⟨S64x1024, .f32⟩
  | 33 => ⟨S64x1024, .f32⟩
  | 34 => ⟨S1x1024, .f32⟩
  | 35 => ⟨S64x1024, .f32⟩
  | 36 => ⟨S64x1024, .f32⟩
  | 37 => ⟨S64x256, .f32⟩
  | 38 => ⟨S64x256, .f32⟩
  | 39 => ⟨S64x256, .f32⟩
  | 40 => ⟨S64x256, .f32⟩
  | 41 => ⟨S64x256, .f32⟩
  | 42 => ⟨S64x256, .f32⟩
  | 43 => ⟨S_, .f32⟩
  | 44 => ⟨S64x256, .f32⟩
  | 45 => ⟨S64x256, .f32⟩
  | 46 => ⟨S_, .f32⟩
  | 47 => ⟨S64x256, .f32⟩
  | 48 => ⟨S64x256, .f32⟩
  | 49 => ⟨S64x256, .f32⟩
  | 50 => ⟨S64x256, .f32⟩
  | 51 => ⟨S_, .f32⟩
  | 52 => ⟨S64x256, .f32⟩
  | 53 => ⟨S64x256, .f32⟩
  | 54 => ⟨S_, .f32⟩
  | 55 => ⟨S64x256, .f32⟩
  | 56 => ⟨S64x256, .f32⟩
  | 57 => ⟨S64x256, .f32⟩
  | 58 => ⟨S64x256, .f32⟩
  | 59 => ⟨S_, .f32⟩
  | 60 => ⟨S64x256, .f32⟩
  | 61 => ⟨S64x256, .f32⟩
  | 62 => ⟨S_, .f32⟩
  | 63 => ⟨S64x256, .f32⟩
  | 64 => ⟨S64x256, .f32⟩
  | 65 => ⟨S64x256, .f32⟩
  | 66 => ⟨S64x256, .f32⟩
  | 67 => ⟨S64x256, .f32⟩
  | 68 => ⟨S64x256, .f32⟩
  | 69 => ⟨S256x1, .f32⟩
  | 70 => ⟨S64x1, .f32⟩
  | 71 => ⟨S1x1, .f32⟩
  | 72 => ⟨S64x1, .f32⟩
  | 73 => ⟨S64x1, .f32⟩
  | 74 => ⟨S256x1, .f32⟩
  | 75 => ⟨S64x1, .f32⟩
  | 76 => ⟨S1x1, .f32⟩
  | 77 => ⟨S64x1, .f32⟩
  | 78 => ⟨S64x1, .f32⟩
  | 79 => ⟨S_, .f32⟩
  | 80 => ⟨S64x1, .f32⟩
  | 81 => ⟨S64x1, .f32⟩
  | 82 => ⟨S64x1, .f32⟩
  | 83 => ⟨S64x1, .f32⟩
  | 84 => ⟨S64x1, .i1⟩
  | 85 => ⟨S64x1, .f32⟩
  | 86 => ⟨S64x1, .f32⟩
  | 87 => ⟨S64x1, .f32⟩
  | 88 => ⟨S64x1, .f32⟩
  | 89 => ⟨S64x1, .f32⟩
  | 90 => ⟨S64x1, .f32⟩
  | 91 => ⟨S64x1, .f32⟩
  | 92 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_v63 : Ref sig .tc := ⟨.hbm, 99, rfl⟩
abbrev main_c_13 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_15 : Ref sig .tc := ⟨.hbm, 109, rfl⟩
abbrev main_v71 : Ref sig .tc := ⟨.hbm, 110, rfl⟩
abbrev main_v72 : Ref sig .tc := ⟨.hbm, 111, rfl⟩
abbrev main_c_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_17 : Ref sig .tc := ⟨.hbm, 119, rfl⟩
abbrev main_v79 : Ref sig .tc := ⟨.hbm, 120, rfl⟩
abbrev main_v80 : Ref sig .tc := ⟨.hbm, 121, rfl⟩
abbrev main_c_18 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_19 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call3_cst : Ref sig .tc := ⟨.hbm, 138, rfl⟩
abbrev main_call3_v0 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_21 : Ref sig .tc := ⟨.hbm, 145, rfl⟩
abbrev main_v99 : Ref sig .tc := ⟨.hbm, 146, rfl⟩
abbrev main_cst_22 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_23 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_24 : Ref sig .tc := ⟨.hbm, 171, rfl⟩
abbrev main_v122 : Ref sig .tc := ⟨.hbm, 172, rfl⟩
abbrev main_v123 : Ref sig .tc := ⟨.hbm, 173, rfl⟩
abbrev main_cst_25 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_26 : Ref sig .tc := ⟨.hbm, 179, rfl⟩
abbrev main_v128 : Ref sig .tc := ⟨.hbm, 180, rfl⟩
abbrev main_v129 : Ref sig .tc := ⟨.hbm, 181, rfl⟩
abbrev main_cst_27 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_28 : Ref sig .tc := ⟨.hbm, 187, rfl⟩
abbrev main_v134 : Ref sig .tc := ⟨.hbm, 188, rfl⟩
abbrev main_v135 : Ref sig .tc := ⟨.hbm, 189, rfl⟩
abbrev main_cst_29 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_v7 : Ref sig .tc := ⟨.hbm, 215, rfl⟩
abbrev main_call4_v8 : Ref sig .tc := ⟨.hbm, 216, rfl⟩
abbrev main_call4_v9 : Ref sig .tc := ⟨.hbm, 217, rfl⟩
abbrev main_call4_v10 : Ref sig .tc := ⟨.hbm, 218, rfl⟩
abbrev main_call4_v11 : Ref sig .tc := ⟨.hbm, 219, rfl⟩
abbrev main_v152 : Ref sig .tc := ⟨.hbm, 220, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  transposes_S1024x128_S128x1024_1_0 : S1024x128.Transposes [1, 0] S128x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  slices_S64x1024_S64x256_0_0 : S64x1024.Slices ![0, 0] S64x256
  slices_S64x1024_S64x256_0_256 : S64x1024.Slices ![0, 256] S64x256
  slices_S64x1024_S64x256_0_512 : S64x1024.Slices ![0, 512] S64x256
  slices_S64x1024_S64x256_0_768 : S64x1024.Slices ![0, 768] S64x256
  bcast_S_S64x256 : S_.BroadcastsInDim S64x256 (![] : Fin 0 → Fin S64x256.rank)
  transposes_S1x256_S256x1_1_0 : S1x256.Transposes [1, 0] S256x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1024_S64x1024_1_0_0_1_n_n_wf : DotDims.WF S64x128 S128x1024 S64x1024 [1] [0] [0] [1] [] []
  dot_S64x256_S256x1_S64x1_1_0_0_1_n_n_wf : DotDims.WF S64x256 S256x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

class Facts : Prop extends Facts₀ where

variable [Facts]
-- ==== Proof.KStages.lean ====
/-
  The kernel program's host-side values between its launches, each as one function of the argument arrays, spelt with
  the operations @main applies: the edge lists with a self-loop per node appended, the in-degree, its inverse square
  root where positive, the row gather followed by the scatter-add onto destination rows, the node-by-graph indicator
  and the reciprocal of the graph sizes.
-/
import proofs.«404547_j11510512353640_2_alg».proof.KernelIdeal

noncomputable section

namespace Cert.KernelIdeal.Stage

open Cert.KernelIdeal Idealize.ShloMosaic Idealize.ShloMosaic.TcCoe
open Cert.KernelIdeal.Facts₀ Cert.KernelIdeal.Facts

variable {F : FTy → Type} [FloatOps F] [Cert.KernelIdeal.Facts]

/-- Edge sources followed by every node once (its self-loop). -/
def src (x1 : IVec S2x600000 32) : IVec S650000 32 :=
  concatenate S650000 0 [⟨S600000, shapeCast _ (extractStridedSlice S1x600000 ![0, 0] x1 slices_S2x600000_S1x600000_0_0) shapeCasts_S1x600000_S600000⟩, ⟨S50000, iotaInDim S50000 32 0⟩] concatenates_S600000_S50000_S650000_d0

/-- Edge destinations followed by every node once. -/
def dst (x1 : IVec S2x600000 32) : IVec S650000 32 :=
  concatenate S650000 0 [⟨S600000, shapeCast _ (extractStridedSlice S1x600000 ![1, 0] x1 slices_S2x600000_S1x600000_1_0) shapeCasts_S1x600000_S600000⟩, ⟨S50000, iotaInDim S50000 32 0⟩] concatenates_S600000_S50000_S650000_d0

/-- The destinations as a column of row numbers. -/
def dstCol (x1 : IVec S2x600000 32) : IVec S650000x1 32 :=
  broadcastInDim S650000x1 ![0] bcast_S650000_S650000x1_0 (dst x1)

/-- The sources, a negative one moved up by the node count, as a column of row numbers. -/
def srcCol (x1 : IVec S2x600000 32) : IVec S650000x1 32 :=
  broadcastInDim S650000x1 ![0] bcast_S650000_S650000x1_0
    (select (cmpi .slt (src x1) (broadcastInDim S650000 ![] bcast_S_S650000 (constantI S_ 32 0#32)))
      (addi (src x1) (broadcastInDim S650000 ![] bcast_S_S650000 (constantI S_ 32 50000#32))) (src x1))

/-- A node's in-degree, self-loop included: ones added at the destinations. -/
def deg (x1 : IVec S2x600000 32) : FVec F S50000 .f32 :=
  Host.scatterAdd scatter_S50000_S650000x1_S650000_n_0_0_1 (broadcastInDim S50000 ![] bcast_S_S50000 (constant S_ .f32 0x00000000#32))
    (dstCol x1) (broadcastInDim S650000 ![] bcast_S_S650000 (constant S_ .f32 0x3F800000#32))

/-- The inverse square root of the degree where it is positive, zero elsewhere. -/
def dinv (x1 : IVec S2x600000 32) : FVec F S50000 .f32 :=
  select (cmpf .ogt (deg (F := F) x1) (broadcastInDim S50000 ![] bcast_S_S50000 (constant S_ .f32 0x00000000#32)))
    (Host.rsqrt (deg (F := F) x1)) (broadcastInDim S50000 ![] bcast_S_S50000 (id (constant S_ .f32 0x00000000#32)))

/-- The same as a column. -/
def dinv2 (x1 : IVec S2x600000 32) : FVec F S50000x1 .f32 :=
  shapeCast _ (dinv (F := F) x1) shapeCasts_S50000_S50000x1

/-- A bias vector as a row. -/
def row128 (b : FVec F S128 .f32) : FVec F S1x128 .f32 := shapeCast _ b shapeCasts_S128_S1x128
def row1024 (b : FVec F S1024 .f32) : FVec F S1x1024 .f32 := shapeCast _ b shapeCasts_S1024_S1x1024
def row1 (b : FVec F S1 .f32) : FVec F S1x1 .f32 := shapeCast _ b shapeCasts_S1_S1x1

/-- Message passing: row `src e` of `hs` added onto row `dst e`, over every edge and self-loop `e`. -/
def agg (x1 : IVec S2x600000 32) (hs : FVec F S50000x128 .bf16) : FVec F S50000x128 .f32 :=
  Host.scatterAdd scatter_S50000x128_S650000x1_S650000x128_1_0_0_1 (broadcastInDim S50000x128 ![] bcast_S_S50000x128 (constant S_ .f32 0x00000000#32))
    (dstCol x1) (extf .f32 (Host.gather gather_S50000x128_S650000x1_S650000x128_1_0_n_n_0_1_1128 hs (srcCol x1)) bitsLt_bf16_f32)

/-- The node-by-graph indicator: one where the node's graph number is the column's. -/
def onehot (x2 : IVec S50000 32) : FVec F S50000x64 .bf16 :=
  uitofp .bf16 (cmpi .eq (broadcastInDim S50000x64 ![0, 1] bcast_S50000x1_S50000x64_0_1 (broadcastInDim S50000x1 ![0] bcast_S50000_S50000x1_0 x2))
    (broadcastInDim S50000x64 ![0, 1] bcast_S1x64_S50000x64_0_1 (broadcastInDim S1x64 ![1] bcast_S64_S1x64_1 (iotaInDim S64 32 0))))

/-- The number of nodes of each graph. -/
def cnt (x2 : IVec S50000 32) : FVec F S64 .f32 :=
  Host.scatterAdd scatter_S64_S50000x1_S50000_n_0_0_1 (broadcastInDim S64 ![] bcast_S_S64 (constant S_ .f32 0x00000000#32))
    (broadcastInDim S50000x1 ![0] bcast_S50000_S50000x1_0 x2) (broadcastInDim S50000 ![] bcast_S_S50000 (constant S_ .f32 0x3F800000#32))

/-- One over the graph size (a size below one counted as one), as a column. -/
def invc2 (x2 : IVec S50000 32) : FVec F S64x1 .f32 :=
  shapeCast _ (Host.divf (broadcastInDim S64 ![] bcast_S_S64 (constant S_ .f32 0x3F800000#32))
    (maximumf (cnt (F := F) x2) (broadcastInDim S64 ![] bcast_S_S64 (constant S_ .f32 0x3F800000#32)))) shapeCasts_S64_S64x1

end Cert.KernelIdeal.Stage

end
-- ==== Proof.Spec.lean ====
/-
  What each kernel region leaves in its output array, written index by index over the extended reals, as one
  function of the arrays the region reads. Rows are graph nodes (50000 of them, 128 features each); `d2` is the
  column of the nodes' inverse square-root degrees; a graph's pooled row is the sum of its nodes' rows.
-/
import Idealize.ShloMosaic.Lib.ValueIdx
import Idealize.ShloMosaic.PureOps.Ideal

noncomputable section

open scoped BigOperators

namespace Cert.Spec

open Idealize.ShloMosaic Idealize.ShloMosaic.ValueIdx

/-- An array of extended reals over the literal extents. -/
abbrev Arr1 (n : Nat) : Type := (⟨1, ![n]⟩ : Shape).Idx → EReal
abbrev Arr2 (n0 n1 : Nat) : Type := (⟨2, ![n0, n1]⟩ : Shape).Idx → EReal

/-- The two coordinates of a rank-2 index as plain `Fin`s. -/
abbrev c0 {n0 n1 : Nat} (i : (⟨2, ![n0, n1]⟩ : Shape).Idx) : Fin n0 := ⟨(i 0).val, idx2_lt0 i⟩
abbrev c1 {n0 n1 : Nat} (i : (⟨2, ![n0, n1]⟩ : Shape).Idx) : Fin n1 := ⟨(i 1).val, idx2_lt1 i⟩

theorem ix2_c0_c1 {n0 n1 : Nat} (i : (⟨2, ![n0, n1]⟩ : Shape).Idx) : ix2 (c0 i) (c1 i) = i := by
  funext a; match a with | ⟨0, _⟩ => rfl | ⟨1, _⟩ => rfl

/-- Row `i₀` of `x · W`, scaled by the row's entry of the column `d2`: `(∑ₖ x[i₀,k] · W[k,i₁]) · d2[i₀]`. -/
def scaled {n k g : Nat} (x : Arr2 n k) (W : Arr2 k g) (d2 : Arr2 n 1) : Arr2 n g :=
  fun i => (∑ q : Fin k, x (ix2 (c0 i) q) * W (ix2 q (c1 i))) * d2 (ix2 (c0 i) (0 : Fin 1))

/-- A layer's activation from its aggregated messages: `max (conv[i] · d2[i₀] + b[i₁]) 0`. -/
def feat {n g : Nat} (conv : Arr2 n g) (d2 : Arr2 n 1) (b : Arr2 1 g) : Arr2 n g :=
  fun i => max (conv i * d2 (ix2 (c0 i) (0 : Fin 1)) + b (ix2 (0 : Fin 1) (c1 i))) 0

/-- The second layer's scaled pre-aggregation rows: the activation of the first layer times `W`, scaled again. -/
def layer2 {n g h : Nat} (conv : Arr2 n g) (d2 : Arr2 n 1) (b : Arr2 1 g) (W : Arr2 g h) : Arr2 n h :=
  scaled (feat conv d2 b) W d2

/-- Per-graph sums of the second layer's activation through a node-by-graph indicator `oh`:
    `∑ᵣ oh[r,g₀] · feat[r,g₁]`. -/
def pooled {n g G : Nat} (conv : Arr2 n g) (d2 : Arr2 n 1) (b : Arr2 1 g) (oh : Arr2 n G) : Arr2 G g :=
  fun j => ∑ r : Fin n, oh (ix2 r (c0 j)) * feat conv d2 b (ix2 r (c1 j))

end Cert.Spec

end
-- ==== Proof.LibRows.lean ====
/-
  General facts about taking rows of a matrix by a column of row numbers and adding rows onto rows by one
  (StableHLO's gather and scatter with the row axis collapsed / inserted), read at an index, and the one
  distributive law the extended reals keep: a sum times a non-negative real.
-/
import Idealize.ShloMosaic.Lib.ValueIdx
import Idealize.ShloMosaic.PureOps.Ideal
import Idealize.ShloMosaic.Lib.StableHlo.Predicate
import proofs.«404547_j11510512353640_2_alg».proof.Proof.Spec

noncomputable section

open scoped BigOperators

namespace Cert.LibRows

open Idealize.ShloMosaic Idealize.ShloMosaic.ValueIdx Cert.Spec

/-- A list that is a singleton has that one element at every position. -/
private theorem getElem_of_eq_singleton {β : Type} {l : List β} {a : β} (h : l = [a]) (k : Nat) (hk : k < l.length) :
    l[k] = a := by
  subst h
  have h0 : k = 0 := by simpa using hk
  subst h0; rfl

/-- ROWS TAKEN. Element `(e, q)` of the gather of a matrix `x : [N, C]` at a column `idx : [n, 1]` of row numbers is
    `x` at the row number read signed and clamped into `[0, N - 1]`, same column `q`. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (j : (⟨2, ![n, C]⟩ : Shape).Idx) :
    Host.gather d x idx j = x (ix2 (⟨min (idx (ix2 (c0 j) (0 : Fin 1))).toInt.toNat (N - 1), by omega⟩ : Fin N) (c1 j)) := by
  unfold Host.gather
  congr 1
  funext a
  have hb : ∀ a : Fin 2, a ∉ d.operandBatchingDims := fun a => by rw [hob]; exact List.not_mem_nil
  have ne01 : (0 : Fin 2) ∉ [(1 : Fin 2)] := by decide
  have ne10 : (1 : Fin 2) ∉ [(0 : Fin 2)] := by decide
  have hbatch : d.batchDims = [0] := by
    show Shape.kept _ d.offsetDims = _
    rw [hoff]; rfl
  have hsik : d.siKept = [0] := by
    show (List.finRange 2).filter (·.val ≠ d.indexVectorDim) = _
    rw [hivd]; rfl
  have hsk : d.sKept = [1] := by
    show Shape.kept _ (d.collapsedSliceDims ++ d.operandBatchingDims) = _
    rw [hcoll, hob]; rfl
  match a with
  | ⟨0, _⟩ =>
    apply Fin.ext
    have hk : (0 : Fin 2) ∉ d.sKept := by rw [hsk]; exact ne01
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start j idx 0 + d.batchCoord j 0 + d.offCoord j 0 = min _ (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = _
    rw [hsl]
    have hsi : d.siIdx j ⟨d.startIndexMap.idxOf (0 : Fin 2), List.idxOf_lt_length_iff.2 hm⟩ = ix2 (c0 j) (0 : Fin 1) := by
      funext b
      match b with
      | ⟨0, _⟩ =>
        unfold GatherDims.siIdx
        rw [dif_neg (by rw [hivd]; exact Nat.zero_ne_one)]
        unfold GatherDims.siCoord
        apply Fin.ext
        show (j _).val = (j 0).val
        exact congrArg (fun a => (j a).val) (getElem_of_eq_singleton hbatch _ _)
      | ⟨1, _⟩ =>
        unfold GatherDims.siIdx
        rw [dif_pos (by rw [hivd])]
        apply Fin.ext
        show List.idxOf (0 : Fin 2) d.startIndexMap = 0
        rw [hsim]; simp
    rw [hsi]
  | ⟨1, _⟩ =>
    apply Fin.ext
    have hk : (1 : Fin 2) ∈ d.sKept := by rw [hsk]; exact List.mem_singleton.mpr rfl
    have hm : (1 : Fin 2) ∉ d.startIndexMap := by rw [hsim]; exact ne10
    show d.start j idx 1 + d.batchCoord j 1 + d.offCoord j 1 = (j 1).val
    rw [GatherDims.batchCoord_eq_zero _ _ _ (hb 1)]
    unfold GatherDims.start GatherDims.offCoord
    rw [dif_neg hm, dif_pos hk]
    simp only [Nat.zero_add]
    exact congrArg (fun a => (j a).val) (getElem_of_eq_singleton hoff _ _)

/-- ENTRIES TAKEN. Element `e` of the gather of a vector `x : [N]` at a column of positions is `x` at the position read
    signed and clamped. -/
theorem gather_entries_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (e : Fin n) :
    Host.gather d x idx (ix1 e) = x (ix1 (⟨min (idx (ix2 e (0 : Fin 1))).toInt.toNat (N - 1), by omega⟩ : Fin N)) := by
  have h1 : ∀ {m : Nat} (p : Fin m), (Shape.Idx.ofFin p : (⟨1, ![m]⟩ : Shape).Idx) = ix1 p := fun p => by
    funext a; match a with | ⟨0, _⟩ => rfl
  have h2 : StableHlo.Predicate.ixP e = ix2 e (0 : Fin 1) := by
    funext a; match a with | ⟨0, _⟩ => rfl | ⟨1, _⟩ => rfl
  have h := StableHlo.Predicate.gather_take d hcoll hob hsim hivd x idx e hN
  simp only [h1, h2] at h
  exact h

/-- WHERE A ROW UPDATE LANDS. Update element `j = (e, q)` of a scatter of rows `[n, C]` onto a matrix `[N, C]` by a column
    of row numbers lands on `i` exactly when row number `e`, read signed, is `i`'s row and the columns agree; a row
    number outside `[0, N)` lands nowhere. -/
theorem scatter_rows_resultIdx {N C n w : Nat} (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (idx : IVec ⟨2, ![n, 1]⟩ w) (j : (⟨2, ![n, C]⟩ : Shape).Idx) (i : (⟨2, ![N, C]⟩ : Shape).Idx) :
    d.resultIdx? j idx = some i ↔ (idx (ix2 (c0 j) (0 : Fin 1))).toInt = ((i 0).val : Int) ∧ (j 1).val = (i 1).val := by
  have husc : d.uScatter = [0] := by
    show Shape.kept _ d.updateWindowDims = _
    rw [huw]; rfl
  have hsik : d.siKept = [0] := by
    show (List.finRange 2).filter (·.val ≠ d.indexVectorDim) = _
    rw [hivd]; rfl
  have hsk : d.sKept = [1] := by
    show Shape.kept _ d.insertedWindowDims = _
    rw [hins]; rfl
  have ne01 : (0 : Fin 2) ∉ [(1 : Fin 2)] := by decide
  have ne10 : (1 : Fin 2) ∉ [(0 : Fin 2)] := by decide
  have hm0 : (0 : Fin 2) ∈ d.scatterDimsToOperandDims := by rw [hsd]; exact List.mem_singleton.mpr rfl
  have hm1 : (1 : Fin 2) ∉ d.scatterDimsToOperandDims := by rw [hsd]; exact ne10
  have hk0 : (0 : Fin 2) ∉ d.sKept := by rw [hsk]; exact ne01
  have hk1 : (1 : Fin 2) ∈ d.sKept := by rw [hsk]; exact List.mem_singleton.mpr rfl
  have hsi : d.siIdx j ⟨d.scatterDimsToOperandDims.idxOf (0 : Fin 2), List.idxOf_lt_length_iff.2 hm0⟩ = ix2 (c0 j) (0 : Fin 1) := by
    funext b
    match b with
    | ⟨0, _⟩ =>
      unfold ScatterDims.siIdx
      rw [dif_neg (by rw [hivd]; exact Nat.zero_ne_one)]
      unfold ScatterDims.siCoord
      apply Fin.ext
      show (j _).val = (j 0).val
      exact congrArg (fun a => (j a).val) (getElem_of_eq_singleton husc _ _)
    | ⟨1, _⟩ =>
      unfold ScatterDims.siIdx
      rw [dif_pos (by rw [hivd])]
      apply Fin.ext
      show List.idxOf (0 : Fin 2) d.scatterDimsToOperandDims = 0
      rw [hsd]; simp
  have hs0 : d.start j idx 0 = (idx (ix2 (c0 j) (0 : Fin 1))).toInt := by
    unfold ScatterDims.start
    rw [dif_pos hm0, hsi]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    exact congrArg (fun a => (j a).val) (getElem_of_eq_singleton huw _ _)
  have hi0 : (i 0).val < N := idx2_lt0 i
  have hi1 : (i 1).val < C := idx2_lt1 i
  unfold ScatterDims.resultIdx?
  by_cases h : ∀ a, 0 ≤ d.start j idx a + d.window j a ∧ d.start j idx a + (d.window j a : Int) < ((⟨2, ![N, C]⟩ : Shape).size a : Nat)
  · rw [dif_pos h, Option.some.injEq]
    have h0 := (h 0).1
    rw [hs0, hw0] at h0
    constructor
    · intro e
      have e0 : (d.start j idx 0 + (d.window j 0 : Int)).toNat = (i 0).val := congrArg Fin.val (congrFun e 0)
      have e1 : (d.start j idx 1 + (d.window j 1 : Int)).toNat = (i 1).val := congrArg Fin.val (congrFun e 1)
      rw [hs0, hw0] at e0
      rw [hs1, hw1] at e1
      constructor <;> omega
    · rintro ⟨e0, e1⟩
      funext a
      match a with
      | ⟨0, _⟩ =>
        apply Fin.ext
        show (d.start j idx 0 + (d.window j 0 : Int)).toNat = (i 0).val
        rw [hs0, hw0]; omega
      | ⟨1, _⟩ =>
        apply Fin.ext
        show (d.start j idx 1 + (d.window j 1 : Int)).toNat = (i 1).val
        rw [hs1, hw1]; omega
  · rw [dif_neg h]
    constructor
    · intro e; cases e
    · rintro ⟨e0, e1⟩
      exfalso
      apply h
      intro a
      match a with
      | ⟨0, _⟩ =>
        show 0 ≤ d.start j idx 0 + (d.window j 0 : Int) ∧ d.start j idx 0 + (d.window j 0 : Int) < (N : Nat)
        rw [hs0, hw0]; constructor <;> omega
      | ⟨1, _⟩ =>
        show 0 ≤ d.start j idx 1 + (d.window j 1 : Int) ∧ d.start j idx 1 + (d.window j 1 : Int) < (C : Nat)
        rw [hs1, hw1]; constructor <;> omega

/-- A finite sum of extended reals times a non-negative real is the sum of the products (at an infinite or a negative
    factor the law fails: `⊤ + ⊥ = ⊥`). -/
theorem sum_mul_nonneg_real {ι : Type*} (s : Finset ι) (a : ι → EReal) {t : ℝ} (ht : 0 ≤ t) :
    (∑ j ∈ s, a j) * (t : EReal) = ∑ j ∈ s, a j * (t : EReal) := by
  classical
  induction s using Finset.induction_on with
  | empty => simp
  | insert b s hb ih =>
    rw [Finset.sum_insert hb, Finset.sum_insert hb,
      EReal.right_distrib_of_nonneg_of_ne_top (EReal.coe_nonneg.mpr ht) (EReal.coe_ne_top t), ih]

end Cert.LibRows

end
-- ==== Proof.LibFactor.lean ====
/-
  A node-wise factor moved across message passing. Rows `h[src e] · d[src e]` added onto row `dst e` and the sum then
  multiplied by `d[dst e]` is the sum of `h[src e] · (d[src e] · d[dst e])`: every update landing on a row carries that
  row's own factor, and a non-negative real factor distributes over a sum of extended reals.
-/
import Idealize.ShloMosaic.Lib.ValueIdx
import Idealize.ShloMosaic.PureOps.Ideal
import proofs.«404547_j11510512353640_2_alg».proof.Proof.Spec
import proofs.«404547_j11510512353640_2_alg».proof.Proof.LibRows

noncomputable section

open scoped BigOperators

namespace Cert.LibFactor

open Idealize.ShloMosaic Idealize.ShloMosaic.ValueIdx Cert.Spec Cert.LibRows

/-- THE FACTOR MOVES ACROSS THE SCATTER-ADD. `h` a matrix of rows, `d` a vector of non-negative reals, `src` a column of
    (already normalised) source row numbers, `dst` the raw destination row numbers the scatter reads and `dstN` the
    normalised ones a gather reads (equal wherever `dst` is non-negative, which is wherever an update lands at all). -/
theorem scatterAdd_rows_factor {N C n : Nat} (hN : 0 < N)
    (dS : ScatterDims ⟨2, ![N, C]⟩ ⟨2, ![n, 1]⟩ ⟨2, ![n, C]⟩)
    (huw : dS.updateWindowDims = [1]) (hins : dS.insertedWindowDims = [0]) (hsd : dS.scatterDimsToOperandDims = [0])
    (hivdS : dS.indexVectorDim = 1)
    (dG : GatherDims ⟨2, ![N, C]⟩ ⟨2, ![n, 1]⟩ ⟨2, ![n, C]⟩)
    (hoff : dG.offsetDims = [1]) (hcoll : dG.collapsedSliceDims = [0]) (hob : dG.operandBatchingDims = [])
    (hsim : dG.startIndexMap = [0]) (hivdG : dG.indexVectorDim = 1)
    (dT : GatherDims ⟨1, ![N]⟩ ⟨2, ![n, 1]⟩ ⟨1, ![n]⟩)
    (hcollT : dT.collapsedSliceDims = [0]) (hobT : dT.operandBatchingDims = []) (hsimT : dT.startIndexMap = [0])
    (hivdT : dT.indexVectorDim = 1)
    (h : Arr2 N C) (d : Arr1 N) (hd : ∀ r, ∃ t : ℝ, 0 ≤ t ∧ d r = (t : EReal))
    (src dst dstN : IVec ⟨2, ![n, 1]⟩ 32) (hdst : ∀ e, 0 ≤ (dst e).toInt → dstN e = dst e)
    (z : Arr2 N C) (hz : ∀ i, z i = 0) (i : (⟨2, ![N, C]⟩ : Shape).Idx) :
    Ideal.hostScatterAdd dS z dst (Host.gather dG (fun j => h j * d (ix1 (c0 j))) src) i * d (ix1 (c0 i))
      = Ideal.hostScatterAdd dS z dst
          (fun j => Host.gather dG h src j * (Host.gather dT d src (ix1 (c0 j)) * Host.gather dT d dstN (ix1 (c0 j)))) i := by
  unfold Ideal.hostScatterAdd
  rw [hz i, zero_add, zero_add]
  obtain ⟨t, ht, hdt⟩ := hd (ix1 (c0 i))
  rw [hdt, sum_mul_nonneg_real _ _ ht]
  refine Finset.sum_congr rfl fun j hj => ?_
  have hj2 := (Finset.mem_filter.mp hj).2
  obtain ⟨hrow, hcol⟩ := (scatter_rows_resultIdx dS huw hins hsd hivdS dst j i).mp hj2
  have hnn : 0 ≤ (dst (ix2 (c0 j) (0 : Fin 1))).toInt := by rw [hrow]; exact Int.natCast_nonneg _
  have hdN := hdst _ hnn
  have hlt : (i 0).val < N := idx2_lt0 i
  -- the clamped destination row number is the landing row itself
  have hpos : (⟨min (dstN (ix2 (c0 j) (0 : Fin 1))).toInt.toNat (N - 1), by omega⟩ : Fin N) = c0 i := by
    apply Fin.ext
    show min (dstN (ix2 (c0 j) (0 : Fin 1))).toInt.toNat (N - 1) = (i 0).val
    rw [hdN, hrow, Int.toNat_natCast]
    omega
  beta_reduce
  rw [gather_rows_apply dG hoff hcoll hob hsim hivdG hN, gather_rows_apply dG hoff hcoll hob hsim hivdG hN h,
    gather_entries_apply dT hcollT hobT hsimT hivdT hN, gather_entries_apply dT hcollT hobT hsimT hivdT hN,
    hpos, hdt]
  -- both gathers at `src` read the same clamped row
  have hc : ∀ (r : Fin N) (q : Fin C), c0 (ix2 r q) = r := fun r q => Fin.ext rfl
  simp only [hc]
  rw [mul_assoc]

end Cert.LibFactor

end
-- ==== Proof.LayerCore.lean ====
/-
  One graph-convolution layer, kernel against reference. The reference scales every message by `d[src] · d[dst]`
  before adding it onto its destination row; the kernel scales a node's row by `d` before the messages are taken and
  the aggregated row by `d` again afterwards. The two agree because `d`, an inverse square root of a positive degree
  or zero, is a non-negative real, and every message landing on a row has that row as destination.
-/
import proofs.«404547_j11510512353640_2_alg».proof.ReferenceIdeal
import proofs.«404547_j11510512353640_2_alg».proof.Proof.KStages
import proofs.«404547_j11510512353640_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«404547_j11510512353640_2_alg».proof.Proof.LibRows
import proofs.«404547_j11510512353640_2_alg».proof.Proof.LibFactor

noncomputable section

open scoped BigOperators

namespace Cert.ReferenceIdeal.Stage

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- Edge sources followed by every node once (its self-loop). -/
def src (x1 : IVec S2x600000 32) : IVec S650000 32 :=
  concatenate S650000 0 [⟨S600000, shapeCast _ (extractStridedSlice S1x600000 ![0, 0] x1 slices_S2x600000_S1x600000_0_0) shapeCasts_S1x600000_S600000⟩, ⟨S50000, iotaInDim S50000 32 0⟩] concatenates_S600000_S50000_S650000_d0

/-- Edge destinations followed by every node once. -/
def dst (x1 : IVec S2x600000 32) : IVec S650000 32 :=
  concatenate S650000 0 [⟨S600000, shapeCast _ (extractStridedSlice S1x600000 ![1, 0] x1 slices_S2x600000_S1x600000_1_0) shapeCasts_S1x600000_S600000⟩, ⟨S50000, iotaInDim S50000 32 0⟩] concatenates_S600000_S50000_S650000_d0

/-- A list of node numbers with the negative ones moved up by the node count. -/
def wrap (v : IVec S650000 32) : IVec S650000 32 :=
  select (cmpi .slt v (broadcastInDim S650000 ![] bcast_S_S650000 (constantI S_ 32 0#32)))
    (addi v (broadcastInDim S650000 ![] bcast_S_S650000 (constantI S_ 32 50000#32))) v

/-- A list as a column of row numbers. -/
def col (v : IVec S650000 32) : IVec S650000x1 32 := broadcastInDim S650000x1 ![0] bcast_S650000_S650000x1_0 v

/-- A node's in-degree, self-loop included. -/
def deg (x1 : IVec S2x600000 32) : FVec F S50000 .f32 :=
  Host.scatterAdd scatter_S50000_S650000x1_S650000_n_0_0_1 (broadcastInDim S50000 ![] bcast_S_S50000 (constant S_ .f32 0x00000000#32))
    (col (dst x1)) (broadcastInDim S650000 ![] bcast_S_S650000 (constant S_ .f32 0x3F800000#32))

/-- The inverse square root of the degree where it is positive, zero elsewhere. -/
def dinv (x1 : IVec S2x600000 32) : FVec F S50000 .f32 :=
  select (cmpf .ogt (deg (F := F) x1) (broadcastInDim S50000 ![] bcast_S_S50000 (constant S_ .f32 0x00000000#32)))
    (Host.rsqrt (deg (F := F) x1)) (broadcastInDim S50000 ![] bcast_S_S50000 (id (constant S_ .f32 0x00000000#32)))

/-- An edge's weight: the product of its two end nodes' inverse square-root degrees. -/
def norm (x1 : IVec S2x600000 32) : FVec F S650000 .f32 :=
  mulf (Host.gather gather_S50000_S650000x1_S650000_n_0_n_n_0_1_1 (dinv (F := F) x1) (col (wrap (src x1))))
    (Host.gather gather_S50000_S650000x1_S650000_n_0_n_n_0_1_1 (dinv (F := F) x1) (col (wrap (dst x1))))

/-- One graph-convolution layer on rows `H` with bias `b`: each edge's source row times the edge's weight, added onto
    the destination row; the bias added; negative entries cut to zero. -/
def layer (x1 : IVec S2x600000 32) (H : FVec F S50000x128 .f32) (b : FVec F S128 .f32) : FVec F S50000x128 .f32 :=
  maximumf
    (addf
      (Host.scatterAdd scatter_S50000x128_S650000x1_S650000x128_1_0_0_1 (broadcastInDim S50000x128 ![] bcast_S_S50000x128 (constant S_ .f32 0x00000000#32))
        (col (dst x1))
        (mulf (Host.gather gather_S50000x128_S650000x1_S650000x128_1_0_n_n_0_1_1128 H (col (wrap (src x1))))
          (broadcastInDim S650000x128 ![0, 1] bcast_S650000x1_S650000x128_0_1 (broadcastInDim S650000x1 ![0] bcast_S650000_S650000x1_0 (norm (F := F) x1)))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

end Cert.ReferenceIdeal.Stage

namespace Cert.Core

open Idealize.ShloMosaic Idealize.ShloMosaic.TcCoe Idealize.ShloMosaic.ValueIdx Cert.Spec

variable [Cert.KernelIdeal.Facts] [Cert.ReferenceIdeal.Facts]

/-- The scalar zero spread over any shape reads zero everywhere. -/
private theorem bcast_zero_apply {T : Shape} (h : (⟨0, ![]⟩ : Shape).BroadcastsInDim T ![]) (j : T.Idx) :
    broadcastInDim T ![] h (constant (F := Ideal) ⟨0, ![]⟩ .f32 0x00000000#32) j = 0 := by
  rw [broadcastInDim_scalar_apply, constant_apply, Ideal.ofBits_zero_f32]

/-- The inverse square root of a positive extended real is a non-negative real. -/
private theorem rsqrt_pos_real {g : EReal} (hg : 0 < g) : ∃ t : ℝ, 0 ≤ t ∧ Ideal.rsqrt g = (t : EReal) := by
  induction g using EReal.rec with
  | bot => exact absurd hg (by simp)
  | top => exact ⟨0, le_refl _, by rw [Ideal.rsqrt_top]; rfl⟩
  | coe x =>
    have hx : 0 < x := by exact_mod_cast hg
    refine ⟨(Real.sqrt x)⁻¹, inv_nonneg.mpr (Real.sqrt_nonneg x), ?_⟩
    rw [Ideal.rsqrt_coe, if_neg (not_lt.mpr hx.le), if_neg hx.ne']

/-- Where `g` is positive its inverse square root, elsewhere zero: a non-negative real at every index. -/
private theorem sel_rsqrt_nonneg {T : Shape} (h h' : (⟨0, ![]⟩ : Shape).BroadcastsInDim T ![]) (g : FVec Ideal T .f32) (r : T.Idx) :
    ∃ t : ℝ, 0 ≤ t ∧
      select (cmpf .ogt g (broadcastInDim T ![] h (constant (F := Ideal) ⟨0, ![]⟩ .f32 0x00000000#32))) (Host.rsqrt g)
        (broadcastInDim T ![] h' (id (constant (F := Ideal) ⟨0, ![]⟩ .f32 0x00000000#32))) r = (t : EReal) := by
  rw [select_apply, cmpf_apply, bcast_zero_apply]
  show ∃ t : ℝ, 0 ≤ t ∧ Scalar.select (Ideal.cmp .ogt (g r) 0) (Ideal.rsqrt (g r))
    (broadcastInDim T ![] h' (constant (F := Ideal) ⟨0, ![]⟩ .f32 0x00000000#32) r) = (t : EReal)
  rw [bcast_zero_apply]
  generalize g r = y
  by_cases hy : 0 < y
  · have hc : Ideal.cmp .ogt y 0 = 1 := by
      show BitVec.ofBool (decide (0 < y)) = 1
      rw [decide_eq_true hy]; rfl
    rw [hc]; unfold Scalar.select; rw [if_pos rfl]
    exact rsqrt_pos_real hy
  · have hc : Ideal.cmp .ogt y 0 = 0 := by
      show BitVec.ofBool (decide (0 < y)) = 0
      rw [decide_eq_false hy]; rfl
    rw [hc]; unfold Scalar.select; rw [if_neg (by decide)]
    exact ⟨0, le_refl _, rfl⟩

/-- A vector spread as a column reads, at `(e, u)`, the vector at `e`. -/
private theorem bcast_col_apply {n : Nat} {α : Type} (h : (⟨1, ![n]⟩ : Shape).BroadcastsInDim ⟨2, ![n, 1]⟩ ![0])
    (v : (⟨1, ![n]⟩ : Shape).Idx → α) (e : Fin n) (u : Fin 1) :
    broadcastInDim ⟨2, ![n, 1]⟩ ![0] h v (ix2 e u) = v (ix1 e) := by
  refine broadcastInDim_apply _ h v _ _ fun a => ?_
  match a with
  | ⟨0, _⟩ =>
    show e.val = if n = 1 then 0 else e.val
    have := e.isLt
    split <;> omega

/-- A column spread over `C` columns reads, at `j`, the column at `j`'s row. -/
private theorem bcast_cols_apply {n C : Nat} {α : Type} (h : (⟨2, ![n, 1]⟩ : Shape).BroadcastsInDim ⟨2, ![n, C]⟩ ![0, 1])
    (v : (⟨2, ![n, 1]⟩ : Shape).Idx → α) (j : (⟨2, ![n, C]⟩ : Shape).Idx) :
    broadcastInDim ⟨2, ![n, C]⟩ ![0, 1] h v j = v (ix2 (c0 j) (0 : Fin 1)) := by
  refine broadcastInDim_apply _ h v _ _ fun a => ?_
  match a with
  | ⟨0, _⟩ =>
    show (j 0).val = if n = 1 then 0 else (j 0).val
    have := idx2_lt0 j
    split <;> omega
  | ⟨1, _⟩ =>
    show 0 = if 1 = 1 then 0 else (j 1).val
    rfl

/-- A vector spread as a row reads, at `(u, q)`, the vector at `q`. -/
private theorem bcast_row_apply {C : Nat} {α : Type} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  refine broadcastInDim_apply _ h v _ _ fun a => ?_
  match a with
  | ⟨0, _⟩ =>
    show q.val = if C = 1 then 0 else q.val
    have := q.isLt
    split <;> omega

/-- A row spread over `n` rows reads, at `i`, the row at `i`'s column. -/
private theorem bcast_rows_apply {n C : Nat} {α : Type} (h : (⟨2, ![1, C]⟩ : Shape).BroadcastsInDim ⟨2, ![n, C]⟩ ![0, 1])
    (v : (⟨2, ![1, C]⟩ : Shape).Idx → α) (i : (⟨2, ![n, C]⟩ : Shape).Idx) :
    broadcastInDim ⟨2, ![n, C]⟩ ![0, 1] h v i = v (ix2 (0 : Fin 1) (c1 i)) := by
  refine broadcastInDim_apply _ h v _ _ fun a => ?_
  match a with
  | ⟨0, _⟩ =>
    show 0 = if 1 = 1 then 0 else (i 0).val
    rfl
  | ⟨1, _⟩ =>
    show (i 1).val = if C = 1 then 0 else (i 1).val
    have := idx2_lt1 i
    split <;> omega

/-- A row number that reads non-negative is left as it is by the move of the negative ones. -/
private theorem select_slt_zero_of_nonneg (v a : BitVec 32) (hv : 0 ≤ v.toInt) :
    Scalar.select (IntOp.cmpi .slt v 0#32) a v = v := by
  have hs : v.slt 0#32 = false := by
    unfold BitVec.slt
    rw [BitVec.toInt_zero]
    exact decide_eq_false (not_lt.mpr hv)
  show (if BitVec.ofBool (v.slt 0#32) = 1 then a else v) = v
  rw [hs]
  rfl

/-- The kernel's degree column is the reference's degree vector. -/
theorem dinv2_eq (x1 : IVec Cert.ReferenceIdeal.S2x600000 32) (r : Fin 50000) :
    Cert.KernelIdeal.Stage.dinv2 (F := Ideal) x1 (ix2 r (0 : Fin 1)) = Cert.ReferenceIdeal.Stage.dinv (F := Ideal) x1 (ix1 r) := by
  unfold Cert.KernelIdeal.Stage.dinv2
  rw [shapeCast_apply _ _ _ (ix1 r) (by
    rw [Shape.rowMajor_val_two, Shape.rowMajor_val_one]
    show r.val = r.val * 1 + 0
    omega)]
  rfl

/-- Each entry of the degree vector is a non-negative real: the inverse square root of a positive (possibly infinite)
    degree, or zero. -/
theorem dinv_nonneg (x1 : IVec Cert.ReferenceIdeal.S2x600000 32) (r : Cert.ReferenceIdeal.S50000.Idx) :
    ∃ t : ℝ, 0 ≤ t ∧ Cert.ReferenceIdeal.Stage.dinv (F := Ideal) x1 r = (t : EReal) := by
  unfold Cert.ReferenceIdeal.Stage.dinv
  exact sel_rsqrt_nonneg _ _ _ r

local notation "Dd" => Cert.ReferenceIdeal.dot_S50000x128_S128x128_S50000x128_1_0_0_1_n_n

/-- The operand indices of the product at output `j` and contraction index `q`: `(j₀, q)` and `(q, j₁)`. -/
private theorem lhs0 (j : Cert.ReferenceIdeal.S50000x128.Idx) (q : (Dd).contr.Idx) : ((Dd).lhsIdx j q 0).val = (j 0).val := by
  unfold DotDims.lhsIdx
  rw [dif_neg (show ¬(0 : Fin Cert.ReferenceIdeal.S50000x128.rank) ∈ (Dd).lhsBatch from List.not_mem_nil),
    dif_pos (show (0 : Fin Cert.ReferenceIdeal.S50000x128.rank) ∈ (Dd).lhsNonContracting from List.mem_singleton.mpr rfl)]
  rfl
private theorem rhs1 (j : Cert.ReferenceIdeal.S50000x128.Idx) (q : (Dd).contr.Idx) : ((Dd).rhsIdx j q 1).val = (j 1).val := by
  unfold DotDims.rhsIdx
  rw [dif_neg (show ¬(1 : Fin Cert.ReferenceIdeal.S128x128.rank) ∈ (Dd).rhsBatch from List.not_mem_nil),
    dif_pos (show (1 : Fin Cert.ReferenceIdeal.S128x128.rank) ∈ (Dd).rhsNonContracting from List.mem_singleton.mpr rfl)]
  rfl

/-- The reference's matrix product at an index is the row-by-column sum. -/
private theorem dot_apply (X : Arr2 50000 128) (W : Arr2 128 128) (j : (⟨2, ![50000, 128]⟩ : Shape).Idx) :
    Host.dotGeneral (F := Ideal) (φ₁ := .f32) (φ₂ := .f32) Dd none X W j
      = ∑ q : Fin 128, X (ix2 (c0 j) q) * W (ix2 q (c1 j)) := by
  simp only [Host.dotGeneral]
  rw [Ideal.dotGeneral_apply, ← Equiv.sum_comp (contrEquiv1 Dd 128 rfl rfl).symm]
  refine Finset.sum_congr rfl fun k _ => ?_
  have hk := contrEquiv1_symm_val Dd 128 rfl rfl k
  have el : (Dd).lhsIdx j ((contrEquiv1 Dd 128 rfl rfl).symm k) = ix2 (c0 j) k := funext fun a => Fin.ext (by
    match a with
    | ⟨0, _⟩ => exact lhs0 _ _
    | ⟨1, _⟩ => exact ((Dd).lhsIdx_val_of_single rfl j _).trans hk)
  have er : (Dd).rhsIdx j ((contrEquiv1 Dd 128 rfl rfl).symm k) = ix2 k (c1 j) := funext fun a => Fin.ext (by
    match a with
    | ⟨0, _⟩ => exact ((Dd).rhsIdx_val_of_single rfl j _).trans hk
    | ⟨1, _⟩ => exact rhs1 _ _)
  rw [el, er]

/-- A widening of the float format is the identity on extended reals. -/
private theorem extf_eq {s : Shape} {φ ψ : FTy} (a : FVec Ideal s φ) (h : φ.bits < ψ.bits) : (extf ψ a h : FVec Ideal s ψ) = a := rfl

/-- THE LAYER AT ONE ELEMENT, over any extents: rows scaled by `d`, taken along `src`, added onto `dst` rows and scaled by
    `d` again, against rows taken along `src`, scaled by `d[src] · d[dst]` and added onto `dst` rows; then the bias and
    the cut at zero on both sides. -/
private theorem layer_point {N C n : Nat} (hN : 0 < N)
    (dS : ScatterDims ⟨2, ![N, C]⟩ ⟨2, ![n, 1]⟩ ⟨2, ![n, C]⟩)
    (huw : dS.updateWindowDims = [1]) (hins : dS.insertedWindowDims = [0]) (hsd : dS.scatterDimsToOperandDims = [0])
    (hivdS : dS.indexVectorDim = 1)
    (dG : GatherDims ⟨2, ![N, C]⟩ ⟨2, ![n, 1]⟩ ⟨2, ![n, C]⟩)
    (hoff : dG.offsetDims = [1]) (hcoll : dG.collapsedSliceDims = [0]) (hob : dG.operandBatchingDims = [])
    (hsim : dG.startIndexMap = [0]) (hivdG : dG.indexVectorDim = 1)
    (dT : GatherDims ⟨1, ![N]⟩ ⟨2, ![n, 1]⟩ ⟨1, ![n]⟩)
    (hcollT : dT.collapsedSliceDims = [0]) (hobT : dT.operandBatchingDims = []) (hsimT : dT.startIndexMap = [0])
    (hivdT : dT.indexVectorDim = 1)
    (bz : (⟨0, ![]⟩ : Shape).BroadcastsInDim ⟨2, ![N, C]⟩ ![])
    (bcols : (⟨2, ![n, 1]⟩ : Shape).BroadcastsInDim ⟨2, ![n, C]⟩ ![0, 1])
    (bcol : (⟨1, ![n]⟩ : Shape).BroadcastsInDim ⟨2, ![n, 1]⟩ ![0])
    (brows : (⟨2, ![1, C]⟩ : Shape).BroadcastsInDim ⟨2, ![N, C]⟩ ![0, 1])
    (brow : (⟨1, ![C]⟩ : Shape).BroadcastsInDim ⟨2, ![1, C]⟩ ![1])
    (hlt : FTy.bf16.bits < FTy.f32.bits)
    (H : Arr2 N C) (d : Arr1 N) (hd : ∀ r, ∃ t : ℝ, 0 ≤ t ∧ d r = (t : EReal))
    (srcC dstC dstNC : IVec ⟨2, ![n, 1]⟩ 32) (hdst : ∀ e, 0 ≤ (dstC e).toInt → dstNC e = dstC e)
    (b : Arr1 C) (i : (⟨2, ![N, C]⟩ : Shape).Idx) :
    max (Host.scatterAdd (F := Ideal) (φ := .f32) dS
            (broadcastInDim ⟨2, ![N, C]⟩ ![] bz (constant (F := Ideal) ⟨0, ![]⟩ .f32 0x00000000#32)) dstC
            (extf (F := Ideal) (φ := .bf16) .f32 (Host.gather dG (fun j => H j * d (ix1 (c0 j))) srcC) hlt) i
          * d (ix1 (c0 i)) + b (ix1 (c1 i))) 0
      = maximumf (F := Ideal) (φ := .f32)
          (addf
            (Host.scatterAdd dS (broadcastInDim ⟨2, ![N, C]⟩ ![] bz (constant (F := Ideal) ⟨0, ![]⟩ .f32 0x00000000#32)) dstC
              (mulf (Host.gather dG H srcC)
                (broadcastInDim ⟨2, ![n, C]⟩ ![0, 1] bcols
                  (broadcastInDim ⟨2, ![n, 1]⟩ ![0] bcol (mulf (F := Ideal) (φ := .f32) (Host.gather dT d srcC) (Host.gather dT d dstNC))))))
            (broadcastInDim ⟨2, ![N, C]⟩ ![0, 1] brows (broadcastInDim ⟨2, ![1, C]⟩ ![1] brow b)))
          (broadcastInDim ⟨2, ![N, C]⟩ ![] bz (constant (F := Ideal) ⟨0, ![]⟩ .f32 0x00000000#32)) i := by
  rw [maximumf_apply, addf_apply, bcast_zero_apply, bcast_rows_apply, bcast_row_apply]
  -- the update rows on the right: the taken row times the two end nodes' factors
  have hupd : mulf (F := Ideal) (φ := .f32) (Host.gather dG H srcC)
        (broadcastInDim ⟨2, ![n, C]⟩ ![0, 1] bcols
          (broadcastInDim ⟨2, ![n, 1]⟩ ![0] bcol (mulf (F := Ideal) (φ := .f32) (Host.gather dT d srcC) (Host.gather dT d dstNC))))
      = fun j => Host.gather dG H srcC j * (Host.gather dT d srcC (ix1 (c0 j)) * Host.gather dT d dstNC (ix1 (c0 j))) := by
    funext j
    rw [mulf_apply, bcast_cols_apply, bcast_col_apply, mulf_apply]
  rw [hupd]
  rw [extf_eq]
  unfold Host.scatterAdd
  rw [Ideal.hostScatterAdd_def, Ideal.hostScatterAdd_def]
  rw [Cert.LibFactor.scatterAdd_rows_factor hN dS huw hins hsd hivdS dG hoff hcoll hob hsim hivdG dT hcollT hobT hsimT hivdT H d hd
    srcC dstC dstNC hdst _ (fun i => bcast_zero_apply _ i) i]

/-- A bias vector as a row reads, at `(u, q)`, the vector at `q`. -/
private theorem row128_apply (b : Arr1 128) (u : Fin 1) (q : Fin 128) :
    Cert.KernelIdeal.Stage.row128 (F := Ideal) b (ix2 u q) = b (ix1 q) := by
  unfold Cert.KernelIdeal.Stage.row128
  exact shapeCast_a_1a_apply _ _ _ _

local notation "ScR" => Cert.ReferenceIdeal.scatter_S50000x128_S650000x1_S650000x128_1_0_0_1
local notation "GaR" => Cert.ReferenceIdeal.gather_S50000x128_S650000x1_S650000x128_1_0_n_n_0_1_1128
local notation "GaT" => Cert.ReferenceIdeal.gather_S50000_S650000x1_S650000_n_0_n_n_0_1_1

/-- THE LAYER. For any rows `X`, weights `W` and bias `b`: the kernel's `max (agg ((X·W)·d) · d + b) 0` is the reference's
    layer on `X·W`. -/
theorem layer_core (x1 : IVec Cert.ReferenceIdeal.S2x600000 32) (X : Arr2 50000 128) (W : Arr2 128 128) (b : Arr1 128) :
    feat (Cert.KernelIdeal.Stage.agg (F := Ideal) x1 (scaled X W (Cert.KernelIdeal.Stage.dinv2 (F := Ideal) x1)))
        (Cert.KernelIdeal.Stage.dinv2 (F := Ideal) x1) (Cert.KernelIdeal.Stage.row128 (F := Ideal) b)
      = Cert.ReferenceIdeal.Stage.layer (F := Ideal) x1
          (Host.dotGeneral (F := Ideal) (φ₁ := .f32) (φ₂ := .f32) Cert.ReferenceIdeal.dot_S50000x128_S128x128_S50000x128_1_0_0_1_n_n none X W) b := by
  funext i
  -- the kernel's scaled rows are the product's rows times the degree factor
  have hscaled : scaled X W (Cert.KernelIdeal.Stage.dinv2 (F := Ideal) x1)
      = fun j => Host.dotGeneral (F := Ideal) (φ₁ := .f32) (φ₂ := .f32) Dd none X W j
          * Cert.ReferenceIdeal.Stage.dinv (F := Ideal) x1 (ix1 (c0 j)) := by
    funext j
    show (∑ q : Fin 128, X (ix2 (c0 j) q) * W (ix2 q (c1 j)))
        * Cert.KernelIdeal.Stage.dinv2 (F := Ideal) x1 (ix2 (c0 j) (0 : Fin 1)) = _
    rw [dinv2_eq, dot_apply]
  rw [hscaled]
  show max (Cert.KernelIdeal.Stage.agg (F := Ideal) x1 _ i * Cert.KernelIdeal.Stage.dinv2 (F := Ideal) x1 (ix2 (c0 i) (0 : Fin 1))
      + Cert.KernelIdeal.Stage.row128 (F := Ideal) b (ix2 (0 : Fin 1) (c1 i))) 0 = _
  rw [dinv2_eq, row128_apply]
  -- a destination row number that reads non-negative is the same before and after the negative ones are moved
  have hdst : ∀ e, 0 ≤ (Cert.ReferenceIdeal.Stage.col (Cert.ReferenceIdeal.Stage.dst x1) e).toInt →
      Cert.ReferenceIdeal.Stage.col (Cert.ReferenceIdeal.Stage.wrap (Cert.ReferenceIdeal.Stage.dst x1)) e
        = Cert.ReferenceIdeal.Stage.col (Cert.ReferenceIdeal.Stage.dst x1) e := by
    intro e
    obtain ⟨a, u, rfl⟩ : ∃ (a : Fin 650000) (u : Fin 1), e = ix2 a u := ⟨e 0, e 1, eq_ix2 e⟩
    unfold Cert.ReferenceIdeal.Stage.col
    rw [bcast_col_apply, bcast_col_apply]
    intro he
    unfold Cert.ReferenceIdeal.Stage.wrap
    rw [select_apply]
    show Scalar.select (IntOp.cmpi .slt (Cert.ReferenceIdeal.Stage.dst x1 (ix1 a))
      (broadcastInDim Cert.ReferenceIdeal.S650000 ![] Cert.ReferenceIdeal.Facts₀.bcast_S_S650000
        (constantI Cert.ReferenceIdeal.S_ 32 0#32) (ix1 a))) _ _ = _
    rw [broadcastInDim_scalar_apply, constantI_apply]
    exact select_slt_zero_of_nonneg _ _ he
  have hdn := dinv_nonneg x1
  unfold Cert.KernelIdeal.Stage.agg Cert.ReferenceIdeal.Stage.layer Cert.ReferenceIdeal.Stage.norm
  -- the kernel's columns of row numbers and its dimension records are the reference's
  rw [show Cert.KernelIdeal.Stage.dstCol x1 = Cert.ReferenceIdeal.Stage.col (Cert.ReferenceIdeal.Stage.dst x1) from rfl,
    show Cert.KernelIdeal.Stage.srcCol x1
      = Cert.ReferenceIdeal.Stage.col (Cert.ReferenceIdeal.Stage.wrap (Cert.ReferenceIdeal.Stage.src x1)) from rfl]
  generalize Host.dotGeneral (F := Ideal) (φ₁ := .f32) (φ₂ := .f32) Dd none X W = H
  generalize Cert.ReferenceIdeal.Stage.dinv (F := Ideal) x1 = d at hdn ⊢
  generalize Cert.ReferenceIdeal.Stage.col (Cert.ReferenceIdeal.Stage.wrap (Cert.ReferenceIdeal.Stage.dst x1)) = dstNC at hdst ⊢
  generalize Cert.ReferenceIdeal.Stage.col (Cert.ReferenceIdeal.Stage.dst x1) = dstC at hdst ⊢
  generalize Cert.ReferenceIdeal.Stage.col (Cert.ReferenceIdeal.Stage.wrap (Cert.ReferenceIdeal.Stage.src x1)) = srcC
  rw [show Cert.KernelIdeal.scatter_S50000x128_S650000x1_S650000x128_1_0_0_1 = ScR from rfl,
    show Cert.KernelIdeal.gather_S50000x128_S650000x1_S650000x128_1_0_n_n_0_1_1128 = GaR from rfl]
  exact layer_point (by norm_num) ScR rfl rfl rfl rfl GaR rfl rfl rfl rfl rfl GaT rfl rfl rfl rfl _ _ _ _ _ _ H d hdn
    srcC dstC dstNC hdst b i

end Cert.Core

end
-- ==== Proof.LibIndicator.lean ====
/-
  A scatter-add of rows by a column of segment numbers is a sum over all rows weighted by the indicator of the
  segment: what a one-hot matrix product computes.
-/
import Idealize.ShloMosaic.Lib.ValueIdx
import Idealize.ShloMosaic.PureOps.Ideal
import proofs.«404547_j11510512353640_2_alg».proof.Proof.Spec
import proofs.«404547_j11510512353640_2_alg».proof.Proof.LibRows

noncomputable section

open scoped BigOperators

namespace Cert.LibIndicator

open Idealize.ShloMosaic Idealize.ShloMosaic.ValueIdx Cert.Spec Cert.LibRows

/-- A 32-bit word read signed is a natural number below `2^31` exactly when it is that number's word. -/
private theorem toInt_eq_natCast_iff (b : BitVec 32) (n : Nat) (hn : n < 2 ^ 31) :
    b.toInt = (n : Int) ↔ b = BitVec.ofNat 32 n := by
  have hof : (BitVec.ofNat 32 n).toInt = (n : Int) := by
    rw [BitVec.toInt_ofNat']
    apply Int.bmod_eq_of_le_mul_two <;> omega
  constructor
  · intro h
    apply BitVec.eq_of_toInt_eq
    rw [h, hof]
  · rintro rfl
    exact hof

/-- Row `g` of the scatter-add of the rows of `f` by segment numbers `seg` onto zeros is `∑ᵣ [seg r = g] · f[r, ·]`; a segment
    number that is negative or at least `G` equals no `g` and contributes nothing on either side. -/
theorem scatterAdd_rows_indicator {N C G : Nat} (hG : G ≤ 2 ^ 31)
    (dS : ScatterDims ⟨2, ![G, C]⟩ ⟨2, ![N, 1]⟩ ⟨2, ![N, C]⟩)
    (huw : dS.updateWindowDims = [1]) (hins : dS.insertedWindowDims = [0]) (hsd : dS.scatterDimsToOperandDims = [0])
    (hivd : dS.indexVectorDim = 1)
    (f : Arr2 N C) (seg : IVec ⟨2, ![N, 1]⟩ 32) (z : Arr2 G C) (hz : ∀ i, z i = 0) (j : (⟨2, ![G, C]⟩ : Shape).Idx) :
    Ideal.hostScatterAdd dS z seg f j
      = ∑ r : Fin N, (if seg (ix2 r (0 : Fin 1)) = BitVec.ofNat 32 (j 0).val then (1 : EReal) else 0) * f (ix2 r (c1 j)) := by
  -- the row number of the target is below 2^31, so reading a word signed and comparing with it is comparing words
  have hj0 : (j 0).val < 2 ^ 31 := lt_of_lt_of_le (idx2_lt0 j) hG
  unfold Ideal.hostScatterAdd
  -- the operand is zero; the filtered sum over update indices is a double sum over (row, column) of guarded terms
  rw [hz j, zero_add, Finset.sum_filter, sum_idx2]
  refine Finset.sum_congr rfl fun r _ => ?_
  -- update element (r, q) lands on j exactly when row r's segment number is j's row and q is j's column
  have hcond : ∀ q : Fin C, (dS.resultIdx? (ix2 r q) seg = some j)
      ↔ (seg (ix2 r (0 : Fin 1)) = BitVec.ofNat 32 (j 0).val ∧ q = c1 j) := by
    intro q
    rw [scatter_rows_resultIdx dS huw hins hsd hivd seg (ix2 r q) j, ← toInt_eq_natCast_iff _ _ hj0]
    constructor
    · rintro ⟨h1, h2⟩
      exact ⟨h1, Fin.ext h2⟩
    · rintro ⟨h1, h2⟩
      exact ⟨h1, congrArg Fin.val h2⟩
  simp only [hcond]
  by_cases hs : seg (ix2 r (0 : Fin 1)) = BitVec.ofNat 32 (j 0).val
  · -- the segment matches: the inner sum over columns keeps the single term q = j's column
    simp only [hs, true_and, if_true, one_mul]
    rw [Finset.sum_ite_eq' Finset.univ (c1 j) (fun q => f (ix2 r q))]
    simp only [Finset.mem_univ, if_true]
  · -- the segment does not match: every term is zero on both sides
    simp only [hs, false_and, if_false, Finset.sum_const_zero, zero_mul]

end Cert.LibIndicator

end
-- ==== Proof.PoolCore.lean ====
/-
  Mean pooling, kernel against reference. The kernel multiplies the transposed node-by-graph indicator with the
  activation rows and then by one over the graph size; the reference adds each node's row onto its graph's row and
  divides by the size. A node whose graph number is outside `[0, 64)` matches no indicator column and lands on no row.
-/
import proofs.«404547_j11510512353640_2_alg».proof.ReferenceIdeal
import proofs.«404547_j11510512353640_2_alg».proof.Proof.KStages
import proofs.«404547_j11510512353640_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«404547_j11510512353640_2_alg».proof.Proof.LibRows
import proofs.«404547_j11510512353640_2_alg».proof.Proof.LibIndicator

noncomputable section

open scoped BigOperators

namespace Cert.ReferenceIdeal.StagePool

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- The graph numbers as a column of row numbers. -/
def segCol (x2 : IVec S50000 32) : IVec S50000x1 32 := broadcastInDim S50000x1 ![0] bcast_S50000_S50000x1_0 x2

/-- Each node's row added onto its graph's row. -/
def sums (x2 : IVec S50000 32) (ff : FVec F S50000x128 .f32) : FVec F S64x128 .f32 :=
  Host.scatterAdd scatter_S64x128_S50000x1_S50000x128_1_0_0_1 (broadcastInDim S64x128 ![] bcast_S_S64x128 (constant S_ .f32 0x00000000#32))
    (segCol x2) ff

/-- The number of nodes of each graph. -/
def cnt (x2 : IVec S50000 32) : FVec F S64 .f32 :=
  Host.scatterAdd scatter_S64_S50000x1_S50000_n_0_0_1 (broadcastInDim S64 ![] bcast_S_S64 (constant S_ .f32 0x00000000#32))
    (segCol x2) (broadcastInDim S50000 ![] bcast_S_S50000 (constant S_ .f32 0x3F800000#32))

/-- The graph sizes, one at least, as a full-width matrix. -/
def sizes (x2 : IVec S50000 32) : FVec F S64x128 .f32 :=
  broadcastInDim S64x128 ![0, 1] bcast_S64x1_S64x128_0_1
    (broadcastInDim S64x1 ![0] bcast_S64_S64x1_0
      (maximumf (cnt (F := F) x2) (broadcastInDim S64 ![] bcast_S_S64 (constant S_ .f32 0x3F800000#32))))

/-- The per-graph mean: the sums over the sizes. -/
def mean (x2 : IVec S50000 32) (s : FVec F S64x128 .f32) : FVec F S64x128 .f32 := Host.divf s (sizes (F := F) x2)

end Cert.ReferenceIdeal.StagePool

namespace Cert.Core

open Idealize.ShloMosaic Idealize.ShloMosaic.TcCoe Idealize.ShloMosaic.ValueIdx Cert.Spec

variable [Cert.KernelIdeal.Facts] [Cert.ReferenceIdeal.Facts]

/-- The node-by-graph indicator read at `(r, g)`: one where node `r`'s graph number is the word of `g`, zero elsewhere. -/
private theorem onehot_apply (x2 : IVec Cert.KernelIdeal.S50000 32) (r : Fin 50000) (g : Fin 64) :
    Cert.KernelIdeal.Stage.onehot (F := Ideal) x2 (ix2 r g)
      = if x2 (ix1 r) = BitVec.ofNat 32 g.val then (1 : EReal) else 0 := by
  unfold Cert.KernelIdeal.Stage.onehot
  have hA : (broadcastInDim Cert.KernelIdeal.S50000x64 ![0, 1] Cert.KernelIdeal.Facts₀.bcast_S50000x1_S50000x64_0_1
      (broadcastInDim Cert.KernelIdeal.S50000x1 ![0] Cert.KernelIdeal.Facts₀.bcast_S50000_S50000x1_0 x2)) (ix2 r g) = x2 (ix1 r) := by
    rw [broadcastInDim_apply _ _ _ (ix2 r g) (ix2 r (0 : Fin 1)) (fun a => match a with | ⟨0, _⟩ => rfl | ⟨1, _⟩ => rfl),
      broadcastInDim_apply _ _ _ (ix2 r (0 : Fin 1)) (ix1 r) (fun a => match a with | ⟨0, _⟩ => rfl)]
  have hB : (broadcastInDim Cert.KernelIdeal.S50000x64 ![0, 1] Cert.KernelIdeal.Facts₀.bcast_S1x64_S50000x64_0_1
      (broadcastInDim Cert.KernelIdeal.S1x64 ![1] Cert.KernelIdeal.Facts₀.bcast_S64_S1x64_1 (iotaInDim Cert.KernelIdeal.S64 32 0))) (ix2 r g)
        = BitVec.ofNat 32 g.val := by
    rw [broadcastInDim_apply _ _ _ (ix2 r g) (ix2 (0 : Fin 1) g) (fun a => match a with | ⟨0, _⟩ => rfl | ⟨1, _⟩ => rfl),
      broadcastInDim_apply _ _ _ (ix2 (0 : Fin 1) g) (ix1 g) (fun a => match a with | ⟨0, _⟩ => rfl)]
    rfl
  show (((IntOp.cmpi .eq _ _).toNat : ℝ) : EReal) = _
  rw [hA, hB]
  have hc : IntOp.cmpi .eq (x2 (ix1 r)) (BitVec.ofNat 32 g.val)
      = BitVec.ofBool (x2 (ix1 r) == BitVec.ofNat 32 g.val) := rfl
  rw [hc]
  by_cases h : x2 (ix1 r) = BitVec.ofNat 32 g.val
  · rw [if_pos h, beq_iff_eq.mpr h]
    show (((1 : ℕ) : ℝ) : EReal) = 1
    norm_num
  · rw [if_neg h, beq_eq_false_iff_ne.mpr h]
    show (((0 : ℕ) : ℝ) : EReal) = 0
    norm_num

/-- The column of graph numbers read at row `r` is node `r`'s graph number. -/
private theorem segCol_apply (x2 : IVec Cert.ReferenceIdeal.S50000 32) (r : Fin 50000) :
    Cert.ReferenceIdeal.StagePool.segCol x2 (ix2 r (0 : Fin 1)) = x2 (ix1 r) := by
  unfold Cert.ReferenceIdeal.StagePool.segCol
  exact broadcastInDim_apply _ _ _ (ix2 r (0 : Fin 1)) (ix1 r) (fun a => match a with | ⟨0, _⟩ => rfl)

/-- The kernel counts the nodes of each graph by the same operations as the reference. -/
private theorem cnt_eq (x2 : IVec Cert.ReferenceIdeal.S50000 32) :
    Cert.KernelIdeal.Stage.cnt (F := Ideal) x2 = Cert.ReferenceIdeal.StagePool.cnt (F := Ideal) x2 := by
  unfold Cert.KernelIdeal.Stage.cnt Cert.ReferenceIdeal.StagePool.cnt Cert.ReferenceIdeal.StagePool.segCol
  rfl

/-- The full-width sizes read at `(g, q)`: graph `g`'s node count, one at least. -/
private theorem sizes_apply (x2 : IVec Cert.ReferenceIdeal.S50000 32) (g : Fin 64) (q : Fin 128) :
    Cert.ReferenceIdeal.StagePool.sizes (F := Ideal) x2 (ix2 g q)
      = max (Cert.ReferenceIdeal.StagePool.cnt (F := Ideal) x2 (ix1 g)) 1 := by
  unfold Cert.ReferenceIdeal.StagePool.sizes
  rw [broadcastInDim_apply _ _ _ (ix2 g q) (ix2 g (0 : Fin 1)) (fun a => match a with | ⟨0, _⟩ => rfl | ⟨1, _⟩ => rfl),
    broadcastInDim_apply _ _ _ (ix2 g (0 : Fin 1)) (ix1 g) (fun a => match a with | ⟨0, _⟩ => rfl),
    maximumf_apply, broadcastInDim_scalar_apply, constant_apply, Ideal.ofBits_one_f32]

/-- The kernel's column of reciprocals read at `(g, 0)`: one over graph `g`'s node count, one at least. -/
private theorem invc2_apply (x2 : IVec Cert.KernelIdeal.S50000 32) (g : Fin 64) :
    Cert.KernelIdeal.Stage.invc2 (F := Ideal) x2 (ix2 g (0 : Fin 1))
      = Ideal.div 1 (max (Cert.KernelIdeal.Stage.cnt (F := Ideal) x2 (ix1 g)) 1) := by
  unfold Cert.KernelIdeal.Stage.invc2
  rw [shapeCast_apply _ _ (ix2 g (0 : Fin 1)) (ix1 g) (by
      rw [Shape.rowMajor_val_two, Shape.rowMajor_val_one]
      show g.val = g.val * 1 + 0
      omega),
    hostDivf_apply, maximumf_apply, broadcastInDim_scalar_apply, constant_apply, Ideal.ofBits_one_f32]

/-- The per-graph sums: the indicator product of the activation is the reference's scatter-add of it by graph number. -/
theorem pooled_core (conv : Arr2 50000 128) (d2 : Arr2 50000 1) (b : Arr2 1 128) (x2 : IVec Cert.ReferenceIdeal.S50000 32) :
    pooled conv d2 b (Cert.KernelIdeal.Stage.onehot (F := Ideal) x2)
      = Cert.ReferenceIdeal.StagePool.sums (F := Ideal) x2 (feat conv d2 b) := by
  funext j
  unfold pooled Cert.ReferenceIdeal.StagePool.sums
  show _ = Ideal.hostScatterAdd _ _ _ _ j
  rw [Cert.LibIndicator.scatterAdd_rows_indicator (by norm_num) _ rfl rfl rfl rfl _ _ _
    (fun i => by rw [broadcastInDim_scalar_apply, constant_apply, Ideal.ofBits_zero_f32]) j]
  refine Finset.sum_congr rfl fun r _ => ?_
  congr 1
  rw [onehot_apply x2 r (c0 j), segCol_apply x2 r]

/-- The mean: the sum times the kernel's reciprocal of the size (one at least) is the reference's quotient by it. -/
theorem mean_core (x2 : IVec Cert.ReferenceIdeal.S50000 32) (s : Arr2 64 128) (i : (⟨2, ![64, 128]⟩ : Shape).Idx) :
    s i * Cert.KernelIdeal.Stage.invc2 (F := Ideal) x2 (ix2 (c0 i) (0 : Fin 1))
      = Cert.ReferenceIdeal.StagePool.mean (F := Ideal) x2 s i := by
  have hi : Cert.ReferenceIdeal.StagePool.sizes (F := Ideal) x2 i
      = Cert.ReferenceIdeal.StagePool.sizes (F := Ideal) x2 (ix2 (c0 i) (c1 i)) := by rw [ix2_c0_c1]
  unfold Cert.ReferenceIdeal.StagePool.mean
  rw [hostDivf_apply, hi, sizes_apply, invc2_apply, cnt_eq]
  exact Ideal.mul_one_div (ne_of_gt (lt_of_lt_of_le zero_lt_one (le_max_right _ _)))

end Cert.Core

end
-- ==== Proof.HeadH.lean ====
/-
  The recurrent step, kernel against reference, as a function of the pooled rows. The kernel multiplies the per-graph
  sums by the reciprocal sizes inside the launch and contracts them with the gate weights along the weights' second
  axis, where the reference contracts the pooled mean with the transposed weights; the kernel's logistic is the
  reference's `1 / (1 + exp (-z))`; the gate blocks are the same column ranges.
-/
import proofs.«404547_j11510512353640_2_alg».proof.ReferenceIdeal
import proofs.«404547_j11510512353640_2_alg».proof.Proof.KStages
import proofs.«404547_j11510512353640_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import proofs.«404547_j11510512353640_2_alg».proof.Proof.Gen.KernelIdeal.Skeleton

noncomputable section

open scoped BigOperators

namespace Cert.ReferenceIdeal.StageH

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- The four gates' pre-activations of the pooled rows `P`: `P · Wᵀ + b_ih + b_hh`. -/
def gates (P : FVec F S64x128 .f32) (x7 : FVec F S1024x128 .f32) (x9 x10 : FVec F S1024 .f32) : FVec F S64x1024 .f32 :=
  addf
    (addf (Host.dotGeneral dot_S64x128_S128x1024_S64x1024_1_0_0_1_n_n none P (transpose S128x1024 [1, 0] x7 transposes_S1024x128_S128x1024_1_0))
      (broadcastInDim S64x1024 ![0, 1] bcast_S1x1024_S64x1024_0_1 (broadcastInDim S1x1024 ![1] bcast_S1024_S1x1024_1 x9)))
    (broadcastInDim S64x1024 ![0, 1] bcast_S1x1024_S64x1024_0_1 (broadcastInDim S1x1024 ![1] bcast_S1024_S1x1024_1 x10))

/-- The logistic function as the reference spells it: `1 / (1 + exp (-z))`. -/
def sigm (z : FVec F S64x256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32)) (Host.exp (Host.negf z)))

/-- The recurrent step from a zero state: `o · tanh (i · tanh g)` of the gates' four column blocks `i, f, g, o`. -/
def hT (P : FVec F S64x128 .f32) (x7 : FVec F S1024x128 .f32) (x9 x10 : FVec F S1024 .f32) : FVec F S64x256 .f32 :=
  mulf (sigm (extractStridedSlice S64x256 ![0, 768] (gates P x7 x9 x10) slices_S64x1024_S64x256_0_768))
    (Host.tanh (mulf (sigm (extractStridedSlice S64x256 ![0, 0] (gates P x7 x9 x10) slices_S64x1024_S64x256_0_0))
      (Host.tanh (extractStridedSlice S64x256 ![0, 512] (gates P x7 x9 x10) slices_S64x1024_S64x256_0_512))))

end Cert.ReferenceIdeal.StageH

namespace Cert.Core

open Idealize.ShloMosaic Idealize.ShloMosaic.TcCoe Idealize.ShloMosaic.ValueIdx Cert.Spec

variable [Cert.KernelIdeal.Facts] [Cert.ReferenceIdeal.Facts]

/-! ## The kernel's side: the pre-activations before the column blocks -/

section KernelSide

open Cert.KernelIdeal Cert.KernelIdeal.Facts₀ Cert.KernelIdeal.Facts

theorem klhs_0 (i : S64x1024.Idx) (q : dot_S64x128_S1024x128_S64x1024_1_1_0_0_n_n.contr.Idx) :
    (dot_S64x128_S1024x128_S64x1024_1_1_0_0_n_n.lhsIdx i q 0).val = (i 0).val := by
  unfold DotDims.lhsIdx
  rw [dif_neg (show ¬(0 : Fin S64x128.rank) ∈ dot_S64x128_S1024x128_S64x1024_1_1_0_0_n_n.lhsBatch by decide), dif_pos (show (0 : Fin S64x128.rank) ∈ dot_S64x128_S1024x128_S64x1024_1_1_0_0_n_n.lhsNonContracting by decide)]
  rfl
theorem klhs_1 (i : S64x1024.Idx) (q : dot_S64x128_S1024x128_S64x1024_1_1_0_0_n_n.contr.Idx) :
    (dot_S64x128_S1024x128_S64x1024_1_1_0_0_n_n.lhsIdx i q 1).val = (q ⟨0, by decide⟩).val :=
  dot_S64x128_S1024x128_S64x1024_1_1_0_0_n_n.lhsIdx_val_of_single rfl i q
theorem krhs_0 (i : S64x1024.Idx) (q : dot_S64x128_S1024x128_S64x1024_1_1_0_0_n_n.contr.Idx) :
    (dot_S64x128_S1024x128_S64x1024_1_1_0_0_n_n.rhsIdx i q 0).val = (i 1).val := by
  unfold DotDims.rhsIdx
  rw [dif_neg (show ¬(0 : Fin S1024x128.rank) ∈ dot_S64x128_S1024x128_S64x1024_1_1_0_0_n_n.rhsBatch by decide), dif_pos (show (0 : Fin S1024x128.rank) ∈ dot_S64x128_S1024x128_S64x1024_1_1_0_0_n_n.rhsNonContracting by decide)]
  rfl
theorem krhs_1 (i : S64x1024.Idx) (q : dot_S64x128_S1024x128_S64x1024_1_1_0_0_n_n.contr.Idx) :
    (dot_S64x128_S1024x128_S64x1024_1_1_0_0_n_n.rhsIdx i q 1).val = (q ⟨0, by decide⟩).val :=
  dot_S64x128_S1024x128_S64x1024_1_1_0_0_n_n.rhsIdx_val_of_single rfl i q

/-- Rows times rows: element `(p, q)` of the product into a zero accumulator is `∑ k, a (p, k) * b (q, k)`. -/
theorem kdot_apply (a : FVec Ideal S64x128 .bf16) (b : FVec Ideal S1024x128 .bf16) (p : Fin 64) (q : Fin 1024) :
    matmul dot_S64x128_S1024x128_S64x1024_1_1_0_0_n_n none a b (constant (F := Ideal) S64x1024 .f32 0x00000000#32) (ix2 p q)
      = ∑ k : Fin 128, a (ix2 p k) * b (ix2 q k) := by
  simp only [matmul]
  rw [Ideal.matmul_constant_zero_apply, ← Equiv.sum_comp (ValueIdx.contrEquiv1 dot_S64x128_S1024x128_S64x1024_1_1_0_0_n_n 128 rfl rfl).symm]
  refine Finset.sum_congr rfl fun k _ => ?_
  have hk := ValueIdx.contrEquiv1_symm_val dot_S64x128_S1024x128_S64x1024_1_1_0_0_n_n 128 rfl rfl k
  have el : dot_S64x128_S1024x128_S64x1024_1_1_0_0_n_n.lhsIdx (ix2 p q) ((ValueIdx.contrEquiv1 dot_S64x128_S1024x128_S64x1024_1_1_0_0_n_n 128 rfl rfl).symm k) = ix2 p k := funext fun a => Fin.ext (by
    match a with
    | ⟨0, _⟩ => exact klhs_0 _ _
    | ⟨1, _⟩ => exact (klhs_1 _ _).trans hk)
  have er : dot_S64x128_S1024x128_S64x1024_1_1_0_0_n_n.rhsIdx (ix2 p q) ((ValueIdx.contrEquiv1 dot_S64x128_S1024x128_S64x1024_1_1_0_0_n_n 128 rfl rfl).symm k) = ix2 q k := funext fun a => Fin.ext (by
    match a with
    | ⟨0, _⟩ => exact krhs_0 _ _
    | ⟨1, _⟩ => exact (krhs_1 _ _).trans hk)
  rw [el, er]

/-- The kernel's four gates' pre-activations: the sums scaled by the reciprocal sizes, contracted with the weights along the
    weights' second axis, plus the two bias rows. -/
def kgates (v0 : FVec Ideal S64x128 .f32) (v2 : FVec Ideal S64x1 .f32) (v7 : FVec Ideal S1024x128 .f32)
    (v10 v14 : FVec Ideal S1x1024 .f32) : FVec Ideal S64x1024 .f32 :=
  addf
    (addf
      (matmul dot_S64x128_S1024x128_S64x1024_1_1_0_0_n_n none
        (truncf .bf16 (mulf (shapeCast S64x128 v0 shapeCasts_S64x128_S64x128)
          (broadcastTo S64x128 (shapeCast S64x1 v2 shapeCasts_S64x1_S64x1) broadcasts_S64x1_S64x128)) bitsLt_bf16_f32)
        (truncf .bf16 v7 bitsLt_bf16_f32) (constant S64x1024 .f32 0x00000000#32))
      (broadcastTo S64x1024 (shapeCast S1x1024 v10 shapeCasts_S1x1024_S1x1024) broadcasts_S1x1024_S64x1024))
    (broadcastTo S64x1024 (shapeCast S1x1024 v14 shapeCasts_S1x1024_S1x1024) broadcasts_S1x1024_S64x1024)

/-- The body's term is `o · tanh (i · tanh g)` of three column blocks of those pre-activations. -/
theorem k3_pay2_eq (v0 : FVec Ideal S64x128 .f32) (v2 : FVec Ideal S64x1 .f32) (v7 : FVec Ideal S1024x128 .f32)
    (v10 v14 : FVec Ideal S1x1024 .f32) :
    Gen.k3_pay2 (F := Ideal) v0 v2 v7 v10 v14
      = mulf (logistic (extractStridedSlice S64x256 ![0, 768] (kgates v0 v2 v7 v10 v14) slices_S64x1024_o0_768_S64x256))
          (tanh (mulf (logistic (extractStridedSlice S64x256 ![0, 0] (kgates v0 v2 v7 v10 v14) slices_S64x1024_o0_0_S64x256))
            (tanh (extractStridedSlice S64x256 ![0, 512] (kgates v0 v2 v7 v10 v14) slices_S64x1024_o0_512_S64x256)))) := rfl

/-- A bias vector as a row, broadcast down the rows, reads the vector at the column. -/
theorem krow_apply (b : FVec Ideal S1024 .f32) (p : Fin 64) (q : Fin 1024) :
    broadcastTo S64x1024 (shapeCast S1x1024 (Stage.row1024 (F := Ideal) b) shapeCasts_S1x1024_S1x1024) broadcasts_S1x1024_S64x1024 (ix2 p q)
      = b (ix1 q) := by
  rw [shapeCast_self]
  rw [broadcastTo_apply _ broadcasts_S1x1024_S64x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])]
  unfold Stage.row1024
  exact shapeCast_apply b shapeCasts_S1024_S1x1024 (ix2 (0 : Fin 1) q) (ix1 q)
    (by rewrite [Shape.rowMajor_val_two, Shape.rowMajor_val_one]; show q.val = 0 * 1024 + q.val; omega)

/-- The reciprocal sizes' column broadcast along the rows reads the row's entry. -/
theorem kcol_apply (c : FVec Ideal S64x1 .f32) (p : Fin 64) (k : Fin 128) :
    broadcastTo S64x128 (shapeCast S64x1 c shapeCasts_S64x1_S64x1) broadcasts_S64x1_S64x128 (ix2 p k) = c (ix2 p (0 : Fin 1)) := by
  rw [shapeCast_self]
  exact broadcastTo_apply _ broadcasts_S64x1_S64x128 (ix2 p k) (ix2 p (0 : Fin 1)) (fun a => match a with
    | ⟨0, _⟩ => by show p.val = if (64 : Nat) = 1 then 0 else p.val; rw [if_neg (by decide)]
    | ⟨1, _⟩ => by show (0 : Nat) = if (1 : Nat) = 1 then 0 else _; rw [if_pos rfl])

/-- The kernel's pre-activation at `(p, q)`. -/
theorem kgates_apply (ps : Arr2 64 128) (ic2 : Arr2 64 1) (x7 : Arr2 1024 128) (x9 x10 : Arr1 1024) (p : Fin 64) (q : Fin 1024) :
    kgates ps ic2 x7 (Stage.row1024 (F := Ideal) x9) (Stage.row1024 (F := Ideal) x10) (ix2 p q)
      = (∑ k : Fin 128, (ps (ix2 p k) * ic2 (ix2 p (0 : Fin 1))) * x7 (ix2 q k)) + x9 (ix1 q) + x10 (ix1 q) := by
  unfold kgates
  rw [addf_apply, addf_apply, krow_apply, krow_apply, kdot_apply]
  refine congrArg (fun s => s + x9 (ix1 q) + x10 (ix1 q)) (Finset.sum_congr rfl fun k _ => ?_)
  rw [truncf_apply, truncf_apply, mulf_apply, kcol_apply, shapeCast_self]

end KernelSide

/-! ## The reference's side -/

section ReferenceSide

open Cert.ReferenceIdeal Cert.ReferenceIdeal.Facts₀ Cert.ReferenceIdeal.Facts

theorem rlhs_0 (i : S64x1024.Idx) (q : dot_S64x128_S128x1024_S64x1024_1_0_0_1_n_n.contr.Idx) :
    (dot_S64x128_S128x1024_S64x1024_1_0_0_1_n_n.lhsIdx i q 0).val = (i 0).val := by
  unfold DotDims.lhsIdx
  rw [dif_neg (show ¬(0 : Fin S64x128.rank) ∈ dot_S64x128_S128x1024_S64x1024_1_0_0_1_n_n.lhsBatch from List.not_mem_nil), dif_pos (show (0 : Fin S64x128.rank) ∈ dot_S64x128_S128x1024_S64x1024_1_0_0_1_n_n.lhsNonContracting from List.mem_singleton.mpr rfl)]
  rfl
theorem rlhs_1 (i : S64x1024.Idx) (q : dot_S64x128_S128x1024_S64x1024_1_0_0_1_n_n.contr.Idx) :
    (dot_S64x128_S128x1024_S64x1024_1_0_0_1_n_n.lhsIdx i q 1).val = (q ⟨0, Nat.one_pos⟩).val :=
  dot_S64x128_S128x1024_S64x1024_1_0_0_1_n_n.lhsIdx_val_of_single rfl i q
theorem rrhs_0 (i : S64x1024.Idx) (q : dot_S64x128_S128x1024_S64x1024_1_0_0_1_n_n.contr.Idx) :
    (dot_S64x128_S128x1024_S64x1024_1_0_0_1_n_n.rhsIdx i q 0).val = (q ⟨0, Nat.one_pos⟩).val :=
  dot_S64x128_S128x1024_S64x1024_1_0_0_1_n_n.rhsIdx_val_of_single rfl i q
theorem rrhs_1 (i : S64x1024.Idx) (q : dot_S64x128_S128x1024_S64x1024_1_0_0_1_n_n.contr.Idx) :
    (dot_S64x128_S128x1024_S64x1024_1_0_0_1_n_n.rhsIdx i q 1).val = (i 1).val := by
  unfold DotDims.rhsIdx
  rw [dif_neg (show ¬(1 : Fin S128x1024.rank) ∈ dot_S64x128_S128x1024_S64x1024_1_0_0_1_n_n.rhsBatch from List.not_mem_nil), dif_pos (show (1 : Fin S128x1024.rank) ∈ dot_S64x128_S128x1024_S64x1024_1_0_0_1_n_n.rhsNonContracting from List.mem_singleton.mpr rfl)]
  rfl

/-- Rows times columns: element `(p, q)` of the host's product is `∑ k, a (p, k) * b (k, q)`. -/
theorem rdot_apply (a : FVec Ideal S64x128 .f32) (b : FVec Ideal S128x1024 .f32) (p : Fin 64) (q : Fin 1024) :
    Host.dotGeneral dot_S64x128_S128x1024_S64x1024_1_0_0_1_n_n none a b (ix2 p q) = ∑ k : Fin 128, a (ix2 p k) * b (ix2 k q) := by
  simp only [Host.dotGeneral]
  rw [Ideal.dotGeneral_apply, ← Equiv.sum_comp (ValueIdx.contrEquiv1 dot_S64x128_S128x1024_S64x1024_1_0_0_1_n_n 128 rfl rfl).symm]
  refine Finset.sum_congr rfl fun k _ => ?_
  have hk := ValueIdx.contrEquiv1_symm_val dot_S64x128_S128x1024_S64x1024_1_0_0_1_n_n 128 rfl rfl k
  have el : dot_S64x128_S128x1024_S64x1024_1_0_0_1_n_n.lhsIdx (ix2 p q) ((ValueIdx.contrEquiv1 dot_S64x128_S128x1024_S64x1024_1_0_0_1_n_n 128 rfl rfl).symm k) = ix2 p k := funext fun a => Fin.ext (by
    match a with
    | ⟨0, _⟩ => exact rlhs_0 _ _
    | ⟨1, _⟩ => exact (rlhs_1 _ _).trans hk)
  have er : dot_S64x128_S128x1024_S64x1024_1_0_0_1_n_n.rhsIdx (ix2 p q) ((ValueIdx.contrEquiv1 dot_S64x128_S128x1024_S64x1024_1_0_0_1_n_n 128 rfl rfl).symm k) = ix2 k q := funext fun a => Fin.ext (by
    match a with
    | ⟨0, _⟩ => exact (rrhs_0 _ _).trans hk
    | ⟨1, _⟩ => exact rrhs_1 _ _)
  rw [el, er]

/-- The transposed weights at `(k, q)` are the weights at `(q, k)`. -/
theorem rtranspose_apply (x7 : FVec Ideal S1024x128 .f32) (k : Fin 128) (q : Fin 1024) :
    transpose S128x1024 [1, 0] x7 transposes_S1024x128_S128x1024_1_0 (ix2 k q) = x7 (ix2 q k) :=
  transpose_apply [1, 0] x7 transposes_S1024x128_S128x1024_1_0 (ix2 k q) (ix2 q k) (fun b => match b with
    | ⟨0, _⟩ => rfl
    | ⟨1, _⟩ => rfl)

/-- A bias vector laid along the columns reads the vector at the column. -/
theorem rrow_apply (b : FVec Ideal S1024 .f32) (p : Fin 64) (q : Fin 1024) :
    broadcastInDim S64x1024 ![0, 1] bcast_S1x1024_S64x1024_0_1 (broadcastInDim S1x1024 ![1] bcast_S1024_S1x1024_1 b) (ix2 p q)
      = b (ix1 q) := by
  rw [broadcastInDim_apply _ bcast_S1x1024_S64x1024_0_1 _ (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])]
  exact broadcastInDim_apply _ bcast_S1024_S1x1024_1 b (ix2 (0 : Fin 1) q) (ix1 q) (fun a => match a with
    | ⟨0, _⟩ => by show q.val = if (1024 : Nat) = 1 then 0 else q.val; rw [if_neg (by decide)])

/-- The reference's pre-activation at `(p, q)`. -/
theorem gates_apply (P : Arr2 64 128) (x7 : Arr2 1024 128) (x9 x10 : Arr1 1024) (p : Fin 64) (q : Fin 1024) :
    StageH.gates (F := Ideal) P x7 x9 x10 (ix2 p q)
      = (∑ k : Fin 128, P (ix2 p k) * x7 (ix2 q k)) + x9 (ix1 q) + x10 (ix1 q) := by
  unfold StageH.gates
  rw [addf_apply, addf_apply, rrow_apply, rrow_apply, rdot_apply]
  refine congrArg (fun s => s + x9 (ix1 q) + x10 (ix1 q)) (Finset.sum_congr rfl fun k _ => ?_)
  rw [rtranspose_apply]

/-- The reference's spelling `1 / (1 + exp (-z))` is the logistic function. -/
theorem sigm_eq (z : FVec Ideal S64x256 .f32) : StageH.sigm (F := Ideal) z = logistic z := by
  funext i
  unfold StageH.sigm
  show Ideal.div (broadcastInDim S64x256 ![] bcast_S_S64x256 (constant (F := Ideal) S_ .f32 0x3F800000#32) i)
      (broadcastInDim S64x256 ![] bcast_S_S64x256 (constant (F := Ideal) S_ .f32 0x3F800000#32) i + Ideal.exp (-(z i))) = Ideal.logistic (z i)
  rw [broadcastInDim_scalar_apply, constant_apply, Ideal.ofBits_one_f32]
  rfl

end ReferenceSide

/-- The state after the step: the body's term of the sums `ps` and reciprocal sizes `ic2` is the reference's of their
    product `P`. -/
theorem hT_core (ps : Arr2 64 128) (ic2 : Arr2 64 1) (P : Arr2 64 128)
    (hp : ∀ i : (⟨2, ![64, 128]⟩ : Shape).Idx, ps i * ic2 (ix2 (c0 i) (0 : Fin 1)) = P i)
    (x7 : Arr2 1024 128) (x9 x10 : Arr1 1024) :
    Cert.KernelIdeal.Gen.k3_pay2 (F := Ideal) ps ic2 x7 (Cert.KernelIdeal.Stage.row1024 (F := Ideal) x9) (Cert.KernelIdeal.Stage.row1024 (F := Ideal) x10)
      = Cert.ReferenceIdeal.StageH.hT (F := Ideal) P x7 x9 x10 := by
  rw [k3_pay2_eq]
  have hg : kgates ps ic2 x7 (Cert.KernelIdeal.Stage.row1024 (F := Ideal) x9) (Cert.KernelIdeal.Stage.row1024 (F := Ideal) x10)
      = Cert.ReferenceIdeal.StageH.gates (F := Ideal) P x7 x9 x10 := by
    funext i
    obtain ⟨p, q, rfl⟩ : ∃ (p : Fin 64) (q : Fin 1024), i = ix2 p q := ⟨_, _, eq_ix2 i⟩
    rw [kgates_apply, gates_apply]
    refine congrArg (fun s => s + x9 (ix1 q) + x10 (ix1 q)) (Finset.sum_congr rfl fun k _ => ?_)
    rw [← hp (ix2 p k)]
  rw [hg]
  unfold Cert.ReferenceIdeal.StageH.hT
  rw [sigm_eq, sigm_eq]
  generalize Cert.ReferenceIdeal.StageH.gates (F := Ideal) P x7 x9 x10 = R
  rfl

end Cert.Core

end
-- ==== Proof.HeadMean.lean ====
/-
  The mean head, kernel against reference: the kernel sums along a row the products of the state with the weight
  row and adds the bias; the reference multiplies the state with the transposed weight row. Both are
  `∑ₖ h[i,k] · w[0,k] + b`.
-/
import proofs.«404547_j11510512353640_2_alg».proof.ReferenceIdeal
import proofs.«404547_j11510512353640_2_alg».proof.Proof.KStages
import proofs.«404547_j11510512353640_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«404547_j11510512353640_2_alg».proof.Proof.Gen.KernelIdeal.Skeleton

noncomputable section

open scoped BigOperators

namespace Cert.ReferenceIdeal.StageM

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- A linear head: the state times the transposed weight row, plus the bias. -/
def head (h : FVec F S64x256 .f32) (w : FVec F S1x256 .f32) (b : FVec F S1 .f32) : FVec F S64x1 .f32 :=
  addf (Host.dotGeneral dot_S64x256_S256x1_S64x1_1_0_0_1_n_n none h (transpose S256x1 [1, 0] w transposes_S1x256_S256x1_1_0))
    (broadcastInDim S64x1 ![0, 1] bcast_S1x1_S64x1_0_1 (broadcastInDim S1x1 ![1] bcast_S1_S1x1_1 b))

end Cert.ReferenceIdeal.StageM

namespace Cert.Core

open Idealize.ShloMosaic Idealize.ShloMosaic.TcCoe Idealize.ShloMosaic.ValueIdx Cert.Spec

variable [Cert.KernelIdeal.Facts] [Cert.ReferenceIdeal.Facts]

/-! ### The reference's contraction at an index

The four coordinate facts of the reference's product `[64,256] · [256,1]`: the left operand is read at
(row, contraction index), the right one at (contraction index, column). -/

section RefDot
open Cert.ReferenceIdeal

private theorem lhs_head_0 (i : S64x1.Idx) (q : dot_S64x256_S256x1_S64x1_1_0_0_1_n_n.contr.Idx) :
    (dot_S64x256_S256x1_S64x1_1_0_0_1_n_n.lhsIdx i q 0).val = (i 0).val := by
  unfold DotDims.lhsIdx
  rw [dif_neg (show ¬(0 : Fin S64x256.rank) ∈ dot_S64x256_S256x1_S64x1_1_0_0_1_n_n.lhsBatch from List.not_mem_nil), dif_pos (show (0 : Fin S64x256.rank) ∈ dot_S64x256_S256x1_S64x1_1_0_0_1_n_n.lhsNonContracting from List.mem_singleton.2 rfl)]
  rfl
private theorem lhs_head_1 (i : S64x1.Idx) (q : dot_S64x256_S256x1_S64x1_1_0_0_1_n_n.contr.Idx) :
    (dot_S64x256_S256x1_S64x1_1_0_0_1_n_n.lhsIdx i q 1).val = (q ⟨0, Nat.one_pos⟩).val :=
  dot_S64x256_S256x1_S64x1_1_0_0_1_n_n.lhsIdx_val_of_single rfl i q
private theorem rhs_head_0 (i : S64x1.Idx) (q : dot_S64x256_S256x1_S64x1_1_0_0_1_n_n.contr.Idx) :
    (dot_S64x256_S256x1_S64x1_1_0_0_1_n_n.rhsIdx i q 0).val = (q ⟨0, Nat.one_pos⟩).val :=
  dot_S64x256_S256x1_S64x1_1_0_0_1_n_n.rhsIdx_val_of_single rfl i q
private theorem rhs_head_1 (i : S64x1.Idx) (q : dot_S64x256_S256x1_S64x1_1_0_0_1_n_n.contr.Idx) :
    (dot_S64x256_S256x1_S64x1_1_0_0_1_n_n.rhsIdx i q 1).val = (i 1).val := by
  unfold DotDims.rhsIdx
  rw [dif_neg (show ¬(1 : Fin S256x1.rank) ∈ dot_S64x256_S256x1_S64x1_1_0_0_1_n_n.rhsBatch from List.not_mem_nil), dif_pos (show (1 : Fin S256x1.rank) ∈ dot_S64x256_S256x1_S64x1_1_0_0_1_n_n.rhsNonContracting from List.mem_singleton.2 rfl)]
  rfl

/-- The reference's product of the state with a `[256,1]` column, at row `p`: the sum over the 256 lanes. -/
private theorem ref_dot_apply (h : FVec Ideal S64x256 .f32) (c : FVec Ideal S256x1 .f32) (p : Fin 64) :
    Host.dotGeneral (F := Ideal) dot_S64x256_S256x1_S64x1_1_0_0_1_n_n none h c (ix2 p (0 : Fin 1))
      = ∑ k : Fin 256, h (ix2 p k) * c (ix2 k (0 : Fin 1)) := by
  simp only [Host.dotGeneral]
  rw [Ideal.dotGeneral_apply, ← Equiv.sum_comp (ValueIdx.contrEquiv1 dot_S64x256_S256x1_S64x1_1_0_0_1_n_n 256 rfl rfl).symm]
  refine Finset.sum_congr rfl fun k _ => ?_
  have hk := ValueIdx.contrEquiv1_symm_val dot_S64x256_S256x1_S64x1_1_0_0_1_n_n 256 rfl rfl k
  have el : dot_S64x256_S256x1_S64x1_1_0_0_1_n_n.lhsIdx (ix2 p (0 : Fin 1)) ((ValueIdx.contrEquiv1 dot_S64x256_S256x1_S64x1_1_0_0_1_n_n 256 rfl rfl).symm k) = ix2 p k := funext fun a => Fin.ext (by
    match a with
    | ⟨0, _⟩ => exact lhs_head_0 _ _
    | ⟨1, _⟩ => exact (lhs_head_1 _ _).trans hk)
  have er : dot_S64x256_S256x1_S64x1_1_0_0_1_n_n.rhsIdx (ix2 p (0 : Fin 1)) ((ValueIdx.contrEquiv1 dot_S64x256_S256x1_S64x1_1_0_0_1_n_n 256 rfl rfl).symm k) = ix2 k (0 : Fin 1) := funext fun a => Fin.ext (by
    match a with
    | ⟨0, _⟩ => exact (rhs_head_0 _ _).trans hk
    | ⟨1, _⟩ => exact rhs_head_1 _ _)
  rw [el, er]

/-- The transposed weight row at (k, 0) is the row at (0, k). -/
private theorem ref_transpose_apply (w : FVec Ideal S1x256 .f32) (ht : S1x256.Transposes [1, 0] S256x1) (k : Fin 256) :
    transpose S256x1 [1, 0] w ht (ix2 k (0 : Fin 1)) = w (ix2 (0 : Fin 1) k) :=
  transpose_apply [1, 0] w ht (ix2 k (0 : Fin 1)) (ix2 (0 : Fin 1) k) (fun b => match b with
    | ⟨0, _⟩ => rfl
    | ⟨1, _⟩ => rfl)

/-- The bias `[1]` broadcast to `[1,1]` and then to `[64,1]`, at any row, is the bias. -/
private theorem ref_bias_apply (b : FVec Ideal S1 .f32) (h1 : S1.BroadcastsInDim S1x1 (![1] : Fin 1 → Fin S1x1.rank))
    (h2 : S1x1.BroadcastsInDim S64x1 (![0, 1] : Fin 2 → Fin S64x1.rank)) (p : Fin 64) :
    broadcastInDim S64x1 ![0, 1] h2 (broadcastInDim S1x1 ![1] h1 b) (ix2 p (0 : Fin 1)) = b (ix1 (0 : Fin 1)) := by
  refine (broadcastInDim_apply ![0, 1] h2 _ (ix2 p (0 : Fin 1)) (ix2 (0 : Fin 1) (0 : Fin 1)) (fun a => match a with
    | ⟨0, _⟩ => rfl
    | ⟨1, _⟩ => rfl)).trans ?_
  exact broadcastInDim_apply ![1] h1 b (ix2 (0 : Fin 1) (0 : Fin 1)) (ix1 (0 : Fin 1)) (fun a => match a with
    | ⟨0, _⟩ => rfl)

end RefDot

/-! ### The kernel's lane sum at an index -/

section KerSum
open Cert.KernelIdeal

/-- The weight row broadcast along the rows, at (p, k), is the row at (0, k). -/
private theorem ker_row_apply (w : FVec Ideal S1x256 .f32) (hb : S1x256.Broadcasts S64x256) (p : Fin 64) (k : Fin 256) :
    broadcastTo S64x256 w hb (ix2 p k) = w (ix2 (0 : Fin 1) k) :=
  broadcastTo_apply w hb (ix2 p k) (ix2 (0 : Fin 1) k) (fun a => match a with
    | ⟨0, _⟩ => rfl
    | ⟨1, _⟩ => rfl)

/-- The sum along axis 1 of the products, reshaped to a column, at row `p`: the sum over the 256 lanes. -/
private theorem ker_sum_apply (h : FVec Ideal S64x256 .f32) (w : FVec Ideal S1x256 .f32) (hb : S1x256.Broadcasts S64x256)
    (hr : S64x256.Reduces [1] S64) (hφ : FKind.Formats FTy.f32) (hacc : (0x00000000#32 : BitVec 32) = FKind.add.neutral .f32 hφ)
    (hs : S64.ShapeCasts S64x1) (p : Fin 64) :
    shapeCast S64x1 (multiReduction (F := Ideal) .add [1] S64 (mulf h (broadcastTo S64x256 w hb)) 0x00000000#32 hr hφ hacc) hs (ix2 p (0 : Fin 1))
      = ∑ k : Fin 256, h (ix2 p k) * w (ix2 (0 : Fin 1) k) := by
  refine (shapeCast_apply _ hs (ix2 p (0 : Fin 1)) (ix1 p) ?_).trans ?_
  · rw [Shape.rowMajor_val_two, Shape.rowMajor_val_one]
    show p.val = p.val * 1 + 0
    omega
  refine (Ideal.multiReduction_add_single _ _ hr hφ hacc (ix1 p)).trans ?_
  show ∑ k : Fin 256, mulf h (broadcastTo S64x256 w hb) (hr.lift (ix1 p) k) = _
  refine Finset.sum_congr rfl fun k _ => ?_
  have e : hr.lift (ix1 p) k = ix2 p k := funext fun a => Fin.ext (by
    match a with
    | ⟨0, _⟩ => rfl
    | ⟨1, _⟩ => rfl)
  rw [e, mulf_apply, ker_row_apply]

/-- The bias `[1]` as `[1,1]`, broadcast along the rows, at any row, is the bias. -/
private theorem ker_bias_apply (b : FVec Ideal S1 .f32) (h0 : S1.ShapeCasts S1x1) (h1 : S1x1.ShapeCasts S1x1)
    (hb : S1x1.Broadcasts S64x1) (p : Fin 64) :
    broadcastTo S64x1 (shapeCast S1x1 (shapeCast S1x1 b h0) h1) hb (ix2 p (0 : Fin 1)) = b (ix1 (0 : Fin 1)) := by
  rw [shapeCast_self]
  refine (broadcastTo_apply _ hb (ix2 p (0 : Fin 1)) (ix2 (0 : Fin 1) (0 : Fin 1)) (fun a => match a with
    | ⟨0, _⟩ => rfl
    | ⟨1, _⟩ => rfl)).trans ?_
  exact shapeCast_a_1a_apply b h0 (0 : Fin 1) (0 : Fin 1)

end KerSum

/-- The first result is the linear head of the state the same launch computes. -/
theorem mean_head_core (ps : Arr2 64 128) (ic2 : Arr2 64 1) (x7 : Arr2 1024 128) (r9 r10 : Arr2 1 1024) (x11 : Arr2 1 256) (x12 : Arr1 1) :
    Cert.KernelIdeal.Gen.k3_pay4 (F := Ideal) ps ic2 x7 r9 r10 x11 (Cert.KernelIdeal.Stage.row1 (F := Ideal) x12)
      = Cert.ReferenceIdeal.StageM.head (F := Ideal) (Cert.KernelIdeal.Gen.k3_pay2 (F := Ideal) ps ic2 x7 r9 r10) x11 x12 := by
  unfold Cert.KernelIdeal.Gen.k3_pay4
  generalize Cert.KernelIdeal.Gen.k3_pay2 (F := Ideal) ps ic2 x7 r9 r10 = h
  funext i
  obtain ⟨p, q, rfl⟩ : ∃ (p : Fin 64) (q : Fin 1), i = ix2 p q := ⟨_, _, eq_ix2 i⟩
  obtain rfl : q = 0 := Subsingleton.elim _ _
  unfold Cert.ReferenceIdeal.StageM.head Cert.KernelIdeal.Stage.row1
  rw [addf_apply, addf_apply]
  refine congrArg₂ (· + ·) ?_ ?_
  · refine (ker_sum_apply h x11 _ _ _ _ _ p).trans ?_
    refine ((ref_dot_apply h _ p).trans ?_).symm
    exact Finset.sum_congr rfl fun k _ => by rw [ref_transpose_apply]
  · exact (ker_bias_apply x12 _ _ _ p).trans (ref_bias_apply x12 _ _ p).symm

end Cert.Core

end
-- ==== Proof.HeadLogvar.lean ====
/-
  The softplus head, kernel against reference: the same linear head as the mean's, then `max y 0 + log1p (exp (-|y|))`,
  the kernel writing `0 - |y - 0|` where the reference writes `-|y - 0|`, both behind a not-a-number guard that no
  extended real takes.
-/
import proofs.«404547_j11510512353640_2_alg».proof.ReferenceIdeal
import proofs.«404547_j11510512353640_2_alg».proof.Proof.KStages
import proofs.«404547_j11510512353640_2_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«404547_j11510512353640_2_alg».proof.Proof.Gen.KernelIdeal.Skeleton

noncomputable section

open scoped BigOperators

namespace Cert.ReferenceIdeal.StageL

open Cert.ReferenceIdeal Idealize.ShloMosaic Idealize.ShloMosaic.TcCoe
open Cert.ReferenceIdeal.Facts₀ Cert.ReferenceIdeal.Facts

variable {F : FTy → Type} [FloatOps F] [Cert.ReferenceIdeal.Facts]

/-- A linear head: the state times the transposed weight row, plus the bias. -/
def head (h : FVec F S64x256 .f32) (w : FVec F S1x256 .f32) (b : FVec F S1 .f32) : FVec F S64x1 .f32 :=
  addf (Host.dotGeneral dot_S64x256_S256x1_S64x1_1_0_0_1_n_n none h (transpose S256x1 [1, 0] w transposes_S1x256_S256x1_1_0))
    (broadcastInDim S64x1 ![0, 1] bcast_S1x1_S64x1_0_1 (broadcastInDim S1x1 ![1] bcast_S1_S1x1_1 b))

/-- `log (1 + exp y)` as the reference spells it: `max y 0 + log1p (exp (-|y - 0|))`, behind a guard `y - 0 ≠ y - 0` that
    no extended real takes. -/
def softplus (y : FVec F S64x1 .f32) : FVec F S64x1 .f32 :=
  select (cmpf .une (subf y (broadcastInDim S64x1 ![] bcast_S_S64x1 (constant S_ .f32 0x00000000#32))) (subf y (broadcastInDim S64x1 ![] bcast_S_S64x1 (constant S_ .f32 0x00000000#32))))
    (addf y (broadcastInDim S64x1 ![] bcast_S_S64x1 (constant S_ .f32 0x00000000#32)))
    (addf (maximumf y (broadcastInDim S64x1 ![] bcast_S_S64x1 (constant S_ .f32 0x00000000#32)))
      (Host.log1p (Host.exp (Host.negf (Host.absf (subf y (broadcastInDim S64x1 ![] bcast_S_S64x1 (constant S_ .f32 0x00000000#32))))))))

end Cert.ReferenceIdeal.StageL

namespace Cert.Core

open Idealize.ShloMosaic Idealize.ShloMosaic.TcCoe Idealize.ShloMosaic.ValueIdx Cert.Spec

/-! ## The kernel's side: a row sum of products plus the bias, then the pointwise tail -/

section KernelSide

open Cert.KernelIdeal Cert.KernelIdeal.Facts₀ Cert.KernelIdeal.Facts

variable [Cert.KernelIdeal.Facts]

/-- The kernel's linear head: along each row, the sum of the products of the state with the weight row, plus the bias. -/
private def klin (h : FVec Ideal S64x256 .f32) (w : FVec Ideal S1x256 .f32) (b : FVec Ideal S1x1 .f32) : FVec Ideal S64x1 .f32 :=
  addf (shapeCast S64x1 (multiReduction .add [1] S64 (mulf h (broadcastTo S64x256 w broadcasts_S1x256_S64x256)) 0x00000000#32 reduces_S64x256_S64 (.inl rfl) rfl) shapeCasts_S64_S64x1)
    (broadcastTo S64x1 b broadcasts_S1x1_S64x1)

/-- The kernel's pointwise tail: `max y 0 + log1p (exp (0 - |y - 0|))` behind the guard `y - 0 ≠ y - 0`. -/
private def ktail (y : FVec Ideal S64x1 .f32) : FVec Ideal S64x1 .f32 :=
  select (cmpf .one (subf y (broadcast S64x1 (Scalar.ofBits .f32 0x00000000#32))) (subf y (broadcast S64x1 (Scalar.ofBits .f32 0x00000000#32))))
    (addf y (broadcast S64x1 (Scalar.ofBits .f32 0x00000000#32)))
    (addf (maximumf y (broadcast S64x1 (Scalar.ofBits .f32 0x00000000#32)))
      (log1p (exp (subf (broadcast S64x1 (Scalar.ofBits .f32 0x00000000#32)) (absf (subf y (broadcast S64x1 (Scalar.ofBits .f32 0x00000000#32))))))))

/-- The body's term is the tail of the linear head. -/
private theorem k3_pay1_eq (h : FVec Ideal S64x256 .f32) (w : FVec Ideal S1x256 .f32) (b : FVec Ideal S1x1 .f32) :
    Cert.KernelIdeal.Gen.k3_pay1 (F := Ideal) h w b = ktail (klin h w b) := rfl

/-- Row `p` with the lane `k` put back is `(p, k)`. -/
private theorem lift_row (hr : (⟨2, ![64, 256]⟩ : Shape).Reduces [1] (⟨1, ![64]⟩ : Shape)) (p : Fin 64)
    (k : Fin ((⟨2, ![64, 256]⟩ : Shape).size 1)) : hr.lift (ix1 p) k = ix2 p (⟨k.val, k.isLt⟩ : Fin 256) := by
  funext c; apply Fin.ext
  fin_cases c <;> rfl

/-- The kernel's linear head at row `p`: `∑ₖ h[p,k] · w[0,k] + b[0,0]`. -/
private theorem klin_apply (h : Arr2 64 256) (w : Arr2 1 256) (b : Arr2 1 1) (p : Fin 64) :
    klin h w b (ix2 p (0 : Fin 1)) = (∑ k : Fin 256, h (ix2 p k) * w (ix2 (0 : Fin 1) k)) + b (ix2 (0 : Fin 1) (0 : Fin 1)) := by
  unfold klin
  rw [addf_apply]
  refine congrArg₂ (· + ·) ?_ ?_
  · rw [shapeCast_apply _ shapeCasts_S64_S64x1 (ix2 p (0 : Fin 1)) (ix1 p) (by
      rw [Shape.rowMajor_val_two, Shape.rowMajor_val_one]
      show p.val = p.val * 1 + 0
      omega)]
    refine (Ideal.multiReduction_add_single _ 0x00000000#32 reduces_S64x256_S64 (.inl rfl) rfl (ix1 p)).trans ?_
    refine (Finset.sum_congr rfl fun k _ => ?_ :
      _ = ∑ k : Fin ((⟨2, ![64, 256]⟩ : Shape).size 1), h (ix2 p (⟨k.val, k.isLt⟩ : Fin 256)) * w (ix2 (0 : Fin 1) (⟨k.val, k.isLt⟩ : Fin 256))).trans ?_
    · rw [lift_row, mulf_apply, broadcastTo_1b_ab_apply]
    · rfl
  · exact broadcastTo_1b_ab_apply b broadcasts_S1x1_S64x1 p (0 : Fin 1)

/-- The bias as the kernel reads it: the one-element vector cast to a row, cast again to itself. -/
private theorem bias_apply (x14 : Arr1 1) :
    Cert.KernelIdeal.Gen.k3_pay3 (F := Ideal) (Cert.KernelIdeal.Stage.row1 (F := Ideal) x14) (ix2 (0 : Fin 1) (0 : Fin 1)) = x14 (ix1 (0 : Fin 1)) := by
  unfold Cert.KernelIdeal.Gen.k3_pay3 Cert.KernelIdeal.Stage.row1
  rw [shapeCast_self]
  exact shapeCast_a_1a_apply x14 shapeCasts_S1_S1x1 (0 : Fin 1) (0 : Fin 1)

end KernelSide

/-! ## The reference's side: the state times the transposed weight row, plus the bias -/

section ReferenceSide

open Cert.ReferenceIdeal Cert.ReferenceIdeal.Facts₀ Cert.ReferenceIdeal.Facts

variable [Cert.ReferenceIdeal.Facts]

private theorem lhs_head_0 (i : S64x1.Idx) (q : dot_S64x256_S256x1_S64x1_1_0_0_1_n_n.contr.Idx) :
    (dot_S64x256_S256x1_S64x1_1_0_0_1_n_n.lhsIdx i q 0).val = (i 0).val := by
  unfold DotDims.lhsIdx
  rw [dif_neg (show ¬(0 : Fin S64x256.rank) ∈ dot_S64x256_S256x1_S64x1_1_0_0_1_n_n.lhsBatch from List.not_mem_nil), dif_pos (show (0 : Fin S64x256.rank) ∈ dot_S64x256_S256x1_S64x1_1_0_0_1_n_n.lhsNonContracting from List.mem_singleton.2 rfl)]
  rfl
private theorem lhs_head_1 (i : S64x1.Idx) (q : dot_S64x256_S256x1_S64x1_1_0_0_1_n_n.contr.Idx) :
    (dot_S64x256_S256x1_S64x1_1_0_0_1_n_n.lhsIdx i q 1).val = (q ⟨0, Nat.one_pos⟩).val :=
  dot_S64x256_S256x1_S64x1_1_0_0_1_n_n.lhsIdx_val_of_single rfl i q
private theorem rhs_head_0 (i : S64x1.Idx) (q : dot_S64x256_S256x1_S64x1_1_0_0_1_n_n.contr.Idx) :
    (dot_S64x256_S256x1_S64x1_1_0_0_1_n_n.rhsIdx i q 0).val = (q ⟨0, Nat.one_pos⟩).val :=
  dot_S64x256_S256x1_S64x1_1_0_0_1_n_n.rhsIdx_val_of_single rfl i q
private theorem rhs_head_1 (i : S64x1.Idx) (q : dot_S64x256_S256x1_S64x1_1_0_0_1_n_n.contr.Idx) :
    (dot_S64x256_S256x1_S64x1_1_0_0_1_n_n.rhsIdx i q 1).val = (i 1).val := by
  unfold DotDims.rhsIdx
  rw [dif_neg (show ¬(1 : Fin S256x1.rank) ∈ dot_S64x256_S256x1_S64x1_1_0_0_1_n_n.rhsBatch from List.not_mem_nil), dif_pos (show (1 : Fin S256x1.rank) ∈ dot_S64x256_S256x1_S64x1_1_0_0_1_n_n.rhsNonContracting from List.mem_singleton.2 rfl)]
  rfl

/-- The host's product of the state with a column, at row `p`: `∑ₖ h[p,k] · y[k,0]`. -/
private theorem hdot_apply (h : FVec Ideal S64x256 .f32) (y : FVec Ideal S256x1 .f32) (p : Fin 64) :
    Host.dotGeneral (F := Ideal) dot_S64x256_S256x1_S64x1_1_0_0_1_n_n none h y (ix2 p (0 : Fin 1))
      = ∑ k : Fin 256, h (ix2 p k) * y (ix2 k (0 : Fin 1)) := by
  simp only [Host.dotGeneral]
  rw [Ideal.dotGeneral_apply, ← Equiv.sum_comp (ValueIdx.contrEquiv1 dot_S64x256_S256x1_S64x1_1_0_0_1_n_n 256 rfl rfl).symm]
  refine Finset.sum_congr rfl fun k _ => ?_
  have hk := ValueIdx.contrEquiv1_symm_val dot_S64x256_S256x1_S64x1_1_0_0_1_n_n 256 rfl rfl k
  have el : dot_S64x256_S256x1_S64x1_1_0_0_1_n_n.lhsIdx (ix2 p (0 : Fin 1)) ((ValueIdx.contrEquiv1 dot_S64x256_S256x1_S64x1_1_0_0_1_n_n 256 rfl rfl).symm k) = ix2 p k := funext fun a => Fin.ext (by
    match a with
    | ⟨0, _⟩ => exact lhs_head_0 _ _
    | ⟨1, _⟩ => exact (lhs_head_1 _ _).trans hk)
  have er : dot_S64x256_S256x1_S64x1_1_0_0_1_n_n.rhsIdx (ix2 p (0 : Fin 1)) ((ValueIdx.contrEquiv1 dot_S64x256_S256x1_S64x1_1_0_0_1_n_n 256 rfl rfl).symm k) = ix2 k (0 : Fin 1) := funext fun a => Fin.ext (by
    match a with
    | ⟨0, _⟩ => exact (rhs_head_0 _ _).trans hk
    | ⟨1, _⟩ => exact rhs_head_1 _ _)
  rw [el, er]

/-- The reference's linear head at row `p`: `∑ₖ h[p,k] · w[0,k] + b[0]`. -/
private theorem head_apply (h : Arr2 64 256) (w : Arr2 1 256) (b : Arr1 1) (p : Fin 64) :
    StageL.head (F := Ideal) h w b (ix2 p (0 : Fin 1)) = (∑ k : Fin 256, h (ix2 p k) * w (ix2 (0 : Fin 1) k)) + b (ix1 (0 : Fin 1)) := by
  unfold StageL.head
  rw [addf_apply, hdot_apply]
  refine congrArg₂ (· + ·) (Finset.sum_congr rfl fun k _ => ?_) ?_
  · rw [transpose_ix2_apply]
  · rw [broadcastInDim_apply _ bcast_S1x1_S64x1_0_1 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl])]
    exact broadcastInDim_apply _ bcast_S1_S1x1_1 b (ix2 (0 : Fin 1) (0 : Fin 1)) (ix1 (0 : Fin 1)) (fun a => match a with
      | ⟨0, _⟩ => by show 0 = if (1 : Nat) = 1 then 0 else 0; rw [if_pos rfl])

end ReferenceSide

/-! ## The two sides meet -/

private theorem cmp_one_self (a : EReal) : Ideal.cmp .one a a = 0#1 := by simp [Ideal.cmp]
private theorem cmp_une_self (a : EReal) : Ideal.cmp .une a a = 0#1 := by simp [Ideal.cmp]

variable [Cert.KernelIdeal.Facts] [Cert.ReferenceIdeal.Facts]

/-- The linear heads agree as arrays. -/
private theorem head_eq (h : Arr2 64 256) (x13 : Arr2 1 256) (x14 : Arr1 1) :
    klin h x13 (Cert.KernelIdeal.Gen.k3_pay3 (F := Ideal) (Cert.KernelIdeal.Stage.row1 (F := Ideal) x14))
      = Cert.ReferenceIdeal.StageL.head (F := Ideal) h x13 x14 := by
  funext i
  obtain ⟨p, q, rfl⟩ : ∃ (p : Fin 64) (q : Fin 1), i = ix2 p q := ⟨_, _, eq_ix2 i⟩
  obtain rfl : q = 0 := Subsingleton.elim _ _
  rw [klin_apply, head_apply, bias_apply]

/-- The pointwise tails agree: the guard is never taken on either side, and `0 - a = -a`. -/
private theorem tail_eq (y : Arr2 64 1) : ktail y = Cert.ReferenceIdeal.StageL.softplus (F := Ideal) y := by
  funext i
  have hz : Ideal.ofBits .f32 0x00000000#32 = 0 := Ideal.ofBits_zero_f32
  show Scalar.select (Ideal.cmp .one (y i - Ideal.ofBits .f32 0x00000000#32) (y i - Ideal.ofBits .f32 0x00000000#32)) (y i + Ideal.ofBits .f32 0x00000000#32)
      (max (y i) (Ideal.ofBits .f32 0x00000000#32) + Ideal.log1p (Ideal.exp (Ideal.ofBits .f32 0x00000000#32 - max (y i - Ideal.ofBits .f32 0x00000000#32) (-(y i - Ideal.ofBits .f32 0x00000000#32)))))
    = Scalar.select (Ideal.cmp .une (y i - Ideal.ofBits .f32 0x00000000#32) (y i - Ideal.ofBits .f32 0x00000000#32)) (y i + Ideal.ofBits .f32 0x00000000#32)
      (max (y i) (Ideal.ofBits .f32 0x00000000#32) + Ideal.log1p (Ideal.exp (-(max (y i - Ideal.ofBits .f32 0x00000000#32) (-(y i - Ideal.ofBits .f32 0x00000000#32))))))
  rw [cmp_one_self, cmp_une_self, hz, zero_sub]

/-- The second result, for any state `h`: the body's term is the reference's softplus of the linear head. -/
theorem logvar_head_core (h : Arr2 64 256) (x13 : Arr2 1 256) (x14 : Arr1 1) :
    Cert.KernelIdeal.Gen.k3_pay1 (F := Ideal) h x13 (Cert.KernelIdeal.Gen.k3_pay3 (F := Ideal) (Cert.KernelIdeal.Stage.row1 (F := Ideal) x14))
      = Cert.ReferenceIdeal.StageL.softplus (F := Ideal) (Cert.ReferenceIdeal.StageL.head (F := Ideal) h x13 x14) := by
  rw [k3_pay1_eq, head_eq, tail_eq]

end Cert.Core

end
-- ==== Proof.RefStages.lean ====
/-
  The reference program's two results as one function each of the fifteen argument arrays, composed of its stages:
  two graph-convolution layers, the mean pooling, the recurrent step, the two heads.
-/
import proofs.«404547_j11510512353640_2_alg».proof.Proof.LayerCore
import proofs.«404547_j11510512353640_2_alg».proof.Proof.PoolCore
import proofs.«404547_j11510512353640_2_alg».proof.Proof.HeadH
import proofs.«404547_j11510512353640_2_alg».proof.Proof.HeadMean
import proofs.«404547_j11510512353640_2_alg».proof.Proof.HeadLogvar

noncomputable section

open scoped BigOperators

namespace Cert.Bridge

open Idealize.ShloMosaic Idealize.ShloMosaic.TcCoe

section Stages
variable [Cert.ReferenceIdeal.Facts]

/-- The reference's first layer. -/
def F1 (x0 : FVec Ideal Cert.ReferenceIdeal.S50000x128 .f32) (x1 : IVec Cert.ReferenceIdeal.S2x600000 32) (x3 : FVec Ideal Cert.ReferenceIdeal.S128x128 .f32) (x4 : FVec Ideal Cert.ReferenceIdeal.S128 .f32) : FVec Ideal Cert.ReferenceIdeal.S50000x128 .f32 :=
  Cert.ReferenceIdeal.Stage.layer (F := Ideal) x1
    (Host.dotGeneral (F := Ideal) (φ₁ := .f32) (φ₂ := .f32) Cert.ReferenceIdeal.dot_S50000x128_S128x128_S50000x128_1_0_0_1_n_n none x0 x3) x4

/-- The reference's second layer. -/
def F2 (x0 : FVec Ideal Cert.ReferenceIdeal.S50000x128 .f32) (x1 : IVec Cert.ReferenceIdeal.S2x600000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) : FVec Ideal Cert.ReferenceIdeal.S50000x128 .f32 :=
  Cert.ReferenceIdeal.Stage.layer (F := Ideal) x1
    (Host.dotGeneral (F := Ideal) (φ₁ := .f32) (φ₂ := .f32) Cert.ReferenceIdeal.dot_S50000x128_S128x128_S50000x128_1_0_0_1_n_n none (F1 x0 x1 x3 x4) x5) x6

/-- The reference's pooled mean. -/
def Pm (x0 : FVec Ideal Cert.ReferenceIdeal.S50000x128 .f32) (x1 : IVec Cert.ReferenceIdeal.S2x600000 32) (x2 : IVec Cert.ReferenceIdeal.S50000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) : FVec Ideal Cert.ReferenceIdeal.S64x128 .f32 :=
  Cert.ReferenceIdeal.StagePool.mean (F := Ideal) x2 (Cert.ReferenceIdeal.StagePool.sums (F := Ideal) x2 (F2 x0 x1 x3 x4 x5 x6))

/-- The reference's first result as one function of the arguments. -/
def Rmean (x0 : FVec Ideal Cert.ReferenceIdeal.S50000x128 .f32) (x1 : IVec Cert.ReferenceIdeal.S2x600000 32) (x2 : IVec Cert.ReferenceIdeal.S50000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) (x7 : FVec Ideal Cert.ReferenceIdeal.S1024x128 .f32) (x9 : FVec Ideal Cert.ReferenceIdeal.S1024 .f32) (x10 : FVec Ideal Cert.ReferenceIdeal.S1024 .f32) (x11 : FVec Ideal Cert.ReferenceIdeal.S1x256 .f32) (x12 : FVec Ideal Cert.ReferenceIdeal.S1 .f32) : FVec Ideal Cert.ReferenceIdeal.S64x1 .f32 :=
  Cert.ReferenceIdeal.StageM.head (F := Ideal) (Cert.ReferenceIdeal.StageH.hT (F := Ideal) (Pm x0 x1 x2 x3 x4 x5 x6) x7 x9 x10) x11 x12

/-- The reference's second result as one function of the arguments. -/
def Rlogvar (x0 : FVec Ideal Cert.ReferenceIdeal.S50000x128 .f32) (x1 : IVec Cert.ReferenceIdeal.S2x600000 32) (x2 : IVec Cert.ReferenceIdeal.S50000 32) (x3 : FVec Ideal Cert.ReferenceIdeal.S128x128 .f32) (x4 : FVec Ideal Cert.ReferenceIdeal.S128 .f32) (x5 : FVec Ideal Cert.ReferenceIdeal.S128x128 .f32) (x6 : FVec Ideal Cert.ReferenceIdeal.S128 .f32) (x7 : FVec Ideal Cert.ReferenceIdeal.S1024x128 .f32) (x9 : FVec Ideal Cert.ReferenceIdeal.S1024 .f32) (x10 : FVec Ideal Cert.ReferenceIdeal.S1024 .f32) (x13 : FVec Ideal Cert.ReferenceIdeal.S1x256 .f32) (x14 : FVec Ideal Cert.ReferenceIdeal.S1 .f32) : FVec Ideal Cert.ReferenceIdeal.S64x1 .f32 :=
  Cert.ReferenceIdeal.StageL.softplus (F := Ideal) (Cert.ReferenceIdeal.StageL.head (F := Ideal) (Cert.ReferenceIdeal.StageH.hT (F := Ideal) (Pm x0 x1 x2 x3 x4 x5 x6) x7 x9 x10) x13 x14)

end Stages

end Cert.Bridge

end
-- ==== Proof.RefChunk1.lean ====
/-
  The reference's first operations: the first weight product, the edge lists with self-loops, the degree and its
  inverse square root, each as a function of what the arguments hold when the piece starts.
-/
import proofs.«404547_j11510512353640_2_alg».proof.Proof.RefOps
import proofs.«404547_j11510512353640_2_alg».proof.Proof.LayerCore

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

/-! ## The piece in two halves: up to the edge lists, and the degree from them -/

section Halves
variable {F : FTy → Type} [FloatOps F]
/-- The piece's operations up to the two edge lists, -/
private abbrev ops1a : List (HloOp τ sig (Elt F)) :=
  [
    binary main_arg0 main_arg3 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v1 (iotaInDim S50000 32 0),
    unary main_arg1 main_v2 ((extractStridedSlice S1x600000 ![0, 0] · slices_S2x600000_S1x600000_0_0) : (⟨S2x600000, .i32⟩ : BufTy).Contents (Elt F) → (⟨S1x600000, .i32⟩ : BufTy).Contents (Elt F)),
    reshape main_v2 main_v3 rfl shapeCasts_S1x600000_S600000,
    binary main_v3 main_v1 main_v4 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v5 ((extractStridedSlice S1x600000 ![1, 0] · slices_S2x600000_S1x600000_1_0) : (⟨S2x600000, .i32⟩ : BufTy).Contents (Elt F) → (⟨S1x600000, .i32⟩ : BufTy).Contents (Elt F)),
    reshape main_v5 main_v6 rfl shapeCasts_S1x600000_S600000,
    binary main_v6 main_v1 main_v7 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
/-- and from there on: the degree and its inverse square root. -/
private abbrev ops1b : List (HloOp τ sig (Elt F)) :=
  [
    nullary main_cst (constant S_ .f32 0x3F800000#32),
    unary main_cst main_v8 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S650000x1 ![0] bcast_S650000_S650000x1_0 : (⟨S650000, .i32⟩ : BufTy).Contents (Elt F) → (⟨S650000x1, .i32⟩ : BufTy).Contents (Elt F)),
    ternary main_v9 main_v10 main_v8 main_v11 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf (F := F) .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]
private theorem ops1_halves : (ops1 : List (HloOp τ sig (Elt F))) = ops1a ++ ops1b := rfl
end Halves

private theorem ops1a_dst : after (ops1a (F := Ideal)) V (Proc.devRef .tc main_v7) = Stage.dst (V (Proc.devRef .tc main_arg1)) := by
  after_results
  rfl

private theorem ops1b_dinv : after (ops1b (F := Ideal)) V (Proc.devRef .tc main_v15)
    = select (cmpf .ogt (Host.scatterAdd scatter_S50000_S650000x1_S650000_n_0_0_1
          (broadcastInDim S50000 ![] bcast_S_S50000 (constant (F := Ideal) S_ .f32 0x00000000#32))
          (Stage.col (V (Proc.devRef .tc main_v7)))
          (broadcastInDim S650000 ![] bcast_S_S650000 (constant (F := Ideal) S_ .f32 0x3F800000#32)))
        (broadcastInDim S50000 ![] bcast_S_S50000 (constant (F := Ideal) S_ .f32 0x00000000#32)))
      (Host.rsqrt (Host.scatterAdd scatter_S50000_S650000x1_S650000_n_0_0_1
          (broadcastInDim S50000 ![] bcast_S_S50000 (constant (F := Ideal) S_ .f32 0x00000000#32))
          (Stage.col (V (Proc.devRef .tc main_v7)))
          (broadcastInDim S650000 ![] bcast_S_S650000 (constant (F := Ideal) S_ .f32 0x3F800000#32))))
      (broadcastInDim S50000 ![] bcast_S_S50000 (id (constant (F := Ideal) S_ .f32 0x00000000#32))) := by
  after_results
  simp only [TRef.ofBuf, TRef.toBuf, cast_eq]
  rfl

/-! ## What the piece leaves -/

theorem chunk1_v0 : after (ops1 (F := Ideal)) V (Proc.devRef .tc main_v0) = Host.dotGeneral (F := Ideal) (φ₁ := .f32) (φ₂ := .f32) dot_S50000x128_S128x128_S50000x128_1_0_0_1_n_n none (V (Proc.devRef .tc main_arg0)) (V (Proc.devRef .tc main_arg3)) := by
  after_results
theorem chunk1_v4 : after (ops1 (F := Ideal)) V (Proc.devRef .tc main_v4) = Stage.src (V (Proc.devRef .tc main_arg1)) := by
  after_results
  rfl
theorem chunk1_v7 : after (ops1 (F := Ideal)) V (Proc.devRef .tc main_v7) = Stage.dst (V (Proc.devRef .tc main_arg1)) := by
  after_results
  rfl
theorem chunk1_v15 : after (ops1 (F := Ideal)) V (Proc.devRef .tc main_v15) = Stage.dinv (F := Ideal) (V (Proc.devRef .tc main_arg1)) := by
  rw [ops1_halves, StableHlo.after_append, ops1b_dinv, ops1a_dst]
  rfl

/-- No operation of the piece writes an argument array. -/
theorem chunk1_args (a : Ref sig .tc) (ha : a ∈ argRefs) : after (ops1 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl <;>
  exact StableHlo.after_of_forall_not_mem _ _ (List.forall_iff_forall_mem.mp (by
    simp only [ops1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.ReferenceIdeal.RunChunks

end
-- ==== Proof.RefChunk2.lean ====
/-
  A graph-convolution layer of the reference as its operations run: from the rows, the two edge lists and the degree
  vector the piece finds, it leaves the layer's activation.
-/
import proofs.«404547_j11510512353640_2_alg».proof.Proof.RefOps
import proofs.«404547_j11510512353640_2_alg».proof.Proof.LayerCore

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

/-- The piece is its first thirty-eight operations followed by the three of the inlined cut at zero. -/
private theorem after_ops2_split (W : Valuation τ sig (Elt Ideal)) :
    after (ops2 (F := Ideal)) W = after ((ops2 (F := Ideal)).drop 38) (after ((ops2 (F := Ideal)).take 38) W) := by
  rw [← StableHlo.after_append, List.take_append_drop]

/-- The cut at zero, from any contents. -/
private theorem relu_v47 (W : Valuation τ sig (Elt Ideal)) :
    after ((ops2 (F := Ideal)).drop 38) W (Proc.devRef .tc main_v47)
      = maximumf (F := Ideal) (W (Proc.devRef .tc main_v46)) (broadcastInDim S50000x128 ![] bcast_S_S50000x128 (constant (F := Ideal) S_ .f32 0x00000000#32)) := rfl

theorem chunk2_v47 (x1 : IVec S2x600000 32) (H : FVec Ideal S50000x128 .f32) (b : FVec Ideal S128 .f32)
    (hH : (V (Proc.devRef .tc main_v0)) = H) (hs : (V (Proc.devRef .tc main_v4)) = Stage.src x1) (hd : (V (Proc.devRef .tc main_v7)) = Stage.dst x1)
    (hv : (V (Proc.devRef .tc main_v15)) = Stage.dinv (F := Ideal) x1) (hb : (V (Proc.devRef .tc main_arg4)) = b) :
    after (ops2 (F := Ideal)) V (Proc.devRef .tc main_v47) = Stage.layer (F := Ideal) x1 H b := by
  rw [after_ops2_split, relu_v47]
  simp only [ops2, List.take]
  after_results_simp
  rw [hH, hs, hd, hv, hb]
  unfold Stage.layer Stage.norm Stage.col Stage.wrap
  rfl

/-- No operation of the piece writes an argument array. -/
theorem chunk2_args (a : Ref sig .tc) (ha : a ∈ argRefs) : after (ops2 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl
  all_goals exact StableHlo.after_of_forall_not_mem _ _ (List.forall_iff_forall_mem.mp (by
    simp only [ops2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.ReferenceIdeal.RunChunks

end
-- ==== Proof.RefChunk3.lean ====
/-
  Between the layers: the second weight product, and the edge lists, the degree and its inverse square root once
  more, from the same argument.
-/
import proofs.«404547_j11510512353640_2_alg».proof.Proof.RefOps
import proofs.«404547_j11510512353640_2_alg».proof.Proof.LayerCore

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

/-! ## The piece in two halves: up to the edge lists, and the degree from them -/

section Halves
variable {F : FTy → Type} [FloatOps F]
/-- The piece's operations up to the two edge lists, -/
private abbrev ops3a : List (HloOp τ sig (Elt F)) :=
  [
    binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    unary main_arg1 main_v50 ((extractStridedSlice S1x600000 ![0, 0] · slices_S2x600000_S1x600000_0_0) : (⟨S2x600000, .i32⟩ : BufTy).Contents (Elt F) → (⟨S1x600000, .i32⟩ : BufTy).Contents (Elt F)),
    reshape main_v50 main_v51 rfl shapeCasts_S1x600000_S600000,
    binary main_v51 main_v49 main_v52 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v53 ((extractStridedSlice S1x600000 ![1, 0] · slices_S2x600000_S1x600000_1_0) : (⟨S2x600000, .i32⟩ : BufTy).Contents (Elt F) → (⟨S1x600000, .i32⟩ : BufTy).Contents (Elt F)),
    reshape main_v53 main_v54 rfl shapeCasts_S1x600000_S600000,
    binary main_v54 main_v49 main_v55 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
/-- and from there on: the degree and its inverse square root. -/
private abbrev ops3b : List (HloOp τ sig (Elt F)) :=
  [
    nullary main_cst_9 (constant S_ .f32 0x3F800000#32),
    unary main_cst_9 main_v56 (broadcastInDim S650000 ![] bcast_S_S650000 : (⟨S_, .f32⟩ : BufTy).Contents (Elt F) → (⟨S650000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S650000x1 ![0] bcast_S650000_S650000x1_0 : (⟨S650000, .i32⟩ : BufTy).Contents (Elt F) → (⟨S650000x1, .i32⟩ : BufTy).Contents (Elt F)),
    ternary main_v57 main_v58 main_v56 main_v59 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf (F := F) .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select ]
private theorem ops3_halves : (ops3 : List (HloOp τ sig (Elt F))) = ops3a ++ ops3b := rfl
end Halves

private theorem ops3a_dst : after (ops3a (F := Ideal)) V (Proc.devRef .tc main_v55) = Stage.dst (V (Proc.devRef .tc main_arg1)) := by
  after_results
  rfl

private theorem ops3b_dinv : after (ops3b (F := Ideal)) V (Proc.devRef .tc main_v63)
    = select (cmpf .ogt (Host.scatterAdd scatter_S50000_S650000x1_S650000_n_0_0_1
          (broadcastInDim S50000 ![] bcast_S_S50000 (constant (F := Ideal) S_ .f32 0x00000000#32))
          (Stage.col (V (Proc.devRef .tc main_v55)))
          (broadcastInDim S650000 ![] bcast_S_S650000 (constant (F := Ideal) S_ .f32 0x3F800000#32)))
        (broadcastInDim S50000 ![] bcast_S_S50000 (constant (F := Ideal) S_ .f32 0x00000000#32)))
      (Host.rsqrt (Host.scatterAdd scatter_S50000_S650000x1_S650000_n_0_0_1
          (broadcastInDim S50000 ![] bcast_S_S50000 (constant (F := Ideal) S_ .f32 0x00000000#32))
          (Stage.col (V (Proc.devRef .tc main_v55)))
          (broadcastInDim S650000 ![] bcast_S_S650000 (constant (F := Ideal) S_ .f32 0x3F800000#32))))
      (broadcastInDim S50000 ![] bcast_S_S50000 (id (constant (F := Ideal) S_ .f32 0x00000000#32))) := by
  after_results
  simp only [TRef.ofBuf, TRef.toBuf, cast_eq]
  rfl

/-! ## What the piece leaves -/

theorem chunk3_v48 : after (ops3 (F := Ideal)) V (Proc.devRef .tc main_v48) = Host.dotGeneral (F := Ideal) (φ₁ := .f32) (φ₂ := .f32) dot_S50000x128_S128x128_S50000x128_1_0_0_1_n_n none (V (Proc.devRef .tc main_v47)) (V (Proc.devRef .tc main_arg5)) := by
  after_results
theorem chunk3_v52 : after (ops3 (F := Ideal)) V (Proc.devRef .tc main_v52) = Stage.src (V (Proc.devRef .tc main_arg1)) := by
  after_results
  rfl
theorem chunk3_v55 : after (ops3 (F := Ideal)) V (Proc.devRef .tc main_v55) = Stage.dst (V (Proc.devRef .tc main_arg1)) := by
  after_results
  rfl
theorem chunk3_v63 : after (ops3 (F := Ideal)) V (Proc.devRef .tc main_v63) = Stage.dinv (F := Ideal) (V (Proc.devRef .tc main_arg1)) := by
  rw [ops3_halves, StableHlo.after_append, ops3b_dinv, ops3a_dst]
  rfl

/-- No operation of the piece writes an argument array. -/
theorem chunk3_args (a : Ref sig .tc) (ha : a ∈ argRefs) : after (ops3 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl <;>
  exact StableHlo.after_of_forall_not_mem _ _ (List.forall_iff_forall_mem.mp (by
    simp only [ops3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.ReferenceIdeal.RunChunks

end
-- ==== Proof.RefChunk4.lean ====
/-
  A graph-convolution layer of the reference as its operations run: from the rows, the two edge lists and the degree
  vector the piece finds, it leaves the layer's activation.
-/
import proofs.«404547_j11510512353640_2_alg».proof.Proof.RefOps
import proofs.«404547_j11510512353640_2_alg».proof.Proof.LayerCore

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

/-- The piece is its first thirty-eight operations followed by the three of the inlined cut at zero. -/
private theorem after_ops4_split (W : Valuation τ sig (Elt Ideal)) :
    after (ops4 (F := Ideal)) W = after ((ops4 (F := Ideal)).drop 38) (after ((ops4 (F := Ideal)).take 38) W) := by
  rw [← StableHlo.after_append, List.take_append_drop]

/-- The cut at zero, from any contents. -/
private theorem relu_v95 (W : Valuation τ sig (Elt Ideal)) :
    after ((ops4 (F := Ideal)).drop 38) W (Proc.devRef .tc main_v95)
      = maximumf (F := Ideal) (W (Proc.devRef .tc main_v94)) (broadcastInDim S50000x128 ![] bcast_S_S50000x128 (constant (F := Ideal) S_ .f32 0x00000000#32)) := rfl

theorem chunk4_v95 (x1 : IVec S2x600000 32) (H : FVec Ideal S50000x128 .f32) (b : FVec Ideal S128 .f32)
    (hH : (V (Proc.devRef .tc main_v48)) = H) (hs : (V (Proc.devRef .tc main_v52)) = Stage.src x1) (hd : (V (Proc.devRef .tc main_v55)) = Stage.dst x1)
    (hv : (V (Proc.devRef .tc main_v63)) = Stage.dinv (F := Ideal) x1) (hb : (V (Proc.devRef .tc main_arg6)) = b) :
    after (ops4 (F := Ideal)) V (Proc.devRef .tc main_v95) = Stage.layer (F := Ideal) x1 H b := by
  rw [after_ops4_split, relu_v95]
  simp only [ops4, List.take]
  after_results_simp
  rw [hH, hs, hd, hv, hb]
  unfold Stage.layer Stage.norm Stage.col Stage.wrap
  rfl

/-- No operation of the piece writes an argument array. -/
theorem chunk4_args (a : Ref sig .tc) (ha : a ∈ argRefs) : after (ops4 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl
  all_goals exact StableHlo.after_of_forall_not_mem _ _ (List.forall_iff_forall_mem.mp (by
    simp only [ops4, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

end Cert.ReferenceIdeal.RunChunks

end
-- ==== Proof.RefChunk5.lean ====
/-
  The pooling: per-graph sums of the activation, the graph sizes, the quotient.
-/
import proofs.«404547_j11510512353640_2_alg».proof.Proof.RefOps
import proofs.«404547_j11510512353640_2_alg».proof.Proof.PoolCore

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

theorem chunk5_v107 : after (ops5 (F := Ideal)) V (Proc.devRef .tc main_v107)
    = StagePool.mean (F := Ideal) (V (Proc.devRef .tc main_arg2)) (StagePool.sums (F := Ideal) (V (Proc.devRef .tc main_arg2)) (V (Proc.devRef .tc main_v95))) := by
  after_results
  unfold StagePool.mean StagePool.sizes StagePool.cnt StagePool.sums StagePool.segCol
  rfl

/-- No operation of the piece writes an argument array. -/
theorem chunk5_args (a : Ref sig .tc) (ha : a ∈ argRefs) : after (ops5 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl <;>
  exact after_of_forall_not_mem _ _ (List.forall_iff_forall_mem.mp (by
    simp only [ops5, List.Forall, nullary_writes, unary_writes, binary_writes, ternary_writes, reshape_writes,
      Finset.mem_singleton]
    repeat' apply And.intro
    all_goals exact devRef_ne_of_ne (by decide)))

end Cert.ReferenceIdeal.RunChunks

end
-- ==== Proof.RefChunk6.lean ====
/-
  The recurrent step: the gates of the pooled rows and the state they give.
-/
import proofs.«404547_j11510512353640_2_alg».proof.Proof.RefOps
import proofs.«404547_j11510512353640_2_alg».proof.Proof.HeadH

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

theorem chunk6_v141 : after (ops6 (F := Ideal)) V (Proc.devRef .tc main_v141)
    = StageH.hT (F := Ideal) (V (Proc.devRef .tc main_v107)) (V (Proc.devRef .tc main_arg7)) (V (Proc.devRef .tc main_arg9)) (V (Proc.devRef .tc main_arg10)) := by
  unfold ops6
  after_results_simp
  unfold StageH.hT StageH.sigm StageH.gates
  rfl

/-- No operation of the piece writes an argument array. -/
theorem chunk6_args (a : Ref sig .tc) (ha : a ∈ argRefs) : after (ops6 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl <;>
    exact StableHlo.after_of_forall_not_mem _ _ (List.forall_iff_forall_mem.mp (by
      simp only [ops6, List.Forall, StableHlo.nullary_writes, StableHlo.unary_writes, StableHlo.binary_writes, StableHlo.ternary_writes, StableHlo.reshape_writes, Finset.mem_singleton]
      repeat' apply And.intro
      all_goals exact StableHlo.devRef_ne_of_ne (by decide)))

end Cert.ReferenceIdeal.RunChunks

end
-- ==== Proof.RefChunk7.lean ====
/-
  The two heads of the state: the linear one, and the linear one followed by the softplus.
-/
import proofs.«404547_j11510512353640_2_alg».proof.Proof.RefOps
import proofs.«404547_j11510512353640_2_alg».proof.Proof.HeadMean
import proofs.«404547_j11510512353640_2_alg».proof.Proof.HeadLogvar

noncomputable section

open scoped BigOperators

namespace Cert.ReferenceIdeal.RunChunks

open Cert.ReferenceIdeal Cert.ReferenceIdeal.Gen Cert.ReferenceIdeal.RunFold Idealize.ShloMosaic Idealize.ShloMosaic.TcCoe Idealize.SL.Sem Idealize.ShloMosaic.StableHlo

variable (V : Valuation τ sig (Elt Ideal))

theorem chunk7_v146 : after (ops7 (F := Ideal)) V (Proc.devRef .tc main_v146) = StageM.head (F := Ideal) (V (Proc.devRef .tc main_v141)) (V (Proc.devRef .tc main_arg11)) (V (Proc.devRef .tc main_arg12)) := by
  show after (ops7 (F := Ideal)) V (Proc.devRef .tc main_v146) = _
  after_results
  unfold StageM.head
  rfl
theorem chunk7_v152 : after (ops7 (F := Ideal)) V (Proc.devRef .tc main_v152)
    = StageL.softplus (F := Ideal) (StageL.head (F := Ideal) (V (Proc.devRef .tc main_v141)) (V (Proc.devRef .tc main_arg13)) (V (Proc.devRef .tc main_arg14))) := by
  show after (ops7 (F := Ideal)) V (Proc.devRef .tc main_v152) = _
  after_results_simp
  unfold StageL.softplus StageL.head
  rfl

/-- No operation of the piece writes an argument array. -/
theorem chunk7_args (a : Ref sig .tc) (ha : a ∈ argRefs) : after (ops7 (F := Ideal)) V (Proc.devRef .tc a) = V (Proc.devRef .tc a) := by
  simp only [argRefs, List.mem_cons, List.mem_nil_iff, or_false] at ha
  rcases ha with rfl | rfl | rfl | rfl | rfl | rfl | rfl | rfl | rfl | rfl | rfl | rfl | rfl | rfl | rfl <;>
  exact StableHlo.after_of_forall_not_mem _ _ (List.forall_iff_forall_mem.mp (by
    simp only [ops7, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.ReferenceIdeal.RunChunks

end
-- ==== Proof.RefRunStages.lean ====
/-
  The reference's run read over its stages: folding the operations piece by piece, each piece leaving a named stage
  of what the piece before left, every execution ends with the two results at the stages' composition of the launch
  contents of the arguments, and the arguments as launched.
-/
import proofs.«404547_j11510512353640_2_alg».proof.Proof.RefOps
import proofs.«404547_j11510512353640_2_alg».proof.Proof.RefStages
import proofs.«404547_j11510512353640_2_alg».proof.Proof.RefChunk1
import proofs.«404547_j11510512353640_2_alg».proof.Proof.RefChunk2
import proofs.«404547_j11510512353640_2_alg».proof.Proof.RefChunk3
import proofs.«404547_j11510512353640_2_alg».proof.Proof.RefChunk4
import proofs.«404547_j11510512353640_2_alg».proof.Proof.RefChunk5
import proofs.«404547_j11510512353640_2_alg».proof.Proof.RefChunk6
import proofs.«404547_j11510512353640_2_alg».proof.Proof.RefChunk7

noncomputable section

open scoped BigOperators

namespace Cert.ReferenceIdeal.RunStages

open Cert.ReferenceIdeal Cert.ReferenceIdeal.Gen Cert.ReferenceIdeal.RunFold Cert.ReferenceIdeal.RunChunks
open Idealize.ShloMosaic Idealize.ShloMosaic.TcCoe Idealize.SL.Sem Idealize.ShloMosaic.StableHlo

variable (m : (ℓ : Loc nD τ sig) → Buf (Elt Ideal) ℓ)

/-- The contents the operations start from, and what each piece leaves. -/
abbrev V0 (c : Dev nD) : Valuation τ sig (Elt Ideal) := launchContents m c
abbrev V1 (c : Dev nD) : Valuation τ sig (Elt Ideal) := after (ops1 (F := Ideal)) (V0 m c)
abbrev V2 (c : Dev nD) : Valuation τ sig (Elt Ideal) := after (ops2 (F := Ideal)) (V1 m c)
abbrev V3 (c : Dev nD) : Valuation τ sig (Elt Ideal) := after (ops3 (F := Ideal)) (V2 m c)
abbrev V4 (c : Dev nD) : Valuation τ sig (Elt Ideal) := after (ops4 (F := Ideal)) (V3 m c)
abbrev V5 (c : Dev nD) : Valuation τ sig (Elt Ideal) := after (ops5 (F := Ideal)) (V4 m c)
abbrev V6 (c : Dev nD) : Valuation τ sig (Elt Ideal) := after (ops6 (F := Ideal)) (V5 m c)
abbrev V7 (c : Dev nD) : Valuation τ sig (Elt Ideal) := after (ops7 (F := Ideal)) (V6 m c)

theorem after_ops_eq (c : Dev nD) : after (ops (F := Ideal)) (V0 m c) = V7 m c := after_ops _

/-! ## The arguments stay as launched through every piece -/

theorem arg1 (c : Dev nD) (a : Ref sig .tc) (ha : a ∈ argRefs) : V1 m c (Proc.devRef .tc a) = V0 m c (Proc.devRef .tc a) :=
  chunk1_args _ a ha
theorem arg2 (c : Dev nD) (a : Ref sig .tc) (ha : a ∈ argRefs) : V2 m c (Proc.devRef .tc a) = V0 m c (Proc.devRef .tc a) :=
  (chunk2_args _ a ha).trans (arg1 m c a ha)
theorem arg3 (c : Dev nD) (a : Ref sig .tc) (ha : a ∈ argRefs) : V3 m c (Proc.devRef .tc a) = V0 m c (Proc.devRef .tc a) :=
  (chunk3_args _ a ha).trans (arg2 m c a ha)
theorem arg4 (c : Dev nD) (a : Ref sig .tc) (ha : a ∈ argRefs) : V4 m c (Proc.devRef .tc a) = V0 m c (Proc.devRef .tc a) :=
  (chunk4_args _ a ha).trans (arg3 m c a ha)
theorem arg5 (c : Dev nD) (a : Ref sig .tc) (ha : a ∈ argRefs) : V5 m c (Proc.devRef .tc a) = V0 m c (Proc.devRef .tc a) :=
  (chunk5_args _ a ha).trans (arg4 m c a ha)
theorem arg6 (c : Dev nD) (a : Ref sig .tc) (ha : a ∈ argRefs) : V6 m c (Proc.devRef .tc a) = V0 m c (Proc.devRef .tc a) :=
  (chunk6_args _ a ha).trans (arg5 m c a ha)
theorem arg7 (c : Dev nD) (a : Ref sig .tc) (ha : a ∈ argRefs) : V7 m c (Proc.devRef .tc a) = V0 m c (Proc.devRef .tc a) :=
  (chunk7_args _ a ha).trans (arg6 m c a ha)

/-! ## The stages, piece by piece -/

/-- After the second piece: the first layer's activation. -/
theorem stage_v47 (c : Dev nD) :
    V2 m c (Proc.devRef .tc main_v47) = Cert.Bridge.F1 (V0 m c (Proc.devRef .tc main_arg0)) (V0 m c (Proc.devRef .tc main_arg1)) (V0 m c (Proc.devRef .tc main_arg3)) (V0 m c (Proc.devRef .tc main_arg4)) :=
  chunk2_v47 (V1 m c) (V0 m c (Proc.devRef .tc main_arg1)) _ (V0 m c (Proc.devRef .tc main_arg4))
    ((chunk1_v0 (V0 m c))) (chunk1_v4 (V0 m c)) (chunk1_v7 (V0 m c)) (chunk1_v15 (V0 m c)) (arg1 m c main_arg4 (by simp only [argRefs, List.mem_cons, true_or, or_true] : main_arg4 ∈ argRefs))

/-- After the fourth piece: the second layer's activation. -/
theorem stage_v95 (c : Dev nD) :
    V4 m c (Proc.devRef .tc main_v95) = Cert.Bridge.F2 (V0 m c (Proc.devRef .tc main_arg0)) (V0 m c (Proc.devRef .tc main_arg1)) (V0 m c (Proc.devRef .tc main_arg3)) (V0 m c (Proc.devRef .tc main_arg4)) (V0 m c (Proc.devRef .tc main_arg5)) (V0 m c (Proc.devRef .tc main_arg6)) := by
  have h1 : V2 m c (Proc.devRef .tc main_arg1) = (V0 m c (Proc.devRef .tc main_arg1)) := arg2 m c main_arg1 (by simp only [argRefs, List.mem_cons, true_or, or_true] : main_arg1 ∈ argRefs)
  have h5 : V2 m c (Proc.devRef .tc main_arg5) = (V0 m c (Proc.devRef .tc main_arg5)) := arg2 m c main_arg5 (by simp only [argRefs, List.mem_cons, true_or, or_true] : main_arg5 ∈ argRefs)
  have hH : V3 m c (Proc.devRef .tc main_v48)
      = Host.dotGeneral (F := Ideal) (φ₁ := .f32) (φ₂ := .f32) dot_S50000x128_S128x128_S50000x128_1_0_0_1_n_n none
          (Cert.Bridge.F1 (V0 m c (Proc.devRef .tc main_arg0)) (V0 m c (Proc.devRef .tc main_arg1)) (V0 m c (Proc.devRef .tc main_arg3)) (V0 m c (Proc.devRef .tc main_arg4))) (V0 m c (Proc.devRef .tc main_arg5)) := by
    rw [show V3 m c (Proc.devRef .tc main_v48) = _ from chunk3_v48 (V2 m c), stage_v47, h5]
  have hs : V3 m c (Proc.devRef .tc main_v52) = Stage.src (V0 m c (Proc.devRef .tc main_arg1)) := by
    rw [show V3 m c (Proc.devRef .tc main_v52) = _ from chunk3_v52 (V2 m c), h1]
  have hd : V3 m c (Proc.devRef .tc main_v55) = Stage.dst (V0 m c (Proc.devRef .tc main_arg1)) := by
    rw [show V3 m c (Proc.devRef .tc main_v55) = _ from chunk3_v55 (V2 m c), h1]
  have hv : V3 m c (Proc.devRef .tc main_v63) = Stage.dinv (F := Ideal) (V0 m c (Proc.devRef .tc main_arg1)) := by
    rw [show V3 m c (Proc.devRef .tc main_v63) = _ from chunk3_v63 (V2 m c), h1]
  exact chunk4_v95 (V3 m c) (V0 m c (Proc.devRef .tc main_arg1)) _ (V0 m c (Proc.devRef .tc main_arg6)) hH hs hd hv (arg3 m c main_arg6 (by simp only [argRefs, List.mem_cons, true_or, or_true] : main_arg6 ∈ argRefs))

/-- After the fifth piece: the pooled mean. -/
theorem stage_v107 (c : Dev nD) :
    V5 m c (Proc.devRef .tc main_v107) = Cert.Bridge.Pm (V0 m c (Proc.devRef .tc main_arg0)) (V0 m c (Proc.devRef .tc main_arg1)) (V0 m c (Proc.devRef .tc main_arg2)) (V0 m c (Proc.devRef .tc main_arg3)) (V0 m c (Proc.devRef .tc main_arg4)) (V0 m c (Proc.devRef .tc main_arg5)) (V0 m c (Proc.devRef .tc main_arg6)) := by
  rw [show V5 m c (Proc.devRef .tc main_v107) = _ from chunk5_v107 (V4 m c), stage_v95,
    show V4 m c (Proc.devRef .tc main_arg2) = (V0 m c (Proc.devRef .tc main_arg2)) from arg4 m c main_arg2 (by simp only [argRefs, List.mem_cons, true_or, or_true] : main_arg2 ∈ argRefs)]
  rfl

/-- After the sixth piece: the recurrent state. -/
theorem stage_v141 (c : Dev nD) :
    V6 m c (Proc.devRef .tc main_v141)
      = StageH.hT (F := Ideal) (Cert.Bridge.Pm (V0 m c (Proc.devRef .tc main_arg0)) (V0 m c (Proc.devRef .tc main_arg1)) (V0 m c (Proc.devRef .tc main_arg2)) (V0 m c (Proc.devRef .tc main_arg3)) (V0 m c (Proc.devRef .tc main_arg4)) (V0 m c (Proc.devRef .tc main_arg5)) (V0 m c (Proc.devRef .tc main_arg6))) (V0 m c (Proc.devRef .tc main_arg7)) (V0 m c (Proc.devRef .tc main_arg9)) (V0 m c (Proc.devRef .tc main_arg10)) := by
  rw [show V6 m c (Proc.devRef .tc main_v141) = _ from chunk6_v141 (V5 m c), stage_v107,
    show V5 m c (Proc.devRef .tc main_arg7) = (V0 m c (Proc.devRef .tc main_arg7)) from arg5 m c main_arg7 (by simp only [argRefs, List.mem_cons, true_or, or_true] : main_arg7 ∈ argRefs),
    show V5 m c (Proc.devRef .tc main_arg9) = (V0 m c (Proc.devRef .tc main_arg9)) from arg5 m c main_arg9 (by simp only [argRefs, List.mem_cons, true_or, or_true] : main_arg9 ∈ argRefs),
    show V5 m c (Proc.devRef .tc main_arg10) = (V0 m c (Proc.devRef .tc main_arg10)) from arg5 m c main_arg10 (by simp only [argRefs, List.mem_cons, true_or, or_true] : main_arg10 ∈ argRefs)]

/-- The first result after all the operations. -/
theorem fold_v146 (c : Dev nD) :
    after (ops (F := Ideal)) (V0 m c) (Proc.devRef .tc main_v146)
      = Cert.Bridge.Rmean (V0 m c (Proc.devRef .tc main_arg0)) (V0 m c (Proc.devRef .tc main_arg1)) (V0 m c (Proc.devRef .tc main_arg2)) (V0 m c (Proc.devRef .tc main_arg3)) (V0 m c (Proc.devRef .tc main_arg4)) (V0 m c (Proc.devRef .tc main_arg5)) (V0 m c (Proc.devRef .tc main_arg6)) (V0 m c (Proc.devRef .tc main_arg7)) (V0 m c (Proc.devRef .tc main_arg9)) (V0 m c (Proc.devRef .tc main_arg10)) (V0 m c (Proc.devRef .tc main_arg11)) (V0 m c (Proc.devRef .tc main_arg12)) := by
  rw [after_ops_eq, show V7 m c (Proc.devRef .tc main_v146) = _ from chunk7_v146 (V6 m c), stage_v141,
    show V6 m c (Proc.devRef .tc main_arg11) = (V0 m c (Proc.devRef .tc main_arg11)) from arg6 m c main_arg11 (by simp only [argRefs, List.mem_cons, true_or, or_true] : main_arg11 ∈ argRefs),
    show V6 m c (Proc.devRef .tc main_arg12) = (V0 m c (Proc.devRef .tc main_arg12)) from arg6 m c main_arg12 (by simp only [argRefs, List.mem_cons, true_or, or_true] : main_arg12 ∈ argRefs)]
  rfl

/-- The second result after all the operations. -/
theorem fold_v152 (c : Dev nD) :
    after (ops (F := Ideal)) (V0 m c) (Proc.devRef .tc main_v152)
      = Cert.Bridge.Rlogvar (V0 m c (Proc.devRef .tc main_arg0)) (V0 m c (Proc.devRef .tc main_arg1)) (V0 m c (Proc.devRef .tc main_arg2)) (V0 m c (Proc.devRef .tc main_arg3)) (V0 m c (Proc.devRef .tc main_arg4)) (V0 m c (Proc.devRef .tc main_arg5)) (V0 m c (Proc.devRef .tc main_arg6)) (V0 m c (Proc.devRef .tc main_arg7)) (V0 m c (Proc.devRef .tc main_arg9)) (V0 m c (Proc.devRef .tc main_arg10)) (V0 m c (Proc.devRef .tc main_arg13)) (V0 m c (Proc.devRef .tc main_arg14)) := by
  rw [after_ops_eq, show V7 m c (Proc.devRef .tc main_v152) = _ from chunk7_v152 (V6 m c), stage_v141,
    show V6 m c (Proc.devRef .tc main_arg13) = (V0 m c (Proc.devRef .tc main_arg13)) from arg6 m c main_arg13 (by simp only [argRefs, List.mem_cons, true_or, or_true] : main_arg13 ∈ argRefs),
    show V6 m c (Proc.devRef .tc main_arg14) = (V0 m c (Proc.devRef .tc main_arg14)) from arg6 m c main_arg14 (by simp only [argRefs, List.mem_cons, true_or, or_true] : main_arg14 ∈ argRefs)]
  rfl

/-- An argument after all the operations. -/
theorem fold_arg (c : Dev nD) (a : Ref sig .tc) (ha : a ∈ argRefs) :
    after (ops (F := Ideal)) (V0 m c) (Proc.devRef .tc a) = m ((c.tc : Thread nD τ).loc a) := by
  rw [after_ops_eq, arg7 m c a ha]

/-- THE RUN over the stages: every weakly fair execution of the reference terminates with the two results at the
    stages' composition of the arguments' launch contents, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v146)
          = Cert.Bridge.Rmean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v152)
          = Cert.Bridge.Rlogvar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c =>
    ⟨(h c main_v146).trans (fold_v146 m c), (h c main_v152).trans (fold_v152 m c),
      (h c main_arg0).trans (fold_arg m c main_arg0 (by simp only [argRefs, List.mem_cons, true_or, or_true] : main_arg0 ∈ argRefs)),
      (h c main_arg1).trans (fold_arg m c main_arg1 (by simp only [argRefs, List.mem_cons, true_or, or_true] : main_arg1 ∈ argRefs)),
      (h c main_arg2).trans (fold_arg m c main_arg2 (by simp only [argRefs, List.mem_cons, true_or, or_true] : main_arg2 ∈ argRefs)),
      (h c main_arg3).trans (fold_arg m c main_arg3 (by simp only [argRefs, List.mem_cons, true_or, or_true] : main_arg3 ∈ argRefs)),
      (h c main_arg4).trans (fold_arg m c main_arg4 (by simp only [argRefs, List.mem_cons, true_or, or_true] : main_arg4 ∈ argRefs)),
      (h c main_arg5).trans (fold_arg m c main_arg5 (by simp only [argRefs, List.mem_cons, true_or, or_true] : main_arg5 ∈ argRefs)),
      (h c main_arg6).trans (fold_arg m c main_arg6 (by simp only [argRefs, List.mem_cons, true_or, or_true] : main_arg6 ∈ argRefs)),
      (h c main_arg7).trans (fold_arg m c main_arg7 (by simp only [argRefs, List.mem_cons, true_or, or_true] : main_arg7 ∈ argRefs)),
      (h c main_arg8).trans (fold_arg m c main_arg8 (by simp only [argRefs, List.mem_cons, true_or, or_true] : main_arg8 ∈ argRefs)),
      (h c main_arg9).trans (fold_arg m c main_arg9 (by simp only [argRefs, List.mem_cons, true_or, or_true] : main_arg9 ∈ argRefs)),
      (h c main_arg10).trans (fold_arg m c main_arg10 (by simp only [argRefs, List.mem_cons, true_or, or_true] : main_arg10 ∈ argRefs)),
      (h c main_arg11).trans (fold_arg m c main_arg11 (by simp only [argRefs, List.mem_cons, true_or, or_true] : main_arg11 ∈ argRefs)),
      (h c main_arg12).trans (fold_arg m c main_arg12 (by simp only [argRefs, List.mem_cons, true_or, or_true] : main_arg12 ∈ argRefs)),
      (h c main_arg13).trans (fold_arg m c main_arg13 (by simp only [argRefs, List.mem_cons, true_or, or_true] : main_arg13 ∈ argRefs)),
      (h c main_arg14).trans (fold_arg m c main_arg14 (by simp only [argRefs, List.mem_cons, true_or, or_true] : main_arg14 ∈ argRefs))⟩)
    (run_fold m ρ)

end Cert.ReferenceIdeal.RunStages

end
-- ==== Proof.Region0.lean ====
/-
  The first launch: ten row blocks of 5000 nodes, each block's rows times the weight matrix and scaled by the
  rows' inverse square-root degrees. Block `t` of the output is rows `5000·t … 5000·t + 4999` of one whole-array
  function, and the ten blocks cover the array.
-/
import proofs.«404547_j11510512353640_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«404547_j11510512353640_2_alg».proof.Proof.Spec

noncomputable section

open scoped BigOperators

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body at an entry of a block -/

/-- The zero offsets of a whole-block access, as the constant function. -/
theorem zero_offsets : (![0, 0] : Fin 2 → Nat) = fun _ => 0 := funext fun a => by fin_cases a <;> rfl

/-- The product's left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's rows times the weights into a zero accumulator, at an entry: the row's inner product with the column. -/
theorem rows_times_weights_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The column of scales spread over the 128 features reads, in row `p`, the column's row `p`. -/
theorem spread_column_apply (d : FVec Ideal S5000x1 .f32) (p : Fin 5000) (q : Fin 128) :
    broadcastTo S5000x128 d broadcasts_S5000x1_S5000x128 (ix2 p q) = d (ix2 p (0 : Fin 1)) := by
  refine broadcastTo_apply d broadcasts_S5000x1_S5000x128 (ix2 p q) (ix2 p (0 : Fin 1)) fun ax => ?_
  match ax with
  | ⟨0, _⟩ => rfl
  | ⟨1, _⟩ => rfl

/-- The body's result at entry `(p, q)` of its block: `(∑ₖ x[p,k] · W[k,q]) · d[p]` (the format changes are the
    identity on extended reals). -/
theorem body_apply (x0 : Vec Ideal S5000x128 .f32) (x1 : Vec Ideal S128x128 .f32) (x2 : Vec Ideal S5000x1 .f32) (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [truncf_apply, mulf_apply, spread_column_apply, shapeCast_self, rows_times_weights_apply]
  rfl

/-! ## From the blocks to the array -/

/-- The launch's index maps over the ten points: the row blocks of the nodes' rows, of the scales and of the output
    move together, block `t` at point `t`; the weights stay whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the scaled product of the arrays the launch found: entry `(p, q)` of
    the block is entry `(5000·t + p, q)` of the array, its row of `x` and its scale are row `p` of their blocks. -/
theorem written_back_eq (c : Dev nD) (t : Fin cfg0.N) :
    (dat0 (F := Ideal) V c).flushed 3 t
      = ((cfg0.win 3).blk t).view.read (Elt Ideal) (Cert.Spec.scaled (V c main_arg0) (V c main_arg3) (V c main_v15)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets, View.ld_unit_zero (S := S5000x1) zero_offsets]
  obtain ⟨e00, e01, e10, e11, e20, e21, e30, e31⟩ := block_indices t
  funext j
  obtain ⟨p, q, rfl⟩ : ∃ (p : Fin 5000) (q : Fin 128), j = ix2 p q := ⟨j 0, j 1, eq_ix2 j⟩
  refine (body_apply (iblk0 V c 0 t) (iblk0 V c 1 t) (iblk0 V c 2 t) p q).trans ?_
  show _ = Cert.Spec.scaled (V c main_arg0) (V c main_arg3) (V c main_v15) (((cfg0.win 3).blk t).view.emb (ix2 p q))
  have h0 : ∀ k : Fin 128, iblk0 V c 0 t (ix2 p k)
      = V c main_arg0 (ix2 (Cert.Spec.c0 (((cfg0.win 3).blk t).view.emb (ix2 p q))) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ k : Fin 128, iblk0 V c 1 t (ix2 k q)
      = V c main_arg3 (ix2 k (Cert.Spec.c1 (((cfg0.win 3).blk t).view.emb (ix2 p q)))) := fun k => by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : iblk0 V c 2 t (ix2 p (0 : Fin 1))
      = V c main_v15 (ix2 (Cert.Spec.c0 (((cfg0.win 3).blk t).view.emb (ix2 p q))) (0 : Fin 1)) := by
    show V c main_v15 (((cfg0.win 2).blk t).view.emb (ix2 p (0 : Fin 1))) = _
    refine congrArg (V c main_v15) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  unfold Cert.Spec.scaled
  rw [h2, Finset.sum_congr rfl fun k _ => by rw [h0 k, h1 k]]

/-- An entry of the array is in point `t`'s block iff each coordinate is in the block's range on its axis. -/
theorem mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The ten blocks cover the array: row `r` is in block `r / 5000`. -/
theorem blocks_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := block_indices ⟨(i 0).val / 5000, hlt⟩
  have e30' : win0_3.index ⟨(i 0).val / 5000, hlt⟩ (0 : Fin 2) = (i 0).val / 5000 := e30
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    omega

/-- After the launch the output array is `(x · W)` with row `r` scaled by `d2[r]`, of the arrays the launch found. -/
theorem final0 (c : Dev nD) :
    (dat0 (F := Ideal) V c).arrAt 3 cfg0.N = Cert.Spec.scaled (V c main_arg0) (V c main_arg3) (V c main_v15) := by
  exact (dat0 (F := Ideal) V c).arrAt_eq_of_cover 3 (Cert.Spec.scaled (V c main_arg0) (V c main_arg3) (V c main_v15))
    (fun t _ => written_back_eq V c t) blocks_cover

end Cert.KernelIdeal.Region0

end
-- ==== Proof.Region1.lean ====
/-
  The second launch: per block of 5000 nodes, the first layer's activation `max (conv · d + b) 0` times the second
  weight matrix, scaled again by the rows' inverse square-root degrees.
-/
import proofs.«404547_j11510512353640_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«404547_j11510512353640_2_alg».proof.Proof.Spec

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body at an entry of a block -/

/-- The zero offsets of a whole-block access, as the constant function. -/
theorem zero_offsets : (![0, 0] : Fin 2 → Nat) = fun _ => 0 := funext fun a => by fin_cases a <;> rfl

/-- The product's left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index, -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's rows times the weights into a zero accumulator, at an entry: the row's inner product with the column. -/
theorem rows_times_weights_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The column of scales spread over the 128 features reads, in row `p`, the column's row `p`. -/
theorem spread_column_apply (d : FVec Ideal S5000x1 .f32) (p : Fin 5000) (q : Fin 128) :
    broadcastTo S5000x128 d broadcasts_S5000x1_S5000x128 (ix2 p q) = d (ix2 p (0 : Fin 1)) := by
  refine broadcastTo_apply d broadcasts_S5000x1_S5000x128 (ix2 p q) (ix2 p (0 : Fin 1)) fun ax => ?_
  match ax with
  | ⟨0, _⟩ => rfl
  | ⟨1, _⟩ => rfl

/-- The body's result at entry `(p, q)` of its block: `(∑ₖ max (conv[p,k] · d[p] + b[k]) 0 · W[k,q]) · d[p]` (the format
    changes are the identity on extended reals, and the zero word is the extended real zero). -/
theorem body_apply (x0 : Vec Ideal S5000x128 .f32) (x1 : Vec Ideal S5000x1 .f32) (x2 : Vec Ideal S1x128 .f32)
    (x3 : Vec Ideal S128x128 .f32) (x4 : Vec Ideal S5000x1 .f32) (p : Fin 5000) (q : Fin 128) :
    k1_pay1 (F := Ideal) x0 x1 x2 x3 x4 (ix2 p q)
      = (∑ k : Fin 128, max (x0 (ix2 p k) * x1 (ix2 p (0 : Fin 1)) + x2 (ix2 (0 : Fin 1) k)) 0 * x3 (ix2 k q))
          * x4 (ix2 p (0 : Fin 1)) := by
  unfold k1_pay1
  simp only [shapeCast_self]
  rw [truncf_apply, mulf_apply, spread_column_apply, rows_times_weights_apply]
  refine congrArg (· * x4 (ix2 p (0 : Fin 1))) (Finset.sum_congr rfl fun k _ => ?_)
  rw [truncf_apply, truncf_apply, maximumf_apply, addf_apply, mulf_apply, spread_column_apply, broadcastTo_1b_ab_apply,
    broadcast_apply]
  show max _ (Ideal.ofBits .f32 0x00000000#32) * _ = _
  rw [Ideal.ofBits_zero_f32]

/-! ## From the blocks to the array -/

/-- The launch's index maps over the ten points: the row blocks of the aggregated rows, of the scales and of the
    output move together, block `t` at point `t`; the bias row and the weights stay whole. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the second layer's scaled rows of the arrays the launch found: entry
    `(p, q)` of the block is entry `(5000·t + p, q)` of the array, its aggregated row and its scale are row `p` of
    their blocks. -/
theorem written_back_eq (c : Dev nD) (t : Fin cfg1.N) :
    (dat1 (F := Ideal) V c).flushed 4 t
      = ((cfg1.win 4).blk t).view.read (Elt Ideal)
          (Cert.Spec.layer2 (V c main_v29) (V c main_v15) (V c main_v16) (V c main_arg5)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  obtain ⟨e00, e01, e10, e11, e20, e21, e30, e31, e40, e41⟩ := block_indices t
  funext j
  obtain ⟨p, q, rfl⟩ : ∃ (p : Fin 5000) (q : Fin 128), j = ix2 p q := ⟨j 0, j 1, eq_ix2 j⟩
  refine (body_apply (iblk1 V c 0 t) (iblk1 V c 1 t) (iblk1 V c 2 t) (iblk1 V c 3 t) (iblk1 V c 1 t) p q).trans ?_
  show _ = Cert.Spec.layer2 (V c main_v29) (V c main_v15) (V c main_v16) (V c main_arg5)
    (((cfg1.win 4).blk t).view.emb (ix2 p q))
  have h0 : ∀ k : Fin 128, iblk1 V c 0 t (ix2 p k)
      = V c main_v29 (ix2 (Cert.Spec.c0 (((cfg1.win 4).blk t).view.emb (ix2 p q))) k) := fun k => by
    show V c main_v29 (((cfg1.win 0).blk t).view.emb (ix2 p k)) = _
    refine congrArg (V c main_v29) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * k.val = k.val; omega
  have h1 : iblk1 V c 1 t (ix2 p (0 : Fin 1))
      = V c main_v15 (ix2 (Cert.Spec.c0 (((cfg1.win 4).blk t).view.emb (ix2 p q))) (0 : Fin 1)) := by
    show V c main_v15 (((cfg1.win 1).blk t).view.emb (ix2 p (0 : Fin 1))) = _
    refine congrArg (V c main_v15) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : ∀ k : Fin 128, iblk1 V c 2 t (ix2 (0 : Fin 1) k) = V c main_v16 (ix2 (0 : Fin 1) k) := fun k => by
    show V c main_v16 (((cfg1.win 2).blk t).view.emb (ix2 (0 : Fin 1) k)) = _
    refine congrArg (V c main_v16) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, iblk1 V c 3 t (ix2 k q)
      = V c main_arg5 (ix2 k (Cert.Spec.c1 (((cfg1.win 4).blk t).view.emb (ix2 p q)))) := fun k => by
    show V c main_arg5 (((cfg1.win 3).blk t).view.emb (ix2 k q)) = _
    refine congrArg (V c main_arg5) (funext fun a => Fin.ext ?_)
    match a with
    | ⟨0, _⟩ => show win1_3.index t (0 : Fin 2) * 128 + 1 * k.val = k.val; omega
    | ⟨1, _⟩ => show win1_3.index t (1 : Fin 2) * 128 + 1 * q.val = win1_4.index t (1 : Fin 2) * 128 + 1 * q.val; omega
  unfold Cert.Spec.layer2 Cert.Spec.scaled Cert.Spec.feat
  rw [h1, Finset.sum_congr rfl fun k _ => by rw [h0 k, h2 k, h3 k]]

/-- An entry of the array is in point `t`'s block iff each coordinate is in the block's range on its axis. -/
theorem mem_block (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- The ten blocks cover the array: row `r` is in block `r / 5000`. -/
theorem blocks_cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < 10 := by omega
  obtain ⟨-, -, -, -, -, -, -, -, e40, e41⟩ := block_indices ⟨(i 0).val / 5000, hlt⟩
  have e40' : win1_4.index ⟨(i 0).val / 5000, hlt⟩ (0 : Fin 2) = (i 0).val / 5000 := e40
  refine ⟨⟨(i 0).val / 5000, hlt⟩, flush1_4 _, ?_⟩
  rw [mem_block]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    omega

/-- After the launch the output array is the second layer's scaled rows, of the arrays the launch found. -/
theorem final1 (c : Dev nD) :
    (dat1 (F := Ideal) V c).arrAt 4 cfg1.N
      = Cert.Spec.layer2 (V c main_v29) (V c main_v15) (V c main_v16) (V c main_arg5) := by
  exact (dat1 (F := Ideal) V c).arrAt_eq_of_cover 4
    (Cert.Spec.layer2 (V c main_v29) (V c main_v15) (V c main_v16) (V c main_arg5))
    (fun t _ => written_back_eq V c t) blocks_cover

end Cert.KernelIdeal.Region1

end
-- ==== Proof.Region2.lean ====
/-
  The third launch: the one output block, zeroed at the first grid point, accumulates over the ten blocks of 5000
  nodes the product of the transposed node-by-graph indicator with the second layer's activation; after the last point
  it holds the sum over all 50000 nodes.
-/
import proofs.«404547_j11510512353640_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«404547_j11510512353640_2_alg».proof.Proof.Spec

noncomputable section

open scoped BigOperators

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

section Pieces
variable {F : FTy → Type} [FloatOps F]

/-- Zero offsets, however they are spelt. -/
theorem hz : (![0, 0] : Fin 2 → Nat) = fun _ => 0 := funext fun a => by fin_cases a <;> rfl

/-- At a later grid point the body leaves in the output block, which held `xo`, the one product added to `xo`. -/
theorem piece_B (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x64 .bf16) (h4 : a4.IsWhole)
    (a5 : Memref sig .tc .vmem S64x128 .f32) (h5 : a5.IsWhole) (hc : ¬cond2_0 i)
    (x0 : Vec F S5000x128 .f32) (x1 : Vec F S5000x1 .f32) (x2 : Vec F S1x128 .f32) (x3 : Vec F S5000x64 .bf16)
    (xo : Vec F S64x128 .f32) :
    out2_B_4 c i a1 h1 a2 h2 a3 h3 a4 h4 a5 h5 hc x0 x1 x2 x3 xo = k2_pay2 x0 x1 x2 x3 xo := by
  unfold out2_B_4
  rw [View.read_writes_eq_canon _ _ _ (cover2_B_4 c i a1 h1 a2 h2 a3 h3 a4 h4 a5 h5 hc x0 x1 x2 x3 xo)]
  unfold kernelRun2_B
  dsimp only
  rw [View.canon_unit_zero hz]
  simp only [View.readAt_eq_ld, h1.read_unread, h2.read_unread, h3.read_unread, h4.read_unread, h5.read_unread,
    View.ld_unit_zero (S := S5000x128) hz, View.ld_unit_zero (S := S5000x1) hz, View.ld_unit_zero (S := S1x128) hz,
    View.ld_unit_zero (S := S5000x64) hz, View.ld_unit_zero (S := S64x128) hz]

/-- At the first grid point the body zeroes the output block, reads the zeros back, and leaves the one product added to them. -/
theorem piece_A (c : Dev nD) (i : grid2.Coords)
    (a1 : Memref sig .tc .vmem S5000x128 .f32) (h1 : a1.IsWhole) (a2 : Memref sig .tc .vmem S5000x1 .f32) (h2 : a2.IsWhole)
    (a3 : Memref sig .tc .vmem S1x128 .f32) (h3 : a3.IsWhole) (a4 : Memref sig .tc .vmem S5000x64 .bf16) (h4 : a4.IsWhole)
    (a5 : Memref sig .tc .vmem S64x128 .f32) (h5 : a5.IsWhole) (hc : cond2_0 i)
    (x0 : Vec F S5000x128 .f32) (x1 : Vec F S5000x1 .f32) (x2 : Vec F S1x128 .f32) (x3 : Vec F S5000x64 .bf16) :
    out2_A_4 c i a1 h1 a2 h2 a3 h3 a4 h4 a5 h5 hc x0 x1 x2 x3 = k2_pay2 x0 x1 x2 x3 (k2_pay1 (F := F)) := by
  unfold out2_A_4
  rw [View.read_writes_eq_canon _ _ _ (cover2_A_4 c i a1 h1 a2 h2 a3 h3 a4 h4 a5 h5 hc x0 x1 x2 x3)]
  unfold kernelRun2_A
  dsimp only
  sl_unfold_words
  rw [View.canon_cons_unit_zero (S := S64x128) hz]
  simp only [View.readAt_eq_ld, h1.read_unread, h2.read_unread, h3.read_unread, h4.read_unread,
    View.ld_unit_zero (S := S5000x128) hz, View.ld_unit_zero (S := S5000x1) hz, View.ld_unit_zero (S := S1x128) hz,
    View.ld_unit_zero (S := S5000x64) hz, View.readCov_unit_zero (S := S64x128) _ hz]

end Pieces

/-! The contraction of the pooling product: both operands are contracted on their row axis. -/

theorem lhs_pool_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs_pool_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs_pool_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product of the transposed indicator block with an activation block, into a zero accumulator, at graph `g` and
    feature `k`: the sum over the block's 5000 rows. -/
theorem pool_matmul_apply (oh : FVec Ideal S5000x64 .bf16) (act : FVec Ideal S5000x128 .bf16) (g : Fin 64) (k : Fin 128) :
    matmul dot_S5000x64_S5000x128_S64x128_0_0_1_1_n_n none oh act (constant (F := Ideal) S64x128 .f32 0x00000000#32) (ix2 g k)
      = ∑ p : Fin 5000, oh (ix2 p g) * act (ix2 p k) := by
  refine (Ideal.matmul_constant_zero_apply dot_S5000x64_S5000x128_S64x128_0_0_1_1_n_n none oh act (ix2 g k)).trans ?_
  rw [← Equiv.sum_comp (ValueIdx.contrEquiv1 dot_S5000x64_S5000x128_S64x128_0_0_1_1_n_n 5000 rfl rfl).symm]
  refine Finset.sum_congr rfl fun p _ => ?_
  have hp := ValueIdx.contrEquiv1_symm_val dot_S5000x64_S5000x128_S64x128_0_0_1_1_n_n 5000 rfl rfl p
  have el : dot_S5000x64_S5000x128_S64x128_0_0_1_1_n_n.lhsIdx (ix2 g k) ((ValueIdx.contrEquiv1 dot_S5000x64_S5000x128_S64x128_0_0_1_1_n_n 5000 rfl rfl).symm p) = ix2 p g := funext fun a => Fin.ext (by
    match a with
    | ⟨0, _⟩ => exact (lhs_pool_0 _ _).trans hp
    | ⟨1, _⟩ => exact lhs_pool_1 _ _)
  have er : dot_S5000x64_S5000x128_S64x128_0_0_1_1_n_n.rhsIdx (ix2 g k) ((ValueIdx.contrEquiv1 dot_S5000x64_S5000x128_S64x128_0_0_1_1_n_n 5000 rfl rfl).symm p) = ix2 p k := funext fun a => Fin.ext (by
    match a with
    | ⟨0, _⟩ => exact (rhs_pool_0 _ _).trans hp
    | ⟨1, _⟩ => exact rhs_pool_1 _ _)
  rw [el, er]

/-- The column of row scales, spread over the features, at row `p`. -/
theorem spread_col_apply {α : Type} (x : S5000x1.Idx → α) (p : Fin 5000) (k : Fin 128) :
    broadcastTo S5000x128 x broadcasts_S5000x1_S5000x128 (ix2 p k) = x (ix2 p (0 : Fin 1)) :=
  broadcastTo_apply x broadcasts_S5000x1_S5000x128 (ix2 p k) (ix2 p (0 : Fin 1)) (fun a => match a with
    | ⟨0, _⟩ => rfl
    | ⟨1, _⟩ => rfl)

/-- The bias row, spread over the rows, at feature `k`. -/
theorem spread_row_apply {α : Type} (x : S1x128.Idx → α) (p : Fin 5000) (k : Fin 128) :
    broadcastTo S5000x128 x broadcasts_S1x128_S5000x128 (ix2 p k) = x (ix2 (0 : Fin 1) k) :=
  broadcastTo_apply x broadcasts_S1x128_S5000x128 (ix2 p k) (ix2 (0 : Fin 1) k) (fun a => match a with
    | ⟨0, _⟩ => rfl
    | ⟨1, _⟩ => rfl)

/-- What one grid point stores at graph `g` and feature `k`: what the output block held there, plus the sum over the block's
    5000 rows of the indicator entry times the activation `max (conv · d2 + bias) 0`. -/
theorem pay2_apply (x0 : Vec Ideal S5000x128 .f32) (x1 : Vec Ideal S5000x1 .f32) (x2 : Vec Ideal S1x128 .f32)
    (x3 : Vec Ideal S5000x64 .bf16) (xo : Vec Ideal S64x128 .f32) (g : Fin 64) (k : Fin 128) :
    k2_pay2 (F := Ideal) x0 x1 x2 x3 xo (ix2 g k)
      = xo (ix2 g k) + ∑ p : Fin 5000, x3 (ix2 p g) * max (x0 (ix2 p k) * x1 (ix2 p (0 : Fin 1)) + x2 (ix2 (0 : Fin 1) k)) 0 := by
  unfold k2_pay2
  simp only [shapeCast_self]
  refine (addf_apply _ _ (ix2 g k)).trans ?_
  refine congrArg (xo (ix2 g k) + ·) ?_
  refine (pool_matmul_apply x3 _ g k).trans ?_
  refine Finset.sum_congr rfl fun p _ => ?_
  refine congrArg (x3 (ix2 p g) * ·) ?_
  show max (x0 (ix2 p k) * broadcastTo S5000x128 x1 broadcasts_S5000x1_S5000x128 (ix2 p k)
      + broadcastTo S5000x128 x2 broadcasts_S1x128_S5000x128 (ix2 p k)) (Ideal.ofBits .f32 0x00000000#32) = _
  rw [spread_col_apply, spread_row_apply, Ideal.ofBits_zero_f32]

/-- The arrays the launch finds, at their literal types. -/
abbrev convArr (c : Dev nD) : Vec Ideal S50000x128 .f32 := V c main_v41
abbrev d2Arr (c : Dev nD) : Vec Ideal S50000x1 .f32 := V c main_v15
abbrev biasArr (c : Dev nD) : Vec Ideal S1x128 .f32 := V c main_v17
abbrev ohArr (c : Dev nD) : Vec Ideal S50000x64 .bf16 := V c main_v48

/-- The blocks of them the body reads at grid point `t`. -/
abbrev convBlk (c : Dev nD) (t : Fin cfg2.N) : Vec Ideal S5000x128 .f32 := iblk2 V c 0 t
abbrev d2Blk (c : Dev nD) (t : Fin cfg2.N) : Vec Ideal S5000x1 .f32 := iblk2 V c 1 t
abbrev biasBlk (c : Dev nD) (t : Fin cfg2.N) : Vec Ideal S1x128 .f32 := iblk2 V c 2 t
abbrev ohBlk (c : Dev nD) (t : Fin cfg2.N) : Vec Ideal S5000x64 .bf16 := iblk2 V c 3 t

/-- Row `p` of block `t` is node `5000·t + p`. -/
def node (t : Fin cfg2.N) (p : Fin 5000) : Fin 50000 :=
  ⟨5000 * t.val + p.val, by have h := t.isLt; have hN : cfg2.N = 10 := N_2; omega⟩

/-- The block indices of the five windows, decided over the grid: the three node-indexed windows move with the point,
    the bias row and the output block stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

/-! Each block, read at a row, is its array at the node that row is (the bias row: the array itself). -/

theorem convBlk_apply (c : Dev nD) (t : Fin cfg2.N) (p : Fin 5000) (k : Fin 128) :
    convBlk V c t (ix2 p k) = convArr V c (ix2 (node t p) k) := by
  obtain ⟨e0, e1, -⟩ := idx_facts t
  unfold convBlk iblk2
  rw [View.read_apply]
  show V c main_v41 (((cfg2.win 0).blk t).view.emb (ix2 p k)) = V c main_v41 (ix2 (node t p) k)
  refine congrArg (V c main_v41) ?_
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

theorem d2Blk_apply (c : Dev nD) (t : Fin cfg2.N) (p : Fin 5000) :
    d2Blk V c t (ix2 p (0 : Fin 1)) = d2Arr V c (ix2 (node t p) (0 : Fin 1)) := by
  obtain ⟨-, -, e0, e1, -⟩ := idx_facts t
  unfold d2Blk iblk2
  rw [View.read_apply]
  show V c main_v15 (((cfg2.win 1).blk t).view.emb (ix2 p (0 : Fin 1))) = V c main_v15 (ix2 (node t p) (0 : Fin 1))
  refine congrArg (V c main_v15) ?_
  funext a; apply Fin.ext
  match a with
  | ⟨0, _⟩ => show win2_1.index t (0 : Fin 2) * 5000 + 1 * p.val = 5000 * t.val + p.val; rw [e0]; omega
  | ⟨1, _⟩ => show win2_1.index t (1 : Fin 2) * 1 + 1 * 0 = 0; rw [e1]

theorem biasBlk_apply (c : Dev nD) (t : Fin cfg2.N) (k : Fin 128) :
    biasBlk V c t (ix2 (0 : Fin 1) k) = biasArr V c (ix2 (0 : Fin 1) k) := by
  obtain ⟨-, -, -, -, e0, e1, -⟩ := idx_facts t
  unfold biasBlk iblk2
  rw [View.read_apply]
  show V c main_v17 (((cfg2.win 2).blk t).view.emb (ix2 (0 : Fin 1) k)) = V c main_v17 (ix2 (0 : Fin 1) k)
  refine congrArg (V c main_v17) ?_
  funext a; apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

theorem ohBlk_apply (c : Dev nD) (t : Fin cfg2.N) (p : Fin 5000) (g : Fin 64) :
    ohBlk V c t (ix2 p g) = ohArr V c (ix2 (node t p) g) := by
  obtain ⟨-, -, -, -, -, -, e0, e1, -⟩ := idx_facts t
  unfold ohBlk iblk2
  rw [View.read_apply]
  show V c main_v48 (((cfg2.win 3).blk t).view.emb (ix2 p g)) = V c main_v48 (ix2 (node t p) g)
  refine congrArg (V c main_v48) ?_
  funext a; apply Fin.ext
  match a with
  | ⟨0, _⟩ => show win2_3.index t (0 : Fin 2) * 5000 + 1 * p.val = 5000 * t.val + p.val; rw [e0]; omega
  | ⟨1, _⟩ => show win2_3.index t (1 : Fin 2) * 64 + 1 * g.val = g.val; rw [e1]; omega

/-! The sum over all nodes, block by block. -/

/-- Nodes are the pairs (block, row in the block). -/
def nodeEquiv : Fin 10 × Fin 5000 ≃ Fin 50000 where
  toFun x := ⟨5000 * x.1.val + x.2.val, by have h1 := x.1.isLt; have h2 := x.2.isLt; omega⟩
  invFun r := (⟨r.val / 5000, by have h := r.isLt; omega⟩, ⟨r.val % 5000, by omega⟩)
  left_inv x := Prod.ext
    (Fin.ext (by show (5000 * x.1.val + x.2.val) / 5000 = x.1.val; have h2 := x.2.isLt; omega))
    (Fin.ext (by show (5000 * x.1.val + x.2.val) % 5000 = x.2.val; have h2 := x.2.isLt; omega))
  right_inv r := Fin.ext (by show 5000 * (r.val / 5000) + r.val % 5000 = r.val; omega)

/-- What block `s` adds to a sum over the nodes: the sum over its 5000 rows (nothing past the last block). -/
def blockSum (f : Fin 50000 → EReal) (s : ℕ) : EReal :=
  if h : s < 10 then ∑ p : Fin 5000, f ⟨5000 * s + p.val, by have h2 := p.isLt; omega⟩ else 0

/-- The ten blocks' sums add up to the sum over all nodes. -/
theorem sum_blockSum (f : Fin 50000 → EReal) : ∑ s ∈ Finset.range 10, blockSum f s = ∑ r, f r := by
  rw [Finset.sum_range, ← Equiv.sum_comp nodeEquiv f, Fintype.sum_prod_type]
  refine Finset.sum_congr rfl fun t _ => ?_
  unfold blockSum
  rw [dif_pos t.isLt]
  rfl

/-- Node `r`'s term of the pooled sum at graph `g` and feature `k`. -/
def term (c : Dev nD) (g : Fin 64) (k : Fin 128) (r : Fin 50000) : EReal :=
  ohArr V c (ix2 r g) * Cert.Spec.feat (convArr V c) (d2Arr V c) (biasArr V c) (ix2 r k)

/-- One grid point adds its block's sum to what the output block held. -/
theorem point_apply (c : Dev nD) (t : Fin cfg2.N) (acc : Vec Ideal S64x128 .f32) (g : Fin 64) (k : Fin 128) :
    k2_pay2 (F := Ideal) (convBlk V c t) (d2Blk V c t) (biasBlk V c t) (ohBlk V c t) acc (ix2 g k)
      = acc (ix2 g k) + blockSum (term V c g k) t.val := by
  have ht : t.val < 10 := lt_of_lt_of_eq t.isLt (show cfg2.N = 10 from N_2)
  refine (pay2_apply (convBlk V c t) (d2Blk V c t) (biasBlk V c t) (ohBlk V c t) acc g k).trans ?_
  refine congrArg (acc (ix2 g k) + ·) ?_
  unfold blockSum
  rw [dif_pos ht]
  refine Finset.sum_congr rfl fun p _ => ?_
  rw [ohBlk_apply, convBlk_apply, d2Blk_apply, biasBlk_apply]
  rfl

/-- After grid point `n` the output block holds the sum over the nodes of blocks `0 … n`. -/
theorem outsAt_apply (c : Dev nD) (g : Fin 64) (k : Fin 128) : ∀ (n : ℕ) (hn : n < cfg2.N),
    outsAt2 V c n hn (ix2 g k) = ∑ s ∈ Finset.range (n + 1), blockSum (term V c g k) s
  | 0, hn => by
    rw [outsAt2_A V c ⟨0, hn⟩ (Nat.zero_mod 10)]
    refine (congrFun (piece_A (F := Ideal) c (grid2.coords ⟨0, hn⟩) (ms2_0 ⟨0, hn⟩) (hs2_0 ⟨0, hn⟩) (ms2_1 ⟨0, hn⟩) (hs2_1 ⟨0, hn⟩)
      (ms2_2 ⟨0, hn⟩) (hs2_2 ⟨0, hn⟩) (ms2_3 ⟨0, hn⟩) (hs2_3 ⟨0, hn⟩) (ms2_4 ⟨0, hn⟩) (hs2_4 ⟨0, hn⟩) ((hcond2_0 ⟨0, hn⟩).mpr (Nat.zero_mod 10))
      (iblk2 V c 0 ⟨0, hn⟩) (iblk2 V c 1 ⟨0, hn⟩) (iblk2 V c 2 ⟨0, hn⟩) (iblk2 V c 3 ⟨0, hn⟩)) (ix2 g k)).trans ?_
    refine (point_apply V c ⟨0, hn⟩ (k2_pay1 (F := Ideal)) g k).trans ?_
    rw [Finset.sum_range_one]
    show Ideal.ofBits .f32 0x00000000#32 + _ = _
    rw [Ideal.ofBits_zero_f32, zero_add]
  | n + 1, hn => by
    have hN : cfg2.N = 10 := N_2
    have hB : ¬(⟨n + 1, hn⟩ : Fin cfg2.N).val % 10 = 0 := by dsimp only; omega
    rw [outsAt2_B V c ⟨n + 1, hn⟩ hB]
    refine (congrFun (piece_B (F := Ideal) c (grid2.coords ⟨n + 1, hn⟩) (ms2_0 ⟨n + 1, hn⟩) (hs2_0 ⟨n + 1, hn⟩) (ms2_1 ⟨n + 1, hn⟩) (hs2_1 ⟨n + 1, hn⟩)
      (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩)
      (fun h => hB ((hcond2_0 ⟨n + 1, hn⟩).mp h))
      (iblk2 V c 0 ⟨n + 1, hn⟩) (iblk2 V c 1 ⟨n + 1, hn⟩) (iblk2 V c 2 ⟨n + 1, hn⟩) (iblk2 V c 3 ⟨n + 1, hn⟩)
      (outsAt2 V c n (Nat.lt_of_succ_lt hn))) (ix2 g k)).trans ?_
    refine (point_apply V c ⟨n + 1, hn⟩ (outsAt2 V c n (Nat.lt_of_succ_lt hn)) g k).trans ?_
    rw [Finset.sum_range_succ _ (n + 1), outsAt_apply c g k n (Nat.lt_of_succ_lt hn)]

/-- The pooled sums of the arrays the launch finds. -/
abbrev pooledArr (c : Dev nD) : Vec Ideal S64x128 .f32 :=
  Cert.Spec.pooled (convArr V c) (d2Arr V c) (biasArr V c) (ohArr V c)

/-- The output window's block is its whole array: a block held whole is read as it is, -/
theorem cut_out_apply (t : Fin cfg2.N) (X : Vec Ideal S64x128 .f32) (g : Fin 64) (k : Fin 128) :
    (cfg2.win 4).cut (grid2.coords t) X (ix2 g k) = X (ix2 g k) := rfl

/-- and the array read through the block is the array. -/
theorem read_out_apply (t : Fin cfg2.N) (G : Vec Ideal S64x128 .f32) (g : Fin 64) (k : Fin 128) :
    ((cfg2.win 4).blk t).view.read (Elt Ideal) G (ix2 g k) = G (ix2 g k) := by
  obtain ⟨-, -, -, -, -, -, -, -, e0, e1⟩ := idx_facts t
  rw [View.read_apply]
  show G (((cfg2.win 4).blk t).view.emb (ix2 g k)) = G (ix2 g k)
  refine congrArg G ?_
  funext a; apply Fin.ext
  match a with
  | ⟨0, _⟩ => show win2_4.index t (0 : Fin 2) * 64 + 1 * g.val = g.val; rw [e0]; omega
  | ⟨1, _⟩ => show win2_4.index t (1 : Fin 2) * 128 + 1 * k.val = k.val; rw [e1]; omega

/-- The one write-back, at the last point, writes the sum over all nodes: the output block is the whole array. -/
theorem flushed_eq (c : Dev nD) (t : Fin cfg2.N) (hf : (cfg2.win 4).flush t = true) :
    (dat2 (F := Ideal) V c).flushed 4 t = ((cfg2.win 4).blk t).view.read (Elt Ideal) (pooledArr V c) := by
  have hN : cfg2.N = 10 := N_2
  have h9 : t.val = 9 := by have h := (flush2_4 t).mp hf; have h' := t.isLt; omega
  have h10 : t.val + 1 = 10 := by omega
  show (cfg2.win 4).cut (grid2.coords t) ((dat2 (F := Ideal) V c).after 4 t) = _
  rw [after2_4]
  funext y
  obtain ⟨g, k, rfl⟩ : ∃ (g : Fin 64) (k : Fin 128), y = ix2 g k := ⟨y 0, y 1, eq_ix2 y⟩
  refine (cut_out_apply t (outsAt2 V c t.val t.isLt) g k).trans ?_
  refine Eq.trans ?_ (read_out_apply t (pooledArr V c) g k).symm
  rw [outsAt_apply V c g k t.val t.isLt, h10, sum_blockSum]
  rfl

/-- After the launch the output array is the per-graph sum of the activation rows, of the arrays the launch found. -/
theorem final2 (c : Dev nD) :
    (dat2 (F := Ideal) V c).arrAt 4 cfg2.N
      = Cert.Spec.pooled (V c main_v41) (V c main_v15) (V c main_v17) (V c main_v48) :=
  (dat2 (F := Ideal) V c).arrAt_eq_of_cover 4 (pooledArr V c) (flushed_eq V c) fun i =>
    ⟨t2_9, (flush2_4 t2_9).mpr rfl, by
      show i ∈ ((View.whole main_v49).slice (win2_4.rect t2_9)).set
      rw [View.set_slice_whole, Rect.mem_set_unit]
      intro a
      have h0 : (i 0 : Nat) < 64 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 64 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

end Cert.KernelIdeal.Region2

end
-- ==== Proof.Region3.lean ====
/-
  The last launch has one grid point and every window is its whole array, so each output array ends at the body's
  value of the arrays the launch found.
-/
import proofs.«404547_j11510512353640_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a rank-2 rectangle, however spelt. -/
private theorem hz : (![0, 0] : Fin 2 → Nat) = fun _ => 0 := funext fun a => by fin_cases a <;> rfl

/-- Every window's block index is zero on both axes at the launch's one grid point. -/
private theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0 :=
  (by decide +kernel : ∀ t : Fin grid3.N, _)

/-! ## Each input block is its whole array

A block's coordinate on an axis is (block index) × (block size) + 1 × (coordinate inside the block); the block index is
zero and the block is as large as the array, so the block's embedding is the identity. -/

/-- Input window 0's block is the whole 64×128 array `main_v49`. -/
private theorem iblk3_0_eq (c : Dev nD) (t : Fin cfg3.N) : iblk3 (F := Ideal) V c 0 t = V c main_v49 := by
  obtain ⟨e0, e1, -, -, -, -, -, -, -, -, -, -, -, -, -, -, -, -, -, -, -, -⟩ := idx_facts t
  funext y
  show V c main_v49 (((cfg3.win 0).blk t).view.emb y) = V c main_v49 y
  congr 1
  funext a; apply Fin.ext
  match a with
  | ⟨0, _⟩ => show win3_0.index t (0 : Fin 2) * 64 + 1 * (y 0).val = (y 0).val; omega
  | ⟨1, _⟩ => show win3_0.index t (1 : Fin 2) * 128 + 1 * (y 1).val = (y 1).val; omega

/-- Input window 1's block is the whole 64×1 array `main_v58`. -/
private theorem iblk3_1_eq (c : Dev nD) (t : Fin cfg3.N) : iblk3 (F := Ideal) V c 1 t = V c main_v58 := by
  obtain ⟨-, -, e0, e1, -, -, -, -, -, -, -, -, -, -, -, -, -, -, -, -, -, -⟩ := idx_facts t
  funext y
  show V c main_v58 (((cfg3.win 1).blk t).view.emb y) = V c main_v58 y
  congr 1
  funext a; apply Fin.ext
  match a with
  | ⟨0, _⟩ => show win3_1.index t (0 : Fin 2) * 64 + 1 * (y 0).val = (y 0).val; omega
  | ⟨1, _⟩ => show win3_1.index t (1 : Fin 2) * 1 + 1 * (y 1).val = (y 1).val; omega

/-- Input window 2's block is the whole 1024×128 array `main_arg7`. -/
private theorem iblk3_2_eq (c : Dev nD) (t : Fin cfg3.N) : iblk3 (F := Ideal) V c 2 t = V c main_arg7 := by
  obtain ⟨-, -, -, -, e0, e1, -, -, -, -, -, -, -, -, -, -, -, -, -, -, -, -⟩ := idx_facts t
  funext y
  show V c main_arg7 (((cfg3.win 2).blk t).view.emb y) = V c main_arg7 y
  congr 1
  funext a; apply Fin.ext
  match a with
  | ⟨0, _⟩ => show win3_2.index t (0 : Fin 2) * 1024 + 1 * (y 0).val = (y 0).val; omega
  | ⟨1, _⟩ => show win3_2.index t (1 : Fin 2) * 128 + 1 * (y 1).val = (y 1).val; omega

/-- Input window 3's block is the whole 1×1024 array `main_v59`. -/
private theorem iblk3_3_eq (c : Dev nD) (t : Fin cfg3.N) : iblk3 (F := Ideal) V c 3 t = V c main_v59 := by
  obtain ⟨-, -, -, -, -, -, e0, e1, -, -, -, -, -, -, -, -, -, -, -, -, -, -⟩ := idx_facts t
  funext y
  show V c main_v59 (((cfg3.win 3).blk t).view.emb y) = V c main_v59 y
  congr 1
  funext a; apply Fin.ext
  match a with
  | ⟨0, _⟩ => show win3_3.index t (0 : Fin 2) * 1 + 1 * (y 0).val = (y 0).val; omega
  | ⟨1, _⟩ => show win3_3.index t (1 : Fin 2) * 1024 + 1 * (y 1).val = (y 1).val; omega

/-- Input window 4's block is the whole 1×1024 array `main_v60`. -/
private theorem iblk3_4_eq (c : Dev nD) (t : Fin cfg3.N) : iblk3 (F := Ideal) V c 4 t = V c main_v60 := by
  obtain ⟨-, -, -, -, -, -, -, -, e0, e1, -, -, -, -, -, -, -, -, -, -, -, -⟩ := idx_facts t
  funext y
  show V c main_v60 (((cfg3.win 4).blk t).view.emb y) = V c main_v60 y
  congr 1
  funext a; apply Fin.ext
  match a with
  | ⟨0, _⟩ => show win3_4.index t (0 : Fin 2) * 1 + 1 * (y 0).val = (y 0).val; omega
  | ⟨1, _⟩ => show win3_4.index t (1 : Fin 2) * 1024 + 1 * (y 1).val = (y 1).val; omega

/-- Input window 5's block is the whole 1×256 array `main_arg11`. -/
private theorem iblk3_5_eq (c : Dev nD) (t : Fin cfg3.N) : iblk3 (F := Ideal) V c 5 t = V c main_arg11 := by
  obtain ⟨-, -, -, -, -, -, -, -, -, -, e0, e1, -, -, -, -, -, -, -, -, -, -⟩ := idx_facts t
  funext y
  show V c main_arg11 (((cfg3.win 5).blk t).view.emb y) = V c main_arg11 y
  congr 1
  funext a; apply Fin.ext
  match a with
  | ⟨0, _⟩ => show win3_5.index t (0 : Fin 2) * 1 + 1 * (y 0).val = (y 0).val; omega
  | ⟨1, _⟩ => show win3_5.index t (1 : Fin 2) * 256 + 1 * (y 1).val = (y 1).val; omega

/-- Input window 6's block is the whole 1×1 array `main_v61`. -/
private theorem iblk3_6_eq (c : Dev nD) (t : Fin cfg3.N) : iblk3 (F := Ideal) V c 6 t = V c main_v61 := by
  obtain ⟨-, -, -, -, -, -, -, -, -, -, -, -, e0, e1, -, -, -, -, -, -, -, -⟩ := idx_facts t
  funext y
  show V c main_v61 (((cfg3.win 6).blk t).view.emb y) = V c main_v61 y
  congr 1
  funext a; apply Fin.ext
  match a with
  | ⟨0, _⟩ => show win3_6.index t (0 : Fin 2) * 1 + 1 * (y 0).val = (y 0).val; omega
  | ⟨1, _⟩ => show win3_6.index t (1 : Fin 2) * 1 + 1 * (y 1).val = (y 1).val; omega

/-- Input window 7's block is the whole 1×256 array `main_arg13`. -/
private theorem iblk3_7_eq (c : Dev nD) (t : Fin cfg3.N) : iblk3 (F := Ideal) V c 7 t = V c main_arg13 := by
  obtain ⟨-, -, -, -, -, -, -, -, -, -, -, -, -, -, e0, e1, -, -, -, -, -, -⟩ := idx_facts t
  funext y
  show V c main_arg13 (((cfg3.win 7).blk t).view.emb y) = V c main_arg13 y
  congr 1
  funext a; apply Fin.ext
  match a with
  | ⟨0, _⟩ => show win3_7.index t (0 : Fin 2) * 1 + 1 * (y 0).val = (y 0).val; omega
  | ⟨1, _⟩ => show win3_7.index t (1 : Fin 2) * 256 + 1 * (y 1).val = (y 1).val; omega

/-- Input window 8's block is the whole 1×1 array `main_v62`. -/
private theorem iblk3_8_eq (c : Dev nD) (t : Fin cfg3.N) : iblk3 (F := Ideal) V c 8 t = V c main_v62 := by
  obtain ⟨-, -, -, -, -, -, -, -, -, -, -, -, -, -, -, -, e0, e1, -, -, -, -⟩ := idx_facts t
  funext y
  show V c main_v62 (((cfg3.win 8).blk t).view.emb y) = V c main_v62 y
  congr 1
  funext a; apply Fin.ext
  match a with
  | ⟨0, _⟩ => show win3_8.index t (0 : Fin 2) * 1 + 1 * (y 0).val = (y 0).val; omega
  | ⟨1, _⟩ => show win3_8.index t (1 : Fin 2) * 1 + 1 * (y 1).val = (y 1).val; omega

/-! ## Output window 9 -/

/-- What the one grid point writes back to window 9's array is the (whole-array) block of the head's mean of the whole
    input arrays: the body's one store covers the buffer, its loads read whole blocks, and each block is its array. -/
private theorem flushed9_eq (c : Dev nD) (t : Fin cfg3.N) :
    (dat3 (F := Ideal) V c).flushed 9 t = ((cfg3.win 9).blk t).view.read (Elt Ideal)
      (k3_pay4 (F := Ideal) (V c main_v49) (V c main_v58) (V c main_arg7) (V c main_v59) (V c main_v60) (V c main_arg11) (V c main_v61)) := by
  show (cfg3.win 9).cut (grid3.coords t) ((dat3 (F := Ideal) V c).after 9 t) = _
  rw [after3_9]
  unfold out3_9
  rw [View.canon_unit_zero hz]
  simp only [View.ld_unit_zero (S := S64x128) hz, View.ld_unit_zero (S := S64x1) hz, View.ld_unit_zero (S := S1024x128) hz,
    View.ld_unit_zero (S := S1x1024) hz, View.ld_unit_zero (S := S1x256) hz, View.ld_unit_zero (S := S1x1) hz]
  rw [iblk3_0_eq, iblk3_1_eq, iblk3_2_eq, iblk3_3_eq, iblk3_4_eq, iblk3_5_eq, iblk3_6_eq]
  obtain ⟨-, -, -, -, -, -, -, -, -, -, -, -, -, -, -, -, -, -, e0, e1, -, -⟩ := idx_facts t
  funext j
  show (k3_pay4 (F := Ideal) (V c main_v49) (V c main_v58) (V c main_arg7) (V c main_v59) (V c main_v60) (V c main_arg11) (V c main_v61)) j
     = (k3_pay4 (F := Ideal) (V c main_v49) (V c main_v58) (V c main_arg7) (V c main_v59) (V c main_v60) (V c main_arg11) (V c main_v61)) (((cfg3.win 9).blk t).view.emb j)
  congr 1
  funext a; apply Fin.ext
  match a with
  | ⟨0, _⟩ => show (j 0).val = win3_9.index t (0 : Fin 2) * 64 + 1 * (j 0).val; omega
  | ⟨1, _⟩ => show (j 1).val = win3_9.index t (1 : Fin 2) * 1 + 1 * (j 1).val; omega

/-- An index of the 64×1 array is in the point's block iff each coordinate is in the block's range on its axis. -/
private theorem mem_blk9 (t : Fin cfg3.N) (i : S64x1.Idx) :
    i ∈ ((cfg3.win 9).blk t).view.set ↔ ∀ a : Fin 2, win3_9.index t a * S64x1.size a ≤ (i a).val ∧ (i a).val < win3_9.index t a * S64x1.size a + S64x1.size a := by
  show i ∈ ((View.whole main_v63_0).slice (win3_9.rect t)).set ↔ _
  rw [View.set_slice_whole, Rect.mem_set_unit]
  exact Iff.rfl

/-- Every index of the 64×1 array is in the one point's block, which is written back. -/
private theorem cover9 (i : S64x1.Idx) :
    ∃ t : Fin cfg3.N, (cfg3.win 9).flush t = true ∧ i ∈ ((cfg3.win 9).blk t).view.set := by
  refine ⟨t3_0, flush3_9 t3_0, ?_⟩
  obtain ⟨-, -, -, -, -, -, -, -, -, -, -, -, -, -, -, -, -, -, e0, e1, -, -⟩ := idx_facts t3_0
  rw [mem_blk9]
  have h0 : (i 0).val < 64 := (i 0).isLt
  have h1 : (i 1).val < 1 := (i 1).isLt
  intro a
  match a with
  | ⟨0, _⟩ => show win3_9.index t3_0 (0 : Fin 2) * 64 ≤ (i 0).val ∧ (i 0).val < win3_9.index t3_0 (0 : Fin 2) * 64 + 64; omega
  | ⟨1, _⟩ => show win3_9.index t3_0 (1 : Fin 2) * 1 ≤ (i 1).val ∧ (i 1).val < win3_9.index t3_0 (1 : Fin 2) * 1 + 1; omega

/-- The first result: the head's mean, the body's pure term of the whole arrays. -/
theorem final3_9 (c : Dev nD) :
    (dat3 (F := Ideal) V c).arrAt 9 cfg3.N
      = k3_pay4 (F := Ideal) (V c main_v49) (V c main_v58) (V c main_arg7) (V c main_v59) (V c main_v60) (V c main_arg11) (V c main_v61) :=
  (dat3 (F := Ideal) V c).arrAt_eq_of_cover 9 _ (fun t _ => flushed9_eq V c t) (fun i => cover9 i)

/-! ## Output window 10 -/

/-- What the one grid point writes back to window 10's array is the (whole-array) block of the head's softplus of the whole
    input arrays: the body's one store covers the buffer, its loads read whole blocks, and each block is its array. -/
private theorem flushed10_eq (c : Dev nD) (t : Fin cfg3.N) :
    (dat3 (F := Ideal) V c).flushed 10 t = ((cfg3.win 10).blk t).view.read (Elt Ideal)
      (k3_pay1 (F := Ideal) (k3_pay2 (F := Ideal) (V c main_v49) (V c main_v58) (V c main_arg7) (V c main_v59) (V c main_v60))
          (V c main_arg13) (k3_pay3 (F := Ideal) (V c main_v62))) := by
  show (cfg3.win 10).cut (grid3.coords t) ((dat3 (F := Ideal) V c).after 10 t) = _
  rw [after3_10]
  unfold out3_10
  rw [View.canon_unit_zero hz]
  simp only [View.ld_unit_zero (S := S64x128) hz, View.ld_unit_zero (S := S64x1) hz, View.ld_unit_zero (S := S1024x128) hz,
    View.ld_unit_zero (S := S1x1024) hz, View.ld_unit_zero (S := S1x256) hz, View.ld_unit_zero (S := S1x1) hz]
  rw [iblk3_0_eq, iblk3_1_eq, iblk3_2_eq, iblk3_3_eq, iblk3_4_eq, iblk3_7_eq, iblk3_8_eq]
  obtain ⟨-, -, -, -, -, -, -, -, -, -, -, -, -, -, -, -, -, -, -, -, e0, e1⟩ := idx_facts t
  funext j
  show (k3_pay1 (F := Ideal) (k3_pay2 (F := Ideal) (V c main_v49) (V c main_v58) (V c main_arg7) (V c main_v59) (V c main_v60))
          (V c main_arg13) (k3_pay3 (F := Ideal) (V c main_v62))) j
     = (k3_pay1 (F := Ideal) (k3_pay2 (F := Ideal) (V c main_v49) (V c main_v58) (V c main_arg7) (V c main_v59) (V c main_v60))
          (V c main_arg13) (k3_pay3 (F := Ideal) (V c main_v62))) (((cfg3.win 10).blk t).view.emb j)
  congr 1
  funext a; apply Fin.ext
  match a with
  | ⟨0, _⟩ => show (j 0).val = win3_10.index t (0 : Fin 2) * 64 + 1 * (j 0).val; omega
  | ⟨1, _⟩ => show (j 1).val = win3_10.index t (1 : Fin 2) * 1 + 1 * (j 1).val; omega

/-- An index of the 64×1 array is in the point's block iff each coordinate is in the block's range on its axis. -/
private theorem mem_blk10 (t : Fin cfg3.N) (i : S64x1.Idx) :
    i ∈ ((cfg3.win 10).blk t).view.set ↔ ∀ a : Fin 2, win3_10.index t a * S64x1.size a ≤ (i a).val ∧ (i a).val < win3_10.index t a * S64x1.size a + S64x1.size a := by
  show i ∈ ((View.whole main_v63_1).slice (win3_10.rect t)).set ↔ _
  rw [View.set_slice_whole, Rect.mem_set_unit]
  exact Iff.rfl

/-- Every index of the 64×1 array is in the one point's block, which is written back. -/
private theorem cover10 (i : S64x1.Idx) :
    ∃ t : Fin cfg3.N, (cfg3.win 10).flush t = true ∧ i ∈ ((cfg3.win 10).blk t).view.set := by
  refine ⟨t3_0, flush3_10 t3_0, ?_⟩
  obtain ⟨-, -, -, -, -, -, -, -, -, -, -, -, -, -, -, -, -, -, -, -, e0, e1⟩ := idx_facts t3_0
  rw [mem_blk10]
  have h0 : (i 0).val < 64 := (i 0).isLt
  have h1 : (i 1).val < 1 := (i 1).isLt
  intro a
  match a with
  | ⟨0, _⟩ => show win3_10.index t3_0 (0 : Fin 2) * 64 ≤ (i 0).val ∧ (i 0).val < win3_10.index t3_0 (0 : Fin 2) * 64 + 64; omega
  | ⟨1, _⟩ => show win3_10.index t3_0 (1 : Fin 2) * 1 ≤ (i 1).val ∧ (i 1).val < win3_10.index t3_0 (1 : Fin 2) * 1 + 1; omega

/-- The second result: the head's softplus, the body's pure term of the whole arrays. -/
theorem final3_10 (c : Dev nD) :
    (dat3 (F := Ideal) V c).arrAt 10 cfg3.N
      = k3_pay1 (F := Ideal) (k3_pay2 (F := Ideal) (V c main_v49) (V c main_v58) (V c main_arg7) (V c main_v59) (V c main_v60))
          (V c main_arg13) (k3_pay3 (F := Ideal) (V c main_v62)) :=
  (dat3 (F := Ideal) V c).arrAt_eq_of_cover 10 _ (fun t _ => flushed10_eq V c t) (fun i => cover10 i)

end Cert.KernelIdeal.Region3

end
-- ==== Proof.HostKa.lean ====
/-
  What each launch finds in the arrays it reads, as functions of the argument arrays: an argument is still as launched,
  the degree column and the bias rows are the host's terms of the arguments, and the aggregated rows are the
  gather-and-scatter-add of the previous launch's output.
-/
import proofs.«404547_j11510512353640_2_alg».proof.Proof.Gen.KernelIdeal.Frame
import proofs.«404547_j11510512353640_2_alg».proof.Proof.KStages
import Idealize.ShloMosaic.Lib.StableHlo.Run
import Idealize.ShloMosaic.PureOps.Ideal

noncomputable section

open scoped BigOperators

namespace Cert.KernelIdeal.HostValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a host stretch writes is carried across the stretch. -/
local macro "host_carry" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch writes, from any contents `V` at its entry -/

section Stretches

variable (V : Valuation τ sig (Elt Ideal))

/-- The sources with the self-loops appended. -/
private theorem ops0_v3 : StableHlo.after hostOps0 V (Proc.devRef .tc main_v3)
    = Stage.src (V (Proc.devRef .tc main_arg1) : IVec S2x600000 32) := by
  after_results
  rfl

/-- The destinations with the self-loops appended. -/
private theorem ops0_v6 : StableHlo.after hostOps0 V (Proc.devRef .tc main_v6)
    = Stage.dst (V (Proc.devRef .tc main_arg1) : IVec S2x600000 32) := by
  after_results
  rfl

/-- Where the degree is positive. -/
private theorem ops0_v12 : StableHlo.after hostOps0 V (Proc.devRef .tc main_v12)
    = cmpf .ogt (Stage.deg (F := Ideal) (V (Proc.devRef .tc main_arg1) : IVec S2x600000 32))
        (broadcastInDim S50000 ![] bcast_S_S50000 (constant (F := Ideal) S_ .f32 0x00000000#32)) := by
  after_results
  rfl

/-- The inverse square root of the degree. -/
private theorem ops0_v13 : StableHlo.after hostOps0 V (Proc.devRef .tc main_v13)
    = Host.rsqrt (Stage.deg (F := Ideal) (V (Proc.devRef .tc main_arg1) : IVec S2x600000 32)) := by
  after_results
  rfl

/-- The zero the selection falls back on. -/
private theorem ops0_cst_2 : StableHlo.after hostOps0 V (Proc.devRef .tc main_cst_2)
    = constant (F := Ideal) S_ .f32 0x00000000#32 := by
  after_results

/-- The selection between the inverse square root and zero. -/
private theorem ops0_1_v14 : StableHlo.after hostOps0_1 V (Proc.devRef .tc main_v14)
    = select (V (Proc.devRef .tc main_v12) : IVec S50000 1) (V (Proc.devRef .tc main_v13) : FVec Ideal S50000 .f32)
        (broadcastInDim S50000 ![] bcast_S_S50000 (id (V (Proc.devRef .tc main_cst_2) : FVec Ideal S_ .f32))) := by
  after_results
  rfl

/-- The selection as a column. -/
private theorem ops0_2_v15 : StableHlo.after hostOps0_2 V (Proc.devRef .tc main_v15)
    = shapeCast S50000x1 (V (Proc.devRef .tc main_v14) : FVec Ideal S50000 .f32) shapeCasts_S50000_S50000x1 := by
  after_results
  rfl

/-- The first bias as a row. -/
private theorem ops0_2_v16 : StableHlo.after hostOps0_2 V (Proc.devRef .tc main_v16)
    = shapeCast S1x128 (V (Proc.devRef .tc main_arg4) : FVec Ideal S128 .f32) shapeCasts_S128_S1x128 := by
  after_results
  rfl

/-- The rows gathered at the sources and added onto the destinations. -/
private theorem ops1_v29 : StableHlo.after hostOps1 V (Proc.devRef .tc main_v29)
    = Host.scatterAdd scatter_S50000x128_S650000x1_S650000x128_1_0_0_1
        (broadcastInDim S50000x128 ![] bcast_S_S50000x128 (constant (F := Ideal) S_ .f32 0x00000000#32))
        (broadcastInDim S650000x1 ![0] bcast_S650000_S650000x1_0 (V (Proc.devRef .tc main_v6) : IVec S650000 32))
        (extf .f32 (Host.gather gather_S50000x128_S650000x1_S650000x128_1_0_n_n_0_1_1128
            (V (Proc.devRef .tc main_v18) : FVec Ideal S50000x128 .bf16)
            (broadcastInDim S650000x1 ![0] bcast_S650000_S650000x1_0
              (select (cmpi .slt (V (Proc.devRef .tc main_v3) : IVec S650000 32) (broadcastInDim S650000 ![] bcast_S_S650000 (constantI S_ 32 0#32)))
                (addi (V (Proc.devRef .tc main_v3) : IVec S650000 32) (broadcastInDim S650000 ![] bcast_S_S650000 (constantI S_ 32 50000#32)))
                (V (Proc.devRef .tc main_v3) : IVec S650000 32)))) bitsLt_bf16_f32) := by
  after_results

end Stretches

/-! ## The buffers between the launch and the first region, as terms of the arguments -/

private theorem W1_v3 (c : Dev nD) :
    W1 m ρ c (Proc.devRef .tc main_v3) = Stage.src (m ((c : Thread nD τ).loc main_arg1)) := ops0_v3 (W0 m ρ c)
private theorem W1_v6 (c : Dev nD) :
    W1 m ρ c (Proc.devRef .tc main_v6) = Stage.dst (m ((c : Thread nD τ).loc main_arg1)) := ops0_v6 (W0 m ρ c)
private theorem W1_v12 (c : Dev nD) :
    W1 m ρ c (Proc.devRef .tc main_v12) = cmpf .ogt (Stage.deg (F := Ideal) (m ((c : Thread nD τ).loc main_arg1)))
        (broadcastInDim S50000 ![] bcast_S_S50000 (constant (F := Ideal) S_ .f32 0x00000000#32)) := ops0_v12 (W0 m ρ c)
private theorem W1_v13 (c : Dev nD) :
    W1 m ρ c (Proc.devRef .tc main_v13) = Host.rsqrt (Stage.deg (F := Ideal) (m ((c : Thread nD τ).loc main_arg1))) :=
  ops0_v13 (W0 m ρ c)
private theorem W1_cst_2 (c : Dev nD) :
    W1 m ρ c (Proc.devRef .tc main_cst_2) = constant (F := Ideal) S_ .f32 0x00000000#32 := ops0_cst_2 (W0 m ρ c)

private theorem W2_v14 (c : Dev nD) :
    W2 m ρ c (Proc.devRef .tc main_v14) = Stage.dinv (F := Ideal) (m ((c : Thread nD τ).loc main_arg1)) := by
  refine (ops0_1_v14 (W1 m ρ c)).trans ?_
  rw [W1_v12, W1_v13, W1_cst_2]
  rfl

private theorem W4_v3 (c : Dev nD) :
    W4 m ρ c (Proc.devRef .tc main_v3) = Stage.src (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_carry hostOps0_2
    _ = W1 m ρ c (Proc.devRef .tc main_v3) := by host_carry hostOps0_1
    _ = Stage.src (m ((c : Thread nD τ).loc main_arg1)) := W1_v3 m ρ c

private theorem W4_v6 (c : Dev nD) :
    W4 m ρ c (Proc.devRef .tc main_v6) = Stage.dst (m ((c : Thread nD τ).loc main_arg1)) :=
  calc W4 m ρ c (Proc.devRef .tc main_v6)
    _ = W3 m ρ c (Proc.devRef .tc main_v6) := W4_of_ne m ρ c main_v6 (by decide)
    _ = W2 m ρ c (Proc.devRef .tc main_v6) := by host_carry hostOps0_2
    _ = W1 m ρ c (Proc.devRef .tc main_v6) := by host_carry hostOps0_1
    _ = Stage.dst (m ((c : Thread nD τ).loc main_arg1)) := W1_v6 m ρ c

/-! ## What the first launch finds -/

theorem V3_arg0 (c : Dev nD) : V3 m ρ c main_arg0 = m ((c : Thread nD τ).loc main_arg0) :=
  calc W3 m ρ c (Proc.devRef .tc main_arg0)
    _ = W2 m ρ c (Proc.devRef .tc main_arg0) := by host_carry hostOps0_2
    _ = W1 m ρ c (Proc.devRef .tc main_arg0) := by host_carry hostOps0_1
    _ = W0 m ρ c (Proc.devRef .tc main_arg0) := by host_carry hostOps0
    _ = m ((c : Thread nD τ).loc main_arg0) := rfl
theorem V3_arg3 (c : Dev nD) : V3 m ρ c main_arg3 = m ((c : Thread nD τ).loc main_arg3) :=
  calc W3 m ρ c (Proc.devRef .tc main_arg3)
    _ = W2 m ρ c (Proc.devRef .tc main_arg3) := by host_carry hostOps0_2
    _ = W1 m ρ c (Proc.devRef .tc main_arg3) := by host_carry hostOps0_1
    _ = W0 m ρ c (Proc.devRef .tc main_arg3) := by host_carry hostOps0
    _ = m ((c : Thread nD τ).loc main_arg3) := rfl
theorem V3_v15 (c : Dev nD) : V3 m ρ c main_v15 = Stage.dinv2 (F := Ideal) (m ((c : Thread nD τ).loc main_arg1)) := by
  refine (ops0_2_v15 (W2 m ρ c)).trans ?_
  rw [W2_v14]
  rfl

/-! ## What the second launch finds -/

theorem V5_v29 (c : Dev nD) :
    V5 m ρ c main_v29 = Stage.agg (F := Ideal) (m ((c : Thread nD τ).loc main_arg1)) (W4 m ρ c (Proc.devRef .tc main_v18)) := by
  refine (ops1_v29 (W4 m ρ c)).trans ?_
  rw [W4_v3, W4_v6]
  rfl
theorem V5_v15 (c : Dev nD) : V5 m ρ c main_v15 = Stage.dinv2 (F := Ideal) (m ((c : Thread nD τ).loc main_arg1)) :=
  calc W5 m ρ c (Proc.devRef .tc main_v15)
    _ = W4 m ρ c (Proc.devRef .tc main_v15) := by host_carry hostOps1
    _ = W3 m ρ c (Proc.devRef .tc main_v15) :=
          (W4_arr m ρ c 2).trans (((dat0 (V3 m ρ) c).arrAt_in 2 rfl _).trans (A_eq0 (V3 m ρ) c 2))
    _ = Stage.dinv2 (F := Ideal) (m ((c : Thread nD τ).loc main_arg1)) := V3_v15 m ρ c
theorem V5_v16 (c : Dev nD) : V5 m ρ c main_v16 = Stage.row128 (F := Ideal) (m ((c : Thread nD τ).loc main_arg4)) := by
  have h4 : W2 m ρ c (Proc.devRef .tc main_arg4) = m ((c : Thread nD τ).loc main_arg4) :=
    calc W2 m ρ c (Proc.devRef .tc main_arg4)
      _ = W1 m ρ c (Proc.devRef .tc main_arg4) := by host_carry hostOps0_1
      _ = W0 m ρ c (Proc.devRef .tc main_arg4) := by host_carry hostOps0
      _ = m ((c : Thread nD τ).loc main_arg4) := rfl
  calc W5 m ρ c (Proc.devRef .tc main_v16)
    _ = W4 m ρ c (Proc.devRef .tc main_v16) := by host_carry hostOps1
    _ = W3 m ρ c (Proc.devRef .tc main_v16) := W4_of_ne m ρ c main_v16 (by decide)
    _ = shapeCast S1x128 (W2 m ρ c (Proc.devRef .tc main_arg4) : FVec Ideal S128 .f32) shapeCasts_S128_S1x128 :=
          ops0_2_v16 (W2 m ρ c)
    _ = Stage.row128 (F := Ideal) (m ((c : Thread nD τ).loc main_arg4)) := by rw [h4]; rfl
theorem V5_arg5 (c : Dev nD) : V5 m ρ c main_arg5 = m ((c : Thread nD τ).loc main_arg5) :=
  calc W5 m ρ c (Proc.devRef .tc main_arg5)
    _ = W4 m ρ c (Proc.devRef .tc main_arg5) := by host_carry hostOps1
    _ = W3 m ρ c (Proc.devRef .tc main_arg5) := W4_of_ne m ρ c main_arg5 (by decide)
    _ = W2 m ρ c (Proc.devRef .tc main_arg5) := by host_carry hostOps0_2
    _ = W1 m ρ c (Proc.devRef .tc main_arg5) := by host_carry hostOps0_1
    _ = W0 m ρ c (Proc.devRef .tc main_arg5) := by host_carry hostOps0
    _ = m ((c : Thread nD τ).loc main_arg5) := rfl

end Cert.KernelIdeal.HostValues

end
-- ==== Proof.HostKb.lean ====
/-
  What each launch finds in the arrays it reads, as functions of the argument arrays: an argument is still as launched,
  the degree column and the bias rows are the host's terms of the arguments, and the aggregated rows are the
  gather-and-scatter-add of the previous launch's output.
-/
import proofs.«404547_j11510512353640_2_alg».proof.Proof.Gen.KernelIdeal.Frame
import proofs.«404547_j11510512353640_2_alg».proof.Proof.KStages
import Idealize.ShloMosaic.Lib.StableHlo.Run
import Idealize.ShloMosaic.PureOps.Ideal

noncomputable section

open scoped BigOperators

namespace Cert.KernelIdeal.HostValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A host stretch leaves alone a buffer none of its operations writes. -/
local macro "host_skip " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- Each operation's result at its own buffer is its function's value, and at any other buffer what was there: a
    stretch's fold read operation by operation, also under a concatenation's list of operands. -/
local macro "results_rw" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The edge lists, carried from the first host stretch to where the later stretches read them -/

private theorem W3_v3 (c : Dev nD) : W3 m ρ c (Proc.devRef .tc main_v3) = Stage.src (m ((c : Thread nD τ).loc main_arg1)) := by
  show StableHlo.after hostOps0_2 (W2 m ρ c) (Proc.devRef .tc main_v3) = _
  after_results_simp
  results_rw
  unfold Stage.src
  rfl

private theorem W3_v6 (c : Dev nD) : W3 m ρ c (Proc.devRef .tc main_v6) = Stage.dst (m ((c : Thread nD τ).loc main_arg1)) := by
  show StableHlo.after hostOps0_2 (W2 m ρ c) (Proc.devRef .tc main_v6) = _
  after_results_simp
  results_rw
  unfold Stage.dst
  rfl

private theorem W6_v3 (c : Dev nD) : W6 m ρ c (Proc.devRef .tc main_v3) = Stage.src (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by
          show StableHlo.after hostOps1 (W4 m ρ c) (Proc.devRef .tc main_v3) = _
          host_skip hostOps1
    _ = W3 m ρ c (Proc.devRef .tc main_v3) := W4_of_ne m ρ c main_v3 (by decide)
    _ = _ := W3_v3 m ρ c

private theorem W6_v6 (c : Dev nD) : W6 m ρ c (Proc.devRef .tc main_v6) = Stage.dst (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by
          show StableHlo.after hostOps1 (W4 m ρ c) (Proc.devRef .tc main_v6) = _
          host_skip hostOps1
    _ = W3 m ρ c (Proc.devRef .tc main_v6) := W4_of_ne m ρ c main_v6 (by decide)
    _ = _ := W3_v6 m ρ c

/-! ## The arguments, as launched at every boundary a later stretch reads them from -/

private theorem W9_of_W10 (c : Dev nD) (b : Ref sig .tc) (hb : ∀ w, Pipeline.arrRef spec3 w ≠ b) :
    W9 m ρ c (Proc.devRef .tc b) = W10 m ρ c (Proc.devRef .tc b) := (W10_of_ne m ρ c b hb).symm

private theorem W8_arg2 (c : Dev nD) : W8 m ρ c (Proc.devRef .tc main_arg2) = m ((c : Thread nD τ).loc main_arg2) :=
  calc W8 m ρ c (Proc.devRef .tc main_arg2)
    _ = W9 m ρ c (Proc.devRef .tc main_arg2) := Eq.symm (by
          show StableHlo.after hostOps3 (W8 m ρ c) (Proc.devRef .tc main_arg2) = _
          host_skip hostOps3)
    _ = W10 m ρ c (Proc.devRef .tc main_arg2) := W9_of_W10 m ρ c main_arg2 (by decide)
    _ = _ := W10_main_arg2 m ρ c

private theorem W6_arg2 (c : Dev nD) : W6 m ρ c (Proc.devRef .tc main_arg2) = m ((c : Thread nD τ).loc main_arg2) :=
  calc W6 m ρ c (Proc.devRef .tc main_arg2)
    _ = W7 m ρ c (Proc.devRef .tc main_arg2) := Eq.symm (by
          show StableHlo.after hostOps2 (W6 m ρ c) (Proc.devRef .tc main_arg2) = _
          host_skip hostOps2)
    _ = W8 m ρ c (Proc.devRef .tc main_arg2) := (W8_of_ne m ρ c main_arg2 (by decide)).symm
    _ = _ := W8_arg2 m ρ c

private theorem W8_arg9 (c : Dev nD) : W8 m ρ c (Proc.devRef .tc main_arg9) = m ((c : Thread nD τ).loc main_arg9) :=
  calc W8 m ρ c (Proc.devRef .tc main_arg9)
    _ = W9 m ρ c (Proc.devRef .tc main_arg9) := Eq.symm (by
          show StableHlo.after hostOps3 (W8 m ρ c) (Proc.devRef .tc main_arg9) = _
          host_skip hostOps3)
    _ = W10 m ρ c (Proc.devRef .tc main_arg9) := W9_of_W10 m ρ c main_arg9 (by decide)
    _ = _ := W10_main_arg9 m ρ c

private theorem W8_arg10 (c : Dev nD) : W8 m ρ c (Proc.devRef .tc main_arg10) = m ((c : Thread nD τ).loc main_arg10) :=
  calc W8 m ρ c (Proc.devRef .tc main_arg10)
    _ = W9 m ρ c (Proc.devRef .tc main_arg10) := Eq.symm (by
          show StableHlo.after hostOps3 (W8 m ρ c) (Proc.devRef .tc main_arg10) = _
          host_skip hostOps3)
    _ = W10 m ρ c (Proc.devRef .tc main_arg10) := W9_of_W10 m ρ c main_arg10 (by decide)
    _ = _ := W10_main_arg10 m ρ c

private theorem W8_arg12 (c : Dev nD) : W8 m ρ c (Proc.devRef .tc main_arg12) = m ((c : Thread nD τ).loc main_arg12) :=
  calc W8 m ρ c (Proc.devRef .tc main_arg12)
    _ = W9 m ρ c (Proc.devRef .tc main_arg12) := Eq.symm (by
          show StableHlo.after hostOps3 (W8 m ρ c) (Proc.devRef .tc main_arg12) = _
          host_skip hostOps3)
    _ = W10 m ρ c (Proc.devRef .tc main_arg12) := W9_of_W10 m ρ c main_arg12 (by decide)
    _ = _ := W10_main_arg12 m ρ c

private theorem W8_arg14 (c : Dev nD) : W8 m ρ c (Proc.devRef .tc main_arg14) = m ((c : Thread nD τ).loc main_arg14) :=
  calc W8 m ρ c (Proc.devRef .tc main_arg14)
    _ = W9 m ρ c (Proc.devRef .tc main_arg14) := Eq.symm (by
          show StableHlo.after hostOps3 (W8 m ρ c) (Proc.devRef .tc main_arg14) = _
          host_skip hostOps3)
    _ = W10 m ρ c (Proc.devRef .tc main_arg14) := W9_of_W10 m ρ c main_arg14 (by decide)
    _ = _ := W10_main_arg14 m ρ c

/-! ## What the third launch finds -/

theorem V7_v41 (c : Dev nD) :
    V7 m ρ c main_v41 = Stage.agg (F := Ideal) (m ((c : Thread nD τ).loc main_arg1)) (W6 m ρ c (Proc.devRef .tc main_v30)) := by
  show StableHlo.after hostOps2 (W6 m ρ c) (Proc.devRef .tc main_v41) = _
  after_results_simp
  rw [W6_v3, W6_v6]
  unfold Stage.agg Stage.dstCol Stage.srcCol
  rfl

/-! The degree column: the in-degree, what the first stretch compares and inverts, the "where" function's choice between
    them, and the column it is reshaped into. -/

private theorem W1_v12 (c : Dev nD) : W1 m ρ c (Proc.devRef .tc main_v12)
    = cmpf .ogt (Stage.deg (F := Ideal) (m ((c : Thread nD τ).loc main_arg1))) (broadcastInDim S50000 ![] bcast_S_S50000 (constant S_ .f32 0x00000000#32)) := by
  show StableHlo.after hostOps0 (W0 m ρ c) (Proc.devRef .tc main_v12) = _
  after_results_simp
  results_rw
  unfold Stage.deg Stage.dstCol Stage.dst
  rfl

private theorem W1_v13 (c : Dev nD) : W1 m ρ c (Proc.devRef .tc main_v13) = Host.rsqrt (Stage.deg (F := Ideal) (m ((c : Thread nD τ).loc main_arg1))) := by
  show StableHlo.after hostOps0 (W0 m ρ c) (Proc.devRef .tc main_v13) = _
  after_results_simp
  results_rw
  unfold Stage.deg Stage.dstCol Stage.dst
  rfl

private theorem W1_cst_2 (c : Dev nD) : W1 m ρ c (Proc.devRef .tc main_cst_2) = constant (F := Ideal) S_ .f32 0x00000000#32 := by
  show StableHlo.after hostOps0 (W0 m ρ c) (Proc.devRef .tc main_cst_2) = _
  after_results_simp

/-- The "where" function's three operations, from any contents. -/
private theorem where_v14 (V : Valuation τ sig (Elt Ideal)) :
    StableHlo.after hostOps0_1 V (Proc.devRef .tc main_v14)
      = select (V (Proc.devRef .tc main_v12)) (V (Proc.devRef .tc main_v13))
          (broadcastInDim S50000 ![] bcast_S_S50000 (id (V (Proc.devRef .tc main_cst_2)))) := rfl

private theorem W2_v14 (c : Dev nD) : W2 m ρ c (Proc.devRef .tc main_v14) = Stage.dinv (F := Ideal) (m ((c : Thread nD τ).loc main_arg1)) := by
  show StableHlo.after hostOps0_1 (W1 m ρ c) (Proc.devRef .tc main_v14) = _
  rw [where_v14, W1_v12, W1_v13, W1_cst_2]
  rfl

/-- The reshape into a column, from any contents. -/
private theorem reshape_v15 (V : Valuation τ sig (Elt Ideal)) :
    StableHlo.after hostOps0_2 V (Proc.devRef .tc main_v15) = shapeCast _ (V (Proc.devRef .tc main_v14)) shapeCasts_S50000_S50000x1 := rfl

private theorem W3_v15 (c : Dev nD) : W3 m ρ c (Proc.devRef .tc main_v15) = Stage.dinv2 (F := Ideal) (m ((c : Thread nD τ).loc main_arg1)) := by
  show StableHlo.after hostOps0_2 (W2 m ρ c) (Proc.devRef .tc main_v15) = _
  rw [reshape_v15, W2_v14]
  rfl

theorem V7_v15 (c : Dev nD) : V7 m ρ c main_v15 = Stage.dinv2 (F := Ideal) (m ((c : Thread nD τ).loc main_arg1)) :=
  calc W7 m ρ c (Proc.devRef .tc main_v15)
    _ = W6 m ρ c (Proc.devRef .tc main_v15) := by
          show StableHlo.after hostOps2 (W6 m ρ c) (Proc.devRef .tc main_v15) = _
          host_skip hostOps2
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := by
          show StableHlo.after hostOps1 (W4 m ρ c) (Proc.devRef .tc main_v15) = _
          host_skip hostOps1
    _ = W3 m ρ c (Proc.devRef .tc main_v15) := (W4_arr m ρ c 2).trans (((dat0 (V3 m ρ) c).arrAt_in 2 rfl _).trans (A_eq0 (V3 m ρ) c 2))
    _ = _ := W3_v15 m ρ c

theorem V7_v17 (c : Dev nD) : V7 m ρ c main_v17 = Stage.row128 (F := Ideal) (m ((c : Thread nD τ).loc main_arg6)) :=
  calc W7 m ρ c (Proc.devRef .tc main_v17)
    _ = W6 m ρ c (Proc.devRef .tc main_v17) := by
          show StableHlo.after hostOps2 (W6 m ρ c) (Proc.devRef .tc main_v17) = _
          host_skip hostOps2
    _ = W5 m ρ c (Proc.devRef .tc main_v17) := W6_of_ne m ρ c main_v17 (by decide)
    _ = W4 m ρ c (Proc.devRef .tc main_v17) := by
          show StableHlo.after hostOps1 (W4 m ρ c) (Proc.devRef .tc main_v17) = _
          host_skip hostOps1
    _ = W3 m ρ c (Proc.devRef .tc main_v17) := W4_of_ne m ρ c main_v17 (by decide)
    _ = _ := by
          show StableHlo.after hostOps0_2 (W2 m ρ c) (Proc.devRef .tc main_v17) = _
          after_results_simp
          rfl

theorem V7_v48 (c : Dev nD) : V7 m ρ c main_v48 = Stage.onehot (F := Ideal) (m ((c : Thread nD τ).loc main_arg2)) := by
  show StableHlo.after hostOps2 (W6 m ρ c) (Proc.devRef .tc main_v48) = _
  after_results_simp
  rw [W6_arg2]
  unfold Stage.onehot
  rfl

/-! ## What the last launch finds -/

theorem V9_v49 (c : Dev nD) : V9 m ρ c main_v49 = W8 m ρ c (Proc.devRef .tc main_v49) := by
  show StableHlo.after hostOps3 (W8 m ρ c) (Proc.devRef .tc main_v49) = _
  host_skip hostOps3

theorem V9_v58 (c : Dev nD) : V9 m ρ c main_v58 = Stage.invc2 (F := Ideal) (m ((c : Thread nD τ).loc main_arg2)) := by
  show StableHlo.after hostOps3 (W8 m ρ c) (Proc.devRef .tc main_v58) = _
  after_results_simp
  rw [W8_arg2]
  unfold Stage.invc2 Stage.cnt
  rfl

theorem V9_arg7 (c : Dev nD) : V9 m ρ c main_arg7 = m ((c : Thread nD τ).loc main_arg7) :=
  calc W9 m ρ c (Proc.devRef .tc main_arg7)
    _ = W10 m ρ c (Proc.devRef .tc main_arg7) :=
          ((W10_arr m ρ c 2).trans (((dat3 (V9 m ρ) c).arrAt_in 2 rfl _).trans (A_eq3 (V9 m ρ) c 2))).symm
    _ = _ := W10_main_arg7 m ρ c

theorem V9_v59 (c : Dev nD) : V9 m ρ c main_v59 = Stage.row1024 (F := Ideal) (m ((c : Thread nD τ).loc main_arg9)) := by
  show StableHlo.after hostOps3 (W8 m ρ c) (Proc.devRef .tc main_v59) = _
  after_results_simp
  rw [W8_arg9]
  rfl

theorem V9_v60 (c : Dev nD) : V9 m ρ c main_v60 = Stage.row1024 (F := Ideal) (m ((c : Thread nD τ).loc main_arg10)) := by
  show StableHlo.after hostOps3 (W8 m ρ c) (Proc.devRef .tc main_v60) = _
  after_results_simp
  rw [W8_arg10]
  rfl

theorem V9_arg11 (c : Dev nD) : V9 m ρ c main_arg11 = m ((c : Thread nD τ).loc main_arg11) :=
  calc W9 m ρ c (Proc.devRef .tc main_arg11)
    _ = W10 m ρ c (Proc.devRef .tc main_arg11) :=
          ((W10_arr m ρ c 5).trans (((dat3 (V9 m ρ) c).arrAt_in 5 rfl _).trans (A_eq3 (V9 m ρ) c 5))).symm
    _ = _ := W10_main_arg11 m ρ c

theorem V9_v61 (c : Dev nD) : V9 m ρ c main_v61 = Stage.row1 (F := Ideal) (m ((c : Thread nD τ).loc main_arg12)) := by
  show StableHlo.after hostOps3 (W8 m ρ c) (Proc.devRef .tc main_v61) = _
  after_results_simp
  rw [W8_arg12]
  rfl

theorem V9_arg13 (c : Dev nD) : V9 m ρ c main_arg13 = m ((c : Thread nD τ).loc main_arg13) :=
  calc W9 m ρ c (Proc.devRef .tc main_arg13)
    _ = W10 m ρ c (Proc.devRef .tc main_arg13) :=
          ((W10_arr m ρ c 7).trans (((dat3 (V9 m ρ) c).arrAt_in 7 rfl _).trans (A_eq3 (V9 m ρ) c 7))).symm
    _ = _ := W10_main_arg13 m ρ c

theorem V9_v62 (c : Dev nD) : V9 m ρ c main_v62 = Stage.row1 (F := Ideal) (m ((c : Thread nD τ).loc main_arg14)) := by
  show StableHlo.after hostOps3 (W8 m ρ c) (Proc.devRef .tc main_v62) = _
  after_results_simp
  rw [W8_arg14]
  rfl

end Cert.KernelIdeal.HostValues

end
-- ==== Proof.KValue.lean ====
/-
  The kernel program's two results as functions of the argument arrays: each launch's output (Spec) of what it
  finds, what it finds being the host's terms of the arguments and of the launch before.
-/
import proofs.«404547_j11510512353640_2_alg».proof.Proof.Gen.KernelIdeal.Frame
import proofs.«404547_j11510512353640_2_alg».proof.Proof.Spec
import proofs.«404547_j11510512353640_2_alg».proof.Proof.KStages
import proofs.«404547_j11510512353640_2_alg».proof.Proof.Region0
import proofs.«404547_j11510512353640_2_alg».proof.Proof.Region1
import proofs.«404547_j11510512353640_2_alg».proof.Proof.Region2
import proofs.«404547_j11510512353640_2_alg».proof.Proof.Region3
import proofs.«404547_j11510512353640_2_alg».proof.Proof.HostKa
import proofs.«404547_j11510512353640_2_alg».proof.Proof.HostKb
import Idealize.ShloMosaic.PureOps.Ideal

noncomputable section

open scoped BigOperators

namespace Cert.KernelIdeal.KValue

open Cert.KernelIdeal Cert.KernelIdeal.Gen Idealize.ShloMosaic Idealize.ShloMosaic.TcCoe Idealize.SL.Sem
open Cert.KernelIdeal.HostValues Cert.Spec

variable (m : (ℓ : Loc nD τ sig) → Buf (Elt Ideal) ℓ) (ρ : Dev nD → PrngReg)

/-- The degree column of the edge list the program was launched with. -/
abbrev d2 (c : Dev nD) : FVec Ideal S50000x1 .f32 := Stage.dinv2 (F := Ideal) (m ((c : Thread nD τ).loc main_arg1))

/-- The first layer's scaled rows `(x · W₁) · d`. -/
abbrev h1 (c : Dev nD) : Arr2 50000 128 :=
  scaled (m ((c : Thread nD τ).loc main_arg0)) (m ((c : Thread nD τ).loc main_arg3)) (d2 m c)

/-- The second layer's scaled rows. -/
abbrev h2 (c : Dev nD) : Arr2 50000 128 :=
  layer2 (Stage.agg (F := Ideal) (m ((c : Thread nD τ).loc main_arg1)) (h1 m c)) (d2 m c)
    (Stage.row128 (F := Ideal) (m ((c : Thread nD τ).loc main_arg4))) (m ((c : Thread nD τ).loc main_arg5))

/-- The per-graph sums of the second layer's activation. -/
abbrev sums (c : Dev nD) : Arr2 64 128 :=
  pooled (Stage.agg (F := Ideal) (m ((c : Thread nD τ).loc main_arg1)) (h2 m c)) (d2 m c)
    (Stage.row128 (F := Ideal) (m ((c : Thread nD τ).loc main_arg6))) (Stage.onehot (F := Ideal) (m ((c : Thread nD τ).loc main_arg2)))

theorem W4_v18 (c : Dev nD) : W4 m ρ c (Proc.devRef .tc main_v18) = h1 m c := by
  rw [show W4 m ρ c (Proc.devRef .tc main_v18) = (dat0 (V3 m ρ) c).arrAt 3 cfg0.N from W4_arr m ρ c 3,
    Region0.final0, V3_arg0, V3_arg3, V3_v15]

theorem W6_v30 (c : Dev nD) : W6 m ρ c (Proc.devRef .tc main_v30) = h2 m c := by
  rw [show W6 m ρ c (Proc.devRef .tc main_v30) = (dat1 (V5 m ρ) c).arrAt 4 cfg1.N from W6_arr m ρ c 4,
    Region1.final1, V5_v29, V5_v15, V5_v16, V5_arg5, W4_v18]

theorem W8_v49 (c : Dev nD) : W8 m ρ c (Proc.devRef .tc main_v49) = sums m c := by
  rw [show W8 m ρ c (Proc.devRef .tc main_v49) = (dat2 (V7 m ρ) c).arrAt 4 cfg2.N from W8_arr m ρ c 4,
    Region2.final2, V7_v41, V7_v15, V7_v17, V7_v48, W6_v30]

/-- The first result: the head's mean of the pooled sums and the reciprocal sizes. -/
theorem W10_v63_0 (c : Dev nD) :
    W10 m ρ c (Proc.devRef .tc main_v63_0)
      = k3_pay4 (F := Ideal) (sums m c) (Stage.invc2 (F := Ideal) (m ((c : Thread nD τ).loc main_arg2))) (m ((c : Thread nD τ).loc main_arg7))
          (Stage.row1024 (F := Ideal) (m ((c : Thread nD τ).loc main_arg9))) (Stage.row1024 (F := Ideal) (m ((c : Thread nD τ).loc main_arg10)))
          (m ((c : Thread nD τ).loc main_arg11)) (Stage.row1 (F := Ideal) (m ((c : Thread nD τ).loc main_arg12))) := by
  rw [show W10 m ρ c (Proc.devRef .tc main_v63_0) = (dat3 (V9 m ρ) c).arrAt 9 cfg3.N from W10_arr m ρ c 9,
    Region3.final3_9, V9_v49, V9_v58, V9_arg7, V9_v59, V9_v60, V9_arg11, V9_v61, W8_v49]

/-- The second result: the head's softplus. -/
theorem W10_v63_1 (c : Dev nD) :
    W10 m ρ c (Proc.devRef .tc main_v63_1)
      = k3_pay1 (F := Ideal) (k3_pay2 (F := Ideal) (sums m c) (Stage.invc2 (F := Ideal) (m ((c : Thread nD τ).loc main_arg2))) (m ((c : Thread nD τ).loc main_arg7))
            (Stage.row1024 (F := Ideal) (m ((c : Thread nD τ).loc main_arg9))) (Stage.row1024 (F := Ideal) (m ((c : Thread nD τ).loc main_arg10))))
          (m ((c : Thread nD τ).loc main_arg13)) (k3_pay3 (F := Ideal) (Stage.row1 (F := Ideal) (m ((c : Thread nD τ).loc main_arg14)))) := by
  rw [show W10 m ρ c (Proc.devRef .tc main_v63_1) = (dat3 (V9 m ρ) c).arrAt 10 cfg3.N from W10_arr m ρ c 10,
    Region3.final3_10, V9_v49, V9_v58, V9_arg7, V9_v59, V9_v60, V9_arg13, V9_v62, W8_v49]

end Cert.KernelIdeal.KValue

end
-- ==== Proof.Bridge.lean ====
/-
  The kernel program's two results as the reference's own stages of the kernel's argument arrays: layer by layer, the
  pooling, the recurrent step, the two heads.
-/
import proofs.«404547_j11510512353640_2_alg».proof.Proof.KValue
import proofs.«404547_j11510512353640_2_alg».proof.Proof.RefStages
import proofs.«404547_j11510512353640_2_alg».proof.Proof.LayerCore
import proofs.«404547_j11510512353640_2_alg».proof.Proof.PoolCore
import proofs.«404547_j11510512353640_2_alg».proof.Proof.HeadH
import proofs.«404547_j11510512353640_2_alg».proof.Proof.HeadMean
import proofs.«404547_j11510512353640_2_alg».proof.Proof.HeadLogvar

noncomputable section

open scoped BigOperators

namespace Cert.Bridge

open Cert.KernelIdeal Cert.KernelIdeal.Gen Idealize.ShloMosaic Idealize.ShloMosaic.TcCoe Idealize.ShloMosaic.ValueIdx Idealize.SL.Sem
open Cert.Spec Cert.Core

variable [Cert.ReferenceIdeal.Facts]
variable (m : (ℓ : Loc nD τ sig) → Buf (Elt Ideal) ℓ) (ρ : Dev nD → PrngReg)

/-- The first layer's activation, kernel's form and reference's. -/
theorem feat1 (c : Dev nD) :
    feat (Stage.agg (F := Ideal) (m ((c : Thread nD τ).loc main_arg1)) (KValue.h1 m c)) (KValue.d2 m c) (Stage.row128 (F := Ideal) (m ((c : Thread nD τ).loc main_arg4)))
      = F1 (m ((c : Thread nD τ).loc main_arg0)) (m ((c : Thread nD τ).loc main_arg1)) (m ((c : Thread nD τ).loc main_arg3)) (m ((c : Thread nD τ).loc main_arg4)) :=
  layer_core _ _ _ _

/-- The second layer's. -/
theorem feat2 (c : Dev nD) :
    feat (Stage.agg (F := Ideal) (m ((c : Thread nD τ).loc main_arg1)) (KValue.h2 m c)) (KValue.d2 m c) (Stage.row128 (F := Ideal) (m ((c : Thread nD τ).loc main_arg6)))
      = F2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h : KValue.h2 m c = scaled (F1 (m ((c : Thread nD τ).loc main_arg0)) (m ((c : Thread nD τ).loc main_arg1)) (m ((c : Thread nD τ).loc main_arg3)) (m ((c : Thread nD τ).loc main_arg4))) (m ((c : Thread nD τ).loc main_arg5)) (KValue.d2 m c) := by
    show layer2 _ _ _ _ = _
    unfold layer2
    rw [feat1]
  rw [h]
  exact layer_core _ _ _ _

/-- The per-graph sums. -/
theorem sums_eq (c : Dev nD) :
    KValue.sums m c = Cert.ReferenceIdeal.StagePool.sums (F := Ideal) (m ((c : Thread nD τ).loc main_arg2)) (F2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show pooled _ _ _ _ = _
  rw [pooled_core, feat2]

/-- The sums times the reciprocal sizes are the reference's mean. -/
theorem mean_eq (c : Dev nD) (i : (⟨2, ![64, 128]⟩ : Shape).Idx) :
    KValue.sums m c i * Stage.invc2 (F := Ideal) (m ((c : Thread nD τ).loc main_arg2)) (ix2 (c0 i) (0 : Fin 1))
      = Pm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  rw [mean_core, sums_eq]
  rfl

/-- The recurrent state. -/
theorem state_eq (c : Dev nD) :
    k3_pay2 (F := Ideal) (KValue.sums m c) (Stage.invc2 (F := Ideal) (m ((c : Thread nD τ).loc main_arg2))) (m ((c : Thread nD τ).loc main_arg7))
        (Stage.row1024 (F := Ideal) (m ((c : Thread nD τ).loc main_arg9))) (Stage.row1024 (F := Ideal) (m ((c : Thread nD τ).loc main_arg10)))
      = Cert.ReferenceIdeal.StageH.hT (F := Ideal) (Pm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg9)) (m ((c : Thread nD τ).loc main_arg10)) :=
  hT_core _ _ _ (mean_eq m c) _ _ _

/-- THE FIRST RESULT of the kernel program is the reference's function of the kernel's arguments. -/
theorem k_mean (c : Dev nD) :
    W10 m ρ c (Proc.devRef .tc main_v63_0)
      = Rmean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) := by
  rw [KValue.W10_v63_0, mean_head_core, state_eq]
  rfl

/-- THE SECOND RESULT likewise. -/
theorem k_logvar (c : Dev nD) :
    W10 m ρ c (Proc.devRef .tc main_v63_1)
      = Rlogvar (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg13)) (m ((c : Thread nD τ).loc main_arg14)) := by
  rw [KValue.W10_v63_1, state_eq, logvar_head_core]
  rfl

end Cert.Bridge

end
-- ==== Proof.lean ====
/-
  Two graph-convolution layers, a per-graph mean pooling, one recurrent step from a zero state and two linear heads,
  computed by four launches among host gathers and scatter-adds, against the same network written with whole-array
  operations. Over the extended reals the two programs compute one function. In a layer the reference weights each
  message by `d[src] · d[dst]` before adding it onto its destination row, and the kernel scales a node's row by `d`
  before the messages are taken and the aggregated row by `d` afterwards: `d`, the inverse square root of a positive
  degree or zero, is a non-negative real, such a factor distributes over a sum of extended reals, and every message
  that lands on a row has that row as its destination. The pooling is a product with the node-by-graph indicator on one
  side and a scatter-add by graph number on the other, followed by a product with one over the size against a quotient
  by it, the size being at least one. In the recurrent step and the heads a contraction against transposed weights, a
  logistic spelt `1 / (1 + exp (-z))`, a row sum of products and a softplus are the same functions written twice.
  Each program's frame is its run with the values dropped; the idealization rewrote nothing.
-/
import proofs.«404547_j11510512353640_2_alg».proof.Defs
import proofs.«404547_j11510512353640_2_alg».proof.Proof.Gen.Kernel
import proofs.«404547_j11510512353640_2_alg».proof.Proof.Gen.Kernel.Skeleton
import proofs.«404547_j11510512353640_2_alg».proof.Proof.Gen.Kernel.Launch
import proofs.«404547_j11510512353640_2_alg».proof.Proof.Gen.Kernel.Points
import proofs.«404547_j11510512353640_2_alg».proof.Proof.Gen.Kernel.Frame
import proofs.«404547_j11510512353640_2_alg».proof.Proof.Gen.KernelIdeal
import proofs.«404547_j11510512353640_2_alg».proof.Proof.Gen.KernelIdeal.Skeleton
import proofs.«404547_j11510512353640_2_alg».proof.Proof.Gen.KernelIdeal.Launch
import proofs.«404547_j11510512353640_2_alg».proof.Proof.Gen.KernelIdeal.Points
import proofs.«404547_j11510512353640_2_alg».proof.Proof.Gen.KernelIdeal.Frame
import proofs.«404547_j11510512353640_2_alg».proof.Proof.Gen.ReferenceIdeal
import proofs.«404547_j11510512353640_2_alg».proof.Proof.RefRunStages
import proofs.«404547_j11510512353640_2_alg».proof.Proof.Gen.Pre_finite_inputs
import proofs.«404547_j11510512353640_2_alg».proof.Proof.KernelRun
import proofs.«404547_j11510512353640_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.RunStages.run m ρ)

/-- From memories agreeing on the arguments both programs end with equal results: each result is one function of
    the arguments (the kernel's by its four launches read in turn, the reference's by its run), and the functions
    are the same. -/
theorem algebraic : Cert.algebraic_KernelIdeal_ReferenceIdeal := by
  intro m ρ m' ρ' _ hagree
  refine ⟨fun c => Cert.KernelIdeal.Gen.W10 m ρ c (Proc.devRef .tc Cert.KernelIdeal.main_v63_0),
    fun c => Cert.KernelIdeal.Gen.W10 m ρ c (Proc.devRef .tc Cert.KernelIdeal.main_v63_1), Cert.KernelIdeal.Gen.run_results m ρ, ?_⟩
  refine (θ_run Cert.ReferenceIdeal.defs _ _).mono (fun r h c => ⟨(h c).1.trans ?_, (h c).2.1.trans ?_, (h c).2.2⟩)
    (Cert.ReferenceIdeal.RunStages.run m' ρ')
  · obtain ⟨e0, e1, e2, e3, e4, e5, e6, e7, e8, e9, e10, e11, e12, e13, e14⟩ := hagree c
    beta_reduce
    rw [Cert.Bridge.k_mean, e0, e1, e2, e3, e4, e5, e6, e7, e9, e10, e11, e12]
  · obtain ⟨e0, e1, e2, e3, e4, e5, e6, e7, e8, e9, e10, e11, e12, e13, e14⟩ := hagree c
    beta_reduce
    rw [Cert.Bridge.k_logvar, e0, e1, e2, e3, e4, e5, e6, e7, e9, e10, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
